-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v15_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v15_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x100 : Shape := ⟨2, ![25000, 100]⟩
abbrev S2x400000 : Shape := ⟨2, ![2, 400000]⟩
abbrev S400000x120 : Shape := ⟨2, ![400000, 120]⟩
abbrev S400000x3 : Shape := ⟨2, ![400000, 3]⟩
abbrev S25000x1 : Shape := ⟨2, ![25000, 1]⟩
abbrev S100x128 : Shape := ⟨2, ![100, 128]⟩
abbrev S128 : Shape := ⟨1, ![128]⟩
abbrev S120x128 : Shape := ⟨2, ![120, 128]⟩
abbrev S128x128 : Shape := ⟨2, ![128, 128]⟩
abbrev S384x128 : Shape := ⟨2, ![384, 128]⟩
abbrev S256x128 : Shape := ⟨2, ![256, 128]⟩
abbrev S1x64 : Shape := ⟨2, ![1, 64]⟩
abbrev S_ : Shape := ⟨0, ![]⟩

class Facts : Prop where
  bcast_S_S25000x100 : S_.BroadcastsInDim S25000x100 (![] : Fin 0 → Fin S25000x100.rank)
  reducesTo_S25000x100_S_d0_1 : S25000x100.ReducesTo [0, 1] S_
  h_S_ : 0 < S_.numel
  bcast_S_S400000x120 : S_.BroadcastsInDim S400000x120 (![] : Fin 0 → Fin S400000x120.rank)
  reducesTo_S400000x120_S_d0_1 : S400000x120.ReducesTo [0, 1] S_
  bcast_S_S400000x3 : S_.BroadcastsInDim S400000x3 (![] : Fin 0 → Fin S400000x3.rank)
  reducesTo_S400000x3_S_d0_1 : S400000x3.ReducesTo [0, 1] S_
  bcast_S_S25000x1 : S_.BroadcastsInDim S25000x1 (![] : Fin 0 → Fin S25000x1.rank)
  reducesTo_S25000x1_S_d0_1 : S25000x1.ReducesTo [0, 1] S_
  bcast_S_S100x128 : S_.BroadcastsInDim S100x128 (![] : Fin 0 → Fin S100x128.rank)
  reducesTo_S100x128_S_d0_1 : S100x128.ReducesTo [0, 1] S_
  bcast_S_S128 : S_.BroadcastsInDim S128 (![] : Fin 0 → Fin S128.rank)
  reducesTo_S128_S_d0 : S128.ReducesTo [0] S_
  bcast_S_S120x128 : S_.BroadcastsInDim S120x128 (![] : Fin 0 → Fin S120x128.rank)
  reducesTo_S120x128_S_d0_1 : S120x128.ReducesTo [0, 1] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S256x128 : S_.BroadcastsInDim S256x128 (![] : Fin 0 → Fin S256x128.rank)
  reducesTo_S256x128_S_d0_1 : S256x128.ReducesTo [0, 1] S_
  bcast_S_S1x64 : S_.BroadcastsInDim S1x64 (![] : Fin 0 → Fin S1x64.rank)
  reducesTo_S1x64_S_d0_1 : S1x64.ReducesTo [0, 1] S_
  bcast_S_S2x400000 : S_.BroadcastsInDim S2x400000 (![] : Fin 0 → Fin S2x400000.rank)
  reducesTo_S2x400000_S_d0_1 : S2x400000.ReducesTo [0, 1] S_

variable [Facts]

def fn_part8 {F : FTy → Type} [FloatOps F] (main_arg1 : IVec S2x400000 32) (main_v133 : IVec S_ 1) (main_v135 : IVec S2x400000 1) (main_c_53 : IVec S_ 32) : IVec S_ 1 :=
  let main_v136 : IVec S2x400000 32 := broadcastInDim S2x400000 ![] bcast_S_S2x400000 main_c_53
  let main_v137 : IVec S2x400000 1 := cmpi .slt main_arg1 main_v136
  let main_v138 : IVec S2x400000 1 := andi main_v135 main_v137
  let main_c_54 : IVec S_ 1 := constantI S_ 1 1#1
  let main_v139 : IVec S_ 1 := (fun x v => Host.reduce IntOp.andi x v reducesTo_S2x400000_S_d0_1 h_S_) main_v138 main_c_54
  let main_v140 : IVec S_ 1 := andi main_v133 main_v139
  main_v140

def fn_part7 {F : FTy → Type} [FloatOps F] (main_arg1 : IVec S2x400000 32) (main_arg26 : FVec F S128x128 .f32) (main_arg27 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x128 .f32 := Host.absf main_arg26
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg27
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_c_52 : IVec S_ 32 := constantI S_ 32 4294942296#32
  let main_v134 : IVec S2x400000 32 := broadcastInDim S2x400000 ![] bcast_S_S2x400000 main_c_52
  let main_v135 : IVec S2x400000 1 := cmpi .sge main_arg1 main_v134
  let main_c_53 : IVec S_ 32 := constantI S_ 32 25000#32
  fn_part8 (F := F) main_arg1 main_v133 main_v135 main_c_53

def fn_part6 {F : FTy → Type} [FloatOps F] (main_arg1 : IVec S2x400000 32) (main_arg22 : FVec F S128 .f32) (main_arg23 : FVec F S1x64 .f32) (main_arg24 : FVec F S128x128 .f32) (main_arg25 : FVec F S128 .f32) (main_arg26 : FVec F S128x128 .f32) (main_arg27 : FVec F S128 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S1x64 .f32 := Host.absf main_arg23
  let main_cst_42 : FVec F S_ .f32 := constant S_ .f32 0x7F800000#32
  let main_v110 : FVec F S1x64 .f32 := broadcastInDim S1x64 ![] bcast_S_S1x64 main_cst_42
  let main_v111 : IVec S1x64 1 := cmpf .olt main_v109 main_v110
  let main_c_43 : IVec S_ 1 := constantI S_ 1 1#1
  let main_v112 : IVec S_ 1 := (fun x v => Host.reduce IntOp.andi x v reducesTo_S1x64_S_d0_1 h_S_) main_v111 main_c_43
  let main_v113 : IVec S_ 1 := andi main_v108 main_v112
  let main_v114 : FVec F S128x128 .f32 := Host.absf main_arg24
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg25
  fn_part7 (F := F) main_arg1 main_arg26 main_arg27 main_v118 main_v119

def fn_part5 {F : FTy → Type} [FloatOps F] (main_arg1 : IVec S2x400000 32) (main_arg19 : FVec F S384x128 .f32) (main_arg20 : FVec F S128 .f32) (main_arg21 : FVec F S128x128 .f32) (main_arg22 : FVec F S128 .f32) (main_arg23 : FVec F S1x64 .f32) (main_arg24 : FVec F S128x128 .f32) (main_arg25 : FVec F S128 .f32) (main_arg26 : FVec F S128x128 .f32) (main_arg27 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S384x128 .f32 := Host.absf main_arg19
  let main_cst_34 : FVec F S_ .f32 := constant S_ .f32 0x7F800000#32
  let main_v90 : FVec F S384x128 .f32 := broadcastInDim S384x128 ![] bcast_S_S384x128 main_cst_34
  let main_v91 : IVec S384x128 1 := cmpf .olt main_v89 main_v90
  let main_c_35 : IVec S_ 1 := constantI S_ 1 1#1
  let main_v92 : IVec S_ 1 := (fun x v => Host.reduce IntOp.andi x v reducesTo_S384x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg21
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg1 main_arg22 main_arg23 main_arg24 main_arg25 main_arg26 main_arg27 main_v98 main_v101 main_c_39

def fn_part4 {F : FTy → Type} [FloatOps F] (main_arg1 : IVec S2x400000 32) (main_arg15 : FVec F S256x128 .f32) (main_arg16 : FVec F S128 .f32) (main_arg17 : FVec F S128x128 .f32) (main_arg18 : FVec F S128 .f32) (main_arg19 : FVec F S384x128 .f32) (main_arg20 : FVec F S128 .f32) (main_arg21 : FVec F S128x128 .f32) (main_arg22 : FVec F S128 .f32) (main_arg23 : FVec F S1x64 .f32) (main_arg24 : FVec F S128x128 .f32) (main_arg25 : FVec F S128 .f32) (main_arg26 : FVec F S128x128 .f32) (main_arg27 : FVec F S128 .f32) (main_v63 : IVec S_ 1) (main_v67 : IVec S_ 1) : IVec S_ 1 :=
  let main_v68 : IVec S_ 1 := andi main_v63 main_v67
  let main_v69 : FVec F S256x128 .f32 := Host.absf main_arg15
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg1 main_arg19 main_arg20 main_arg21 main_arg22 main_arg23 main_arg24 main_arg25 main_arg26 main_arg27 main_v83 main_v84 main_cst_32

def fn_part3 {F : FTy → Type} [FloatOps F] (main_arg1 : IVec S2x400000 32) (main_arg12 : FVec F S128 .f32) (main_arg13 : FVec F S128x128 .f32) (main_arg14 : FVec F S128 .f32) (main_arg15 : FVec F S256x128 .f32) (main_arg16 : FVec F S128 .f32) (main_arg17 : FVec F S128x128 .f32) (main_arg18 : FVec F S128 .f32) (main_arg19 : FVec F S384x128 .f32) (main_arg20 : FVec F S128 .f32) (main_arg21 : FVec F S128x128 .f32) (main_arg22 : FVec F S128 .f32) (main_arg23 : FVec F S1x64 .f32) (main_arg24 : FVec F S128x128 .f32) (main_arg25 : FVec F S128 .f32) (main_arg26 : FVec F S128x128 .f32) (main_arg27 : FVec F S128 .f32) (main_v48 : IVec S_ 1) (main_v49 : FVec F S384x128 .f32) (main_v50 : FVec F S384x128 .f32) : IVec S_ 1 :=
  let main_v51 : IVec S384x128 1 := cmpf .olt main_v49 main_v50
  let main_c_19 : IVec S_ 1 := constantI S_ 1 1#1
  let main_v52 : IVec S_ 1 := (fun x v => Host.reduce IntOp.andi x v reducesTo_S384x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_arg17 main_arg18 main_arg19 main_arg20 main_arg21 main_arg22 main_arg23 main_arg24 main_arg25 main_arg26 main_arg27 main_v63 main_v67

def fn_part2 {F : FTy → Type} [FloatOps F] (main_arg1 : IVec S2x400000 32) (main_arg8 : FVec F S128 .f32) (main_arg9 : FVec F S128x128 .f32) (main_arg10 : FVec F S128 .f32) (main_arg11 : FVec F S384x128 .f32) (main_arg12 : FVec F S128 .f32) (main_arg13 : FVec F S128x128 .f32) (main_arg14 : FVec F S128 .f32) (main_arg15 : FVec F S256x128 .f32) (main_arg16 : FVec F S128 .f32) (main_arg17 : FVec F S128x128 .f32) (main_arg18 : FVec F S128 .f32) (main_arg19 : FVec F S384x128 .f32) (main_arg20 : FVec F S128 .f32) (main_arg21 : FVec F S128x128 .f32) (main_arg22 : FVec F S128 .f32) (main_arg23 : FVec F S1x64 .f32) (main_arg24 : FVec F S128x128 .f32) (main_arg25 : FVec F S128 .f32) (main_arg26 : FVec F S128x128 .f32) (main_arg27 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S384x128 .f32 := Host.absf main_arg11
  let main_cst_18 : FVec F S_ .f32 := constant S_ .f32 0x7F800000#32
  let main_v50 : FVec F S384x128 .f32 := broadcastInDim S384x128 ![] bcast_S_S384x128 main_cst_18
  fn_part3 (F := F) main_arg1 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg1 : IVec S2x400000 32) (main_arg5 : FVec F S100x128 .f32) (main_arg6 : FVec F S128 .f32) (main_arg7 : FVec F S120x128 .f32) (main_arg8 : FVec F S128 .f32) (main_arg9 : FVec F S128x128 .f32) (main_arg10 : FVec F S128 .f32) (main_arg11 : FVec F S384x128 .f32) (main_arg12 : FVec F S128 .f32) (main_arg13 : FVec F S128x128 .f32) (main_arg14 : FVec F S128 .f32) (main_arg15 : FVec F S256x128 .f32) (main_arg16 : FVec F S128 .f32) (main_arg17 : FVec F S128x128 .f32) (main_arg18 : FVec F S128 .f32) (main_arg19 : FVec F S384x128 .f32) (main_arg20 : FVec F S128 .f32) (main_arg21 : FVec F S128x128 .f32) (main_arg22 : FVec F S128 .f32) (main_arg23 : FVec F S1x64 .f32) (main_arg24 : FVec F S128x128 .f32) (main_arg25 : FVec F S128 .f32) (main_arg26 : FVec F S128x128 .f32) (main_arg27 : FVec F S128 .f32) (main_v13 : IVec S_ 1) (main_v16 : IVec S25000x1 1) : IVec S_ 1 :=
  let main_c_5 : IVec S_ 1 := constantI S_ 1 1#1
  let main_v17 : IVec S_ 1 := (fun x v => Host.reduce IntOp.andi x v reducesTo_S25000x1_S_d0_1 h_S_) main_v16 main_c_5
  let main_v18 : IVec S_ 1 := andi main_v13 main_v17
  let main_v19 : FVec F S100x128 .f32 := Host.absf main_arg5
  let main_cst_6 : FVec F S_ .f32 := constant S_ .f32 0x7F800000#32
  let main_v20 : FVec F S100x128 .f32 := broadcastInDim S100x128 ![] bcast_S_S100x128 main_cst_6
  let main_v21 : IVec S100x128 1 := cmpf .olt main_v19 main_v20
  let main_c_7 : IVec S_ 1 := constantI S_ 1 1#1
  let main_v22 : IVec S_ 1 := (fun x v => Host.reduce IntOp.andi x v reducesTo_S100x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S120x128 .f32 := Host.absf main_arg7
  let main_cst_10 : FVec F S_ .f32 := constant S_ .f32 0x7F800000#32
  let main_v30 : FVec F S120x128 .f32 := broadcastInDim S120x128 ![] bcast_S_S120x128 main_cst_10
  let main_v31 : IVec S120x128 1 := cmpf .olt main_v29 main_v30
  let main_c_11 : IVec S_ 1 := constantI S_ 1 1#1
  let main_v32 : IVec S_ 1 := (fun x v => Host.reduce IntOp.andi x v reducesTo_S120x128_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S25000x100 .f32) (main_arg1 : IVec S2x400000 32) (main_arg2 : FVec F S400000x120 .f32) (main_arg3 : FVec F S400000x3 .f32) (main_arg4 : FVec F S25000x1 .f32) (main_arg5 : FVec F S100x128 .f32) (main_arg6 : FVec F S128 .f32) (main_arg7 : FVec F S120x128 .f32) (main_arg8 : FVec F S128 .f32) (main_arg9 : FVec F S128x128 .f32) (main_arg10 : FVec F S128 .f32) (main_arg11 : FVec F S384x128 .f32) (main_arg12 : FVec F S128 .f32) (main_arg13 : FVec F S128x128 .f32) (main_arg14 : FVec F S128 .f32) (main_arg15 : FVec F S256x128 .f32) (main_arg16 : FVec F S128 .f32) (main_arg17 : FVec F S128x128 .f32) (main_arg18 : FVec F S128 .f32) (main_arg19 : FVec F S384x128 .f32) (main_arg20 : FVec F S128 .f32) (main_arg21 : FVec F S128x128 .f32) (main_arg22 : FVec F S128 .f32) (main_arg23 : FVec F S1x64 .f32) (main_arg24 : FVec F S128x128 .f32) (main_arg25 : FVec F S128 .f32) (main_arg26 : FVec F S128x128 .f32) (main_arg27 : FVec F S128 .f32) : IVec S_ 1 :=
  let main_v0 : FVec F S25000x100 .f32 := Host.absf main_arg0
  let main_cst : FVec F S_ .f32 := constant S_ .f32 0x7F800000#32
  let main_v1 : FVec F S25000x100 .f32 := broadcastInDim S25000x100 ![] bcast_S_S25000x100 main_cst
  let main_v2 : IVec S25000x100 1 := cmpf .olt main_v0 main_v1
  let main_c : IVec S_ 1 := constantI S_ 1 1#1
  let main_v3 : IVec S_ 1 := (fun x v => Host.reduce IntOp.andi x v reducesTo_S25000x100_S_d0_1 h_S_) main_v2 main_c
  let main_v4 : FVec F S400000x120 .f32 := Host.absf main_arg2
  let main_cst_0 : FVec F S_ .f32 := constant S_ .f32 0x7F800000#32
  let main_v5 : FVec F S400000x120 .f32 := broadcastInDim S400000x120 ![] bcast_S_S400000x120 main_cst_0
  let main_v6 : IVec S400000x120 1 := cmpf .olt main_v4 main_v5
  let main_c_1 : IVec S_ 1 := constantI S_ 1 1#1
  let main_v7 : IVec S_ 1 := (fun x v => Host.reduce IntOp.andi x v reducesTo_S400000x120_S_d0_1 h_S_) main_v6 main_c_1
  let main_v8 : IVec S_ 1 := andi main_v3 main_v7
  let main_v9 : FVec F S400000x3 .f32 := Host.absf main_arg3
  let main_cst_2 : FVec F S_ .f32 := constant S_ .f32 0x7F800000#32
  let main_v10 : FVec F S400000x3 .f32 := broadcastInDim S400000x3 ![] bcast_S_S400000x3 main_cst_2
  let main_v11 : IVec S400000x3 1 := cmpf .olt main_v9 main_v10
  let main_c_3 : IVec S_ 1 := constantI S_ 1 1#1
  let main_v12 : IVec S_ 1 := (fun x v => Host.reduce IntOp.andi x v reducesTo_S400000x3_S_d0_1 h_S_) main_v11 main_c_3
  let main_v13 : IVec S_ 1 := andi main_v8 main_v12
  let main_v14 : FVec F S25000x1 .f32 := Host.absf main_arg4
  let main_cst_4 : FVec F S_ .f32 := constant S_ .f32 0x7F800000#32
  let main_v15 : FVec F S25000x1 .f32 := broadcastInDim S25000x1 ![] bcast_S_S25000x1 main_cst_4
  let main_v16 : IVec S25000x1 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S25000x100 : Shape := ⟨2, ![25000, 100]⟩
abbrev S2x400000 : Shape := ⟨2, ![2, 400000]⟩
abbrev S400000x120 : Shape := ⟨2, ![400000, 120]⟩
abbrev S400000x3 : Shape := ⟨2, ![400000, 3]⟩
abbrev S25000x1 : Shape := ⟨2, ![25000, 1]⟩
abbrev S100x128 : Shape := ⟨2, ![100, 128]⟩
abbrev S128 : Shape := ⟨1, ![128]⟩
abbrev S120x128 : Shape := ⟨2, ![120, 128]⟩
abbrev S128x128 : Shape := ⟨2, ![128, 128]⟩
abbrev S384x128 : Shape := ⟨2, ![384, 128]⟩
abbrev S256x128 : Shape := ⟨2, ![256, 128]⟩
abbrev S1x64 : Shape := ⟨2, ![1, 64]⟩
abbrev S1x400000 : Shape := ⟨2, ![1, 400000]⟩
abbrev S400000 : Shape := ⟨1, ![400000]⟩
abbrev S1x128 : Shape := ⟨2, ![1, 128]⟩
abbrev S25000x128 : Shape := ⟨2, ![25000, 128]⟩
abbrev S5000x100 : Shape := ⟨2, ![5000, 100]⟩
abbrev S5000x128 : Shape := ⟨2, ![5000, 128]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S400000x128 : Shape := ⟨2, ![400000, 128]⟩
abbrev S384x256 : Shape := ⟨2, ![384, 256]⟩
abbrev S256 : Shape := ⟨1, ![256]⟩
abbrev S1x256 : Shape := ⟨2, ![1, 256]⟩
abbrev S400000x512 : Shape := ⟨2, ![400000, 512]⟩
abbrev S2000x128 : Shape := ⟨2, ![2000, 128]⟩
abbrev S2000x120 : Shape := ⟨2, ![2000, 120]⟩
abbrev S2000x3 : Shape := ⟨2, ![2000, 3]⟩
abbrev S2000x512 : Shape := ⟨2, ![2000, 512]⟩
abbrev S2000x384 : Shape := ⟨2, ![2000, 384]⟩
abbrev S2000x256 : Shape := ⟨2, ![2000, 256]⟩
abbrev S2000x1 : Shape := ⟨2, ![2000, 1]⟩
abbrev S25000x512 : Shape := ⟨2, ![25000, 512]⟩
abbrev S25000x384 : Shape := ⟨2, ![25000, 384]⟩
abbrev S25000x3x128 : Shape := ⟨3, ![25000, 3, 128]⟩
abbrev S25000x128x3 : Shape := ⟨3, ![25000, 128, 3]⟩
abbrev S5000x1 : Shape := ⟨2, ![5000, 1]⟩
abbrev S5000x256 : Shape := ⟨2, ![5000, 256]⟩
abbrev S5000x64 : Shape := ⟨2, ![5000, 64]⟩

abbrev nBuf : Space → Nat
  | .hbm => 102
  | .vmem => 45
  | .smem => 0
  | _ => 0

abbrev bufTy : (tb : Table) → Fin (tcTables nBuf tb) → BufTy
  | .hbm, ⟨0, _⟩ => ⟨S25000x100, .f32⟩
  | .hbm, ⟨1, _⟩ => ⟨S2x400000, .i32⟩
  | .hbm, ⟨2, _⟩ => ⟨S400000x120, .f32⟩
  | .hbm, ⟨3, _⟩ => ⟨S400000x3, .f32⟩
  | .hbm, ⟨4, _⟩ => ⟨S25000x1, .f32⟩
  | .hbm, ⟨5, _⟩ => ⟨S100x128, .f32⟩
  | .hbm, ⟨6, _⟩ => ⟨S128, .f32⟩
  | .hbm, ⟨7, _⟩ => ⟨S120x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S384x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S256x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S384x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S1x64, .f32⟩
  | .hbm, ⟨24, _⟩ => ⟨S128x128, .f32⟩
  | .hbm, ⟨25, _⟩ => ⟨S128, .f32⟩
  | .hbm, ⟨26, _⟩ => ⟨S128x128, .f32⟩
  | .hbm, ⟨27, _⟩ => ⟨S128, .f32⟩
  | .hbm, ⟨28, _⟩ => ⟨S1x400000, .i32⟩
  | .hbm, ⟨29, _⟩ => ⟨S400000, .i32⟩
  | .hbm, ⟨30, _⟩ => ⟨S1x400000, .i32⟩
  | .hbm, ⟨31, _⟩ => ⟨S400000, .i32⟩
  | .hbm, ⟨32, _⟩ => ⟨S1x128, .f32⟩
  | .hbm, ⟨33, _⟩ => ⟨S25000x128, .f32⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S1, .i32⟩
  | .hbm, ⟨43, _⟩ => ⟨S_, .i32⟩
  | .hbm, ⟨44, _⟩ => ⟨S400000x1, .i32⟩
  | .hbm, ⟨45, _⟩ => ⟨S400000x1, .i1⟩
  | .hbm, ⟨46, _⟩ => ⟨S1x1, .i32⟩
  | .hbm, ⟨47, _⟩ => ⟨S400000x1, .i32⟩
  | .hbm, ⟨48, _⟩ => ⟨S400000x1, .i1⟩
  | .hbm, ⟨49, _⟩ => ⟨S400000x1, .i1⟩
  | .hbm, ⟨50, _⟩ => ⟨S_, .i1⟩
  | .hbm, ⟨51, _⟩ => ⟨S400000, .i1⟩
  | .hbm, ⟨52, _⟩ => ⟨S400000x128, .f32⟩
  | .hbm, ⟨53, _⟩ => ⟨S400000x128, .i1⟩
  | .hbm, ⟨54, _⟩ => ⟨S_, .f32⟩
  | .hbm, ⟨55, _⟩ => ⟨S400000x128, .f32⟩
  | .hbm, ⟨56, _⟩ => ⟨S400000x128, .f32⟩
  | .hbm, ⟨57, _⟩ => ⟨S_, .i32⟩
  | .hbm, ⟨58, _⟩ => ⟨S400000, .i32⟩
  | .hbm, ⟨59, _⟩ => ⟨S400000, .i1⟩
  | .hbm, ⟨60, _⟩ => ⟨S_, .i32⟩
  | .hbm, ⟨61, _⟩ => ⟨S400000, .i32⟩
  | .hbm, ⟨62, _⟩ => ⟨S400000, .i32⟩
  | .hbm, ⟨63, _⟩ => ⟨S400000, .i32⟩
  | .hbm, ⟨64, _⟩ => ⟨S400000x1, .i32⟩
  | .hbm, ⟨65, _⟩ => ⟨S1, .i32⟩
  | .hbm, ⟨66, _⟩ => ⟨S_, .i32⟩
  | .hbm, ⟨67, _⟩ => ⟨S400000x1, .i32⟩
  | .hbm, ⟨68, _⟩ => ⟨S400000x1, .i1⟩
  | .hbm, ⟨69, _⟩ => ⟨S1x1, .i32⟩
  | .hbm, ⟨70, _⟩ => ⟨S400000x1, .i32⟩
  | .hbm, ⟨71, _⟩ => ⟨S400000x1, .i1⟩
  | .hbm, ⟨72, _⟩ => ⟨S400000x1, .i1⟩
  | .hbm, ⟨73, _⟩ => ⟨S_, .i1⟩
  | .hbm, ⟨74, _⟩ => ⟨S400000, .i1⟩
  | .hbm, ⟨75, _⟩ => ⟨S400000x128, .f32⟩
  | .hbm, ⟨76, _⟩ => ⟨S400000x128, .i1⟩
  | .hbm, ⟨77, _⟩ => ⟨S_, .f32⟩
  | .hbm, ⟨78, _⟩ => ⟨S400000x128, .f32⟩
  | .hbm, ⟨79, _⟩ => ⟨S400000x128, .f32⟩
  | .hbm, ⟨80, _⟩ => ⟨S384x256, .f32⟩
  | .hbm, ⟨81, _⟩ => ⟨S256, .f32⟩
  | .hbm, ⟨82, _⟩ => ⟨S1x128, .f32⟩
  | .hbm, ⟨83, _⟩ => ⟨S1x128, .f32⟩
  | .hbm, ⟨84, _⟩ => ⟨S1x256, .f32⟩
  | .hbm, ⟨85, _⟩ => ⟨S1x128, .f32⟩
  | .hbm, ⟨86, _⟩ => ⟨S1x128, .f32⟩
  | .hbm, ⟨87, _⟩ => ⟨S400000x128, .f32⟩
  | .hbm, ⟨88, _⟩ => ⟨S400000x512, .f32⟩
  | .hbm, ⟨89, _⟩ => ⟨S_, .f32⟩
  | .hbm, ⟨90, _⟩ => ⟨S25000x512, .f32⟩
  | .hbm, ⟨91, _⟩ => ⟨S400000x1, .i32⟩
  | .hbm, ⟨92, _⟩ => ⟨S25000x512, .f32⟩
  | .hbm, ⟨93, _⟩ => ⟨S25000x128, .f32⟩
  | .hbm, ⟨94, _⟩ => ⟨S25000x384, .f32⟩
  | .hbm, ⟨95, _⟩ => ⟨S25000x3x128, .f32⟩
  | .hbm, ⟨96, _⟩ => ⟨S25000x128x3, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S25000x128, .f32⟩
  | .local _ .vmem, ⟨0, _⟩ => ⟨S5000x100, .f32⟩
  | .local _ .vmem, ⟨1, _⟩ => ⟨S5000x100, .f32⟩
  | .local _ .vmem, ⟨2, _⟩ => ⟨S100x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x120, .f32⟩
  | .local _ .vmem, ⟨11, _⟩ => ⟨S2000x120, .f32⟩
  | .local _ .vmem, ⟨12, _⟩ => ⟨S2000x3, .f32⟩
  | .local _ .vmem, ⟨13, _⟩ => ⟨S2000x3, .f32⟩
  | .local _ .vmem, ⟨14, _⟩ => ⟨S120x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S384x256, .f32⟩
  | .local _ .vmem, ⟨19, _⟩ => ⟨S1x256, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x512, .f32⟩
  | .local _ .vmem, ⟨27, _⟩ => ⟨S2000x512, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S256x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S1x64, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | _, _ => ⟨S25000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v6 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v7 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_v14 : Ref sig .tc := ⟨.hbm, 86, rfl⟩
abbrev main_v15_0 : Ref sig .tc := ⟨.hbm, 87, rfl⟩
abbrev main_v15_1 : Ref sig .tc := ⟨.hbm, 88, rfl⟩
abbrev main_cst : Ref sig .tc := ⟨.hbm, 89, rfl⟩
abbrev main_v16 : Ref sig .tc := ⟨.hbm, 90, rfl⟩
abbrev main_v17 : Ref sig .tc := ⟨.hbm, 91, rfl⟩
abbrev main_v18 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_stg14_1 : Ref sig .tc := ⟨.vmem, 25, rfl⟩
abbrev cc1_stg15_0 : Ref sig .tc := ⟨.vmem, 26, rfl⟩
abbrev cc1_stg15_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg10_0 : Ref sig .tc := ⟨.vmem, 41, rfl⟩
abbrev cc2_stg11_0 : Ref sig .tc := ⟨.vmem, 42, rfl⟩
abbrev cc2_stg12_0 : Ref sig .tc := ⟨.vmem, 43, rfl⟩
abbrev cc2_stg12_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem14_0 : DmaSem sig := 24
abbrev cc1_sem14_1 : DmaSem sig := 25
abbrev cc1_sem15_0 : DmaSem sig := 26
abbrev cc1_sem15_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem10_0 : DmaSem sig := 41
abbrev cc2_sem11_0 : DmaSem sig := 42
abbrev cc2_sem12_0 : DmaSem sig := 43
abbrev cc2_sem12_1 : DmaSem sig := 44

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x120 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S120x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S384x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2000x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S2000x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S5000x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  shapeCasts_S128_S1x128 : S128.ShapeCasts S1x128
  inb_S5000x100_S5000x100_0_0 : ∀ a, (![0, 0] : Fin 2 → Nat) a + S5000x100.size a ≤ S5000x100.size a
  h_S5000x100 : 0 < S5000x100.numel
  inb_S100x128_S100x128_0_0 : ∀ a, (![0, 0] : Fin 2 → Nat) a + S100x128.size a ≤ S100x128.size a
  h_S100x128 : 0 < S100x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  concatenates_S384x128_S384x128_S384x256_d1 : Shape.Concatenates [S384x128, S384x128] S384x256 1
  concatenates_S128_S128_S256_d0 : Shape.Concatenates [S128, S128] S256 0
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x120_S2000x120_0_0 : ∀ a, (![0, 0] : Fin 2 → Nat) a + S2000x120.size a ≤ S2000x120.size a
  h_S2000x120 : 0 < S2000x120.numel
  inb_S120x128_S120x128_0_0 : ∀ a, (![0, 0] : Fin 2 → Nat) a + S120x128.size a ≤ S120x128.size a
  h_S120x128 : 0 < S120x128.numel
  broadcasts_S1x128_S2000x128 : S1x128.Broadcasts S2000x128
  inb_S128x128_S128x128_0_0 : ∀ a, (![0, 0] : Fin 2 → Nat) a + S128x128.size a ≤ S128x128.size a
  h_S128x128 : 0 < S128x128.numel
  concatenates_S2000x128_S2000x128_S2000x128_S2000x384_d1 : Shape.Concatenates [S2000x128, S2000x128, S2000x128] S2000x384 1
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2000x256_o0_0_S2000x128 : S2000x256.Slices ![0, 0] S2000x128
  slices_S2000x256_o0_128_S2000x128 : S2000x256.Slices ![0, 128] S2000x128
  inb_S2000x3_S2000x3_0_0 : ∀ a, (![0, 0] : Fin 2 → Nat) a + S2000x3.size a ≤ S2000x3.size a
  h_S2000x3 : 0 < S2000x3.numel
  inb_S2000x512_S2000x128_0_0 : ∀ a, (![0, 0] : Fin 2 → Nat) a + S2000x128.size a ≤ S2000x512.size a
  slices_S2000x3_o0_0_S2000x1 : S2000x3.Slices ![0, 0] S2000x1
  broadcasts_S2000x1_S2000x128 : S2000x1.Broadcasts S2000x128
  inb_S2000x512_S2000x128_0_128 : ∀ a, (![0, 128] : Fin 2 → Nat) a + S2000x128.size a ≤ S2000x512.size a
  slices_S2000x3_o0_1_S2000x1 : S2000x3.Slices ![0, 1] S2000x1
  inb_S2000x512_S2000x128_0_256 : ∀ a, (![0, 256] : Fin 2 → Nat) a + S2000x128.size a ≤ S2000x512.size a
  slices_S2000x3_o0_2_S2000x1 : S2000x3.Slices ![0, 2] S2000x1
  inb_S2000x512_S2000x128_0_384 : ∀ a, (![0, 384] : Fin 2 → Nat) a + S2000x128.size a ≤ S2000x512.size a
  bcast_S_S25000x512 : S_.BroadcastsInDim S25000x512 (![] : Fin 0 → Fin S25000x512.rank)
  slices_S25000x512_S25000x128_0_0 : S25000x512.Slices ![0, 0] S25000x128
  slices_S25000x512_S25000x384_0_128 : S25000x512.Slices ![0, 128] S25000x384
  shapeCasts_S25000x384_S25000x3x128 : S25000x384.ShapeCasts S25000x3x128
  transposes_S25000x3x128_S25000x128x3_0_2_1 : S25000x3x128.Transposes [0, 2, 1] S25000x128x3
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  inb_S1x64_S1x64_0_0 : ∀ a, (![0, 0] : Fin 2 → Nat) a + S1x64.size a ≤ S1x64.size a
  h_S1x64 : 0 < S1x64.numel
  broadcasts_S5000x1_S5000x64 : S5000x1.Broadcasts S5000x64
  broadcasts_S1x64_S5000x64 : S1x64.Broadcasts S5000x64
  concatenates_S5000x64_S5000x64_S5000x128_d1 : Shape.Concatenates [S5000x64, S5000x64] S5000x128 1
  dot_S5000x100_S100x128_S5000x128_1_0_0_1_n_n_wf : DotDims.WF S5000x100 S100x128 S5000x128 [1] [0] [0] [1] [] []
  gather_S25000x128_S400000x1_S400000x128_1_0_n_n_0_1_1128_wf : GatherDims.WF S25000x128 S400000x1 S400000x128 [1] [0] [] [0] [] 1 ![1, 128]
  dot_S2000x120_S120x128_S2000x128_1_0_0_1_n_n_wf : DotDims.WF S2000x120 S120x128 S2000x128 [1] [0] [0] [1] [] []
  dot_S2000x128_S128x128_S2000x128_1_0_0_1_n_n_wf : DotDims.WF S2000x128 S128x128 S2000x128 [1] [0] [0] [1] [] []
  dot_S2000x384_S384x256_S2000x256_1_0_0_1_n_n_wf : DotDims.WF S2000x384 S384x256 S2000x256 [1] [0] [0] [1] [] []
  scatter_S25000x512_S400000x1_S400000x512_1_0_0_1_wf : ScatterDims.WF S25000x512 S400000x1 S400000x512 [1] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S25000x100.size a
  hwx0_0 : ∀ i : grid0.Coords, EltTy.bits .f32 = 32 ∨ (Rect.block (s := S25000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x128.size a ≤ S100x128.size a
  hwx0_1 : ∀ i : grid0.Coords, EltTy.bits .f32 = 32 ∨ (Rect.block (s := S100x128) S100x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S25000x128.size a
  hwx0_3 : ∀ i : grid0.Coords, EltTy.bits .f32 = 32 ∨ (Rect.block (s := S25000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S400000x128.size a
  hwx1_0 : ∀ i : grid1.Coords, EltTy.bits .f32 = 32 ∨ (Rect.block (s := S400000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S400000x128.size a
  hwx1_1 : ∀ i : grid1.Coords, EltTy.bits .f32 = 32 ∨ (Rect.block (s := S400000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x120.size a ≤ S400000x120.size a
  hwx1_2 : ∀ i : grid1.Coords, EltTy.bits .f32 = 32 ∨ (Rect.block (s := S400000x120) S2000x120.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x3.size a ≤ S400000x3.size a
  hwx1_3 : ∀ i : grid1.Coords, EltTy.bits .f32 = 32 ∨ (Rect.block (s := S400000x3) S2000x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S120x128.size a ≤ S120x128.size a
  hwx1_4 : ∀ i : grid1.Coords, EltTy.bits .f32 = 32 ∨ (Rect.block (s := S120x128) S120x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S384x256.size a ≤ S384x256.size a
  hwx1_8 : ∀ i : grid1.Coords, EltTy.bits .f32 = 32 ∨ (Rect.block (s := S384x256) S384x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x128.size a ≤ S128x128.size a
  hwx1_12 : ∀ i : grid1.Coords, EltTy.bits .f32 = 32 ∨ (Rect.block (s := S128x128) S128x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x128.size a
  hwx1_13 : ∀ i : grid1.Coords, EltTy.bits .f32 = 32 ∨ (Rect.block (s := S1x128) S1x128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2000x128.size a ≤ S400000x128.size a
  hwx1_14 : ∀ i : grid1.Coords, EltTy.bits .f32 = 32 ∨ (Rect.block (s := S400000x128) S2000x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2000x512.size a ≤ S400000x512.size a
  hwx1_15 : ∀ i : grid1.Coords, EltTy.bits .f32 = 32 ∨ (Rect.block (s := S400000x512) S2000x512.size (cc1_transform_15 i) (hinb1_15 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S25000x128.size a
  hwx2_0 : ∀ i : grid2.Coords, EltTy.bits .f32 = 32 ∨ (Rect.block (s := S25000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S25000x128.size a
  hwx2_1 : ∀ i : grid2.Coords, EltTy.bits .f32 = 32 ∨ (Rect.block (s := S25000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S25000x1.size a
  hwx2_2 : ∀ i : grid2.Coords, EltTy.bits .f32 = 32 ∨ (Rect.block (s := S25000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S5000x128.size a ≤ S25000x128.size a
  hwx2_12 : ∀ i : grid2.Coords, EltTy.bits .f32 = 32 ∨ (Rect.block (s := S25000x128) S5000x128.size (cc2_transform_12 i) (hinb2_12 i)).WholeWords (EltTy.packing .f32)

variable [Facts₀]

def dot_S5000x100_S100x128_S5000x128_1_0_0_1_n_n : DotDims S5000x100 S100x128 S5000x128 where
  lhsContracting := [1]
  rhsContracting := [0]
  lhsNonContracting := [0]
  rhsNonContracting := [1]
  lhsBatch := []
  rhsBatch := []
  wf := dot_S5000x100_S100x128_S5000x128_1_0_0_1_n_n_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def dot_S2000x120_S120x128_S2000x128_1_0_0_1_n_n : DotDims S2000x120 S120x128 S2000x128 where
  lhsContracting := [1]
  rhsContracting := [0]
  lhsNonContracting := [0]
  rhsNonContracting := [1]
  lhsBatch := []
  rhsBatch := []
  wf := dot_S2000x120_S120x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x384_S384x256_S2000x256_1_0_0_1_n_n : DotDims S2000x384 S384x256 S2000x256 where
  lhsContracting := [1]
  rhsContracting := [0]
  lhsNonContracting := [0]
  rhsNonContracting := [1]
  lhsBatch := []
  rhsBatch := []
  wf := dot_S2000x384_S384x256_S2000x256_1_0_0_1_n_n_wf
def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S100x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2000x120.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S2000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S120x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S384x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg13) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v13) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg21) S128x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v14) S1x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v15_0) S2000x128.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v15_1) S2000x512.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev win2_0 : Pipeline.Window sig grid2 :=
  Pipeline.Window.ofSpec (Memref.whole main_v5) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg17) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v24) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg23) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg24) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v25) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg26) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v26) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v27) S5000x128.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S25000x100 : Shape := ⟨2, ![25000, 100]⟩
abbrev S2x400000 : Shape := ⟨2, ![2, 400000]⟩
abbrev S400000x120 : Shape := ⟨2, ![400000, 120]⟩
abbrev S400000x3 : Shape := ⟨2, ![400000, 3]⟩
abbrev S25000x1 : Shape := ⟨2, ![25000, 1]⟩
abbrev S100x128 : Shape := ⟨2, ![100, 128]⟩
abbrev S128 : Shape := ⟨1, ![128]⟩
abbrev S120x128 : Shape := ⟨2, ![120, 128]⟩
abbrev S128x128 : Shape := ⟨2, ![128, 128]⟩
abbrev S384x128 : Shape := ⟨2, ![384, 128]⟩
abbrev S256x128 : Shape := ⟨2, ![256, 128]⟩
abbrev S1x64 : Shape := ⟨2, ![1, 64]⟩
abbrev S1x400000 : Shape := ⟨2, ![1, 400000]⟩
abbrev S400000 : Shape := ⟨1, ![400000]⟩
abbrev S25000x128 : Shape := ⟨2, ![25000, 128]⟩
abbrev S1x128 : Shape := ⟨2, ![1, 128]⟩
abbrev S400000x128 : Shape := ⟨2, ![400000, 128]⟩
abbrev S_ : Shape := ⟨0, ![]⟩
abbrev S400000x1 : Shape := ⟨2, ![400000, 1]⟩
abbrev S400000x384 : Shape := ⟨2, ![400000, 384]⟩
abbrev S25000x256 : Shape := ⟨2, ![25000, 256]⟩
abbrev S400000x1x3 : Shape := ⟨3, ![400000, 1, 3]⟩
abbrev S400000x128x1 : Shape := ⟨3, ![400000, 128, 1]⟩
abbrev S400000x128x3 : Shape := ⟨3, ![400000, 128, 3]⟩
abbrev S25000x128x3 : Shape := ⟨3, ![25000, 128, 3]⟩
abbrev S25000x64 : Shape := ⟨2, ![25000, 64]⟩

abbrev nBuf : Space → Nat
  | .hbm => 163
  | .vmem => 0
  | .smem => 0
  | _ => 0

abbrev hbmTy0_0 (i : Nat) : BufTy := match i % 128 with
  | 0 => ⟨S25000x100, .f32⟩
  | 1 => ⟨S2x400000, .i32⟩
  | 2 => ⟨S400000x120, .f32⟩
  | 3 => ⟨S400000x3, .f32⟩
  | 4 => ⟨S25000x1, .f32⟩
  | 5 => ⟨S100x128, .f32⟩
  | 6 => ⟨S128, .f32⟩
  | 7 => ⟨S120x128, .f32⟩
  | 8 => ⟨S128, .f32⟩
  | 9 => ⟨S128x128, .f32⟩
  | 10 => ⟨S128, .f32⟩
  | 11 => ⟨S384x128, .f32⟩
  | 12 => ⟨S128, .f32⟩
  | 13 => ⟨S128x128, .f32⟩
  | 14 => ⟨S128, .f32⟩
  | 15 => ⟨S256x128, .f32⟩
  | 16 => ⟨S128, .f32⟩
  | 17 => ⟨S128x128, .f32⟩
  | 18 => ⟨S128, .f32⟩
  | 19 => ⟨S384x128, .f32⟩
  | 20 => ⟨S128, .f32⟩
  | 21 => ⟨S128x128, .f32⟩
  | 22 => ⟨S128, .f32⟩
  | 23 => ⟨S1x64, .f32⟩
  | 24 => ⟨S128x128, .f32⟩
  | 25 => ⟨S128, .f32⟩
  | 26 => ⟨S128x128, .f32⟩
  | 27 => ⟨S128, .f32⟩
  | 28 => ⟨S1x400000, .i32⟩
  | 29 => ⟨S400000, .i32⟩
  | 30 => ⟨S1x400000, .i32⟩
  | 31 => ⟨S400000, .i32⟩
  | 32 => ⟨S25000x128, .f32⟩
  | 33 => ⟨S1x128, .f32⟩
  | 34 => ⟨S25000x128, .f32⟩
  | 35 => ⟨S25000x128, .f32⟩
  | 36 => ⟨S400000x128, .f32⟩
  | 37 => ⟨S1x128, .f32⟩
  | 38 => ⟨S400000x128, .f32⟩
  | 39 => ⟨S400000x128, .f32⟩
  | 40 => ⟨S400000x128, .f32⟩
  | 41 => ⟨S400000x128, .f32⟩
  | 42 => ⟨S_, .f32⟩
  | 43 => ⟨S400000x128, .f32⟩
  | 44 => ⟨S400000x128, .f32⟩
  | 45 => ⟨S_, .f32⟩
  | 46 => ⟨S400000x128, .f32⟩
  | 47 => ⟨S400000x128, .f32⟩
  | 48 => ⟨S400000x128, .f32⟩
  | 49 => ⟨S400000x128, .f32⟩
  | 50 => ⟨S1x128, .f32⟩
  | 51 => ⟨S400000x128, .f32⟩
  | 52 => ⟨S400000x128, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000x128, .f32⟩
  | 62 => ⟨S_, .i32⟩
  | 63 => ⟨S400000, .i32⟩
  | 64 => ⟨S400000, .i1⟩
  | 65 => ⟨S_, .i32⟩
  | 66 => ⟨S400000, .i32⟩
  | 67 => ⟨S400000, .i32⟩
  | 68 => ⟨S400000, .i32⟩
  | 69 => ⟨S400000x1, .i32⟩
  | 70 => ⟨S400000x128, .f32⟩
  | 71 => ⟨S400000x384, .f32⟩
  | 72 => ⟨S400000x128, .f32⟩
  | 73 => ⟨S1x128, .f32⟩
  | 74 => ⟨S400000x128, .f32⟩
  | 75 => ⟨S400000x128, .f32⟩
  | 76 => ⟨S400000x128, .f32⟩
  | 77 => ⟨S400000x128, .f32⟩
  | 78 => ⟨S_, .f32⟩
  | 79 => ⟨S400000x128, .f32⟩
  | 80 => ⟨S400000x128, .f32⟩
  | 81 => ⟨S_, .f32⟩
  | 82 => ⟨S400000x128, .f32⟩
  | 83 => ⟨S400000x128, .f32⟩
  | 84 => ⟨S400000x128, .f32⟩
  | 85 => ⟨S400000x128, .f32⟩
  | 86 => ⟨S1x128, .f32⟩
  | 87 => ⟨S400000x128, .f32⟩
  | 88 => ⟨S400000x128, .f32⟩
  | 89 => ⟨S400000x128, .f32⟩
  | 90 => ⟨S_, .f32⟩
  | 91 => ⟨S25000x128, .f32⟩
  | 92 => ⟨S400000x1, .i32⟩
  | 93 => ⟨S25000x128, .f32⟩
  | 94 => ⟨S25000x256, .f32⟩
  | 95 => ⟨S25000x128, .f32⟩
  | 96 => ⟨S1x128, .f32⟩
  | 97 => ⟨S25000x128, .f32⟩
  | 98 => ⟨S25000x128, .f32⟩
  | 99 => ⟨S25000x128, .f32⟩
  | 100 => ⟨S25000x128, .f32⟩
  | 101 => ⟨S_, .f32⟩
  | 102 => ⟨S25000x128, .f32⟩
  | 103 => ⟨S25000x128, .f32⟩
  | 104 => ⟨S_, .f32⟩
  | 105 => ⟨S25000x128, .f32⟩
  | 106 => ⟨S25000x128, .f32⟩
  | 107 => ⟨S25000x128, .f32⟩
  | 108 => ⟨S25000x128, .f32⟩
  | 109 => ⟨S1x128, .f32⟩
  | 110 => ⟨S25000x128, .f32⟩
  | 111 => ⟨S25000x128, .f32⟩
  | 112 => ⟨S400000x128, .f32⟩
  | 113 => ⟨S1x128, .f32⟩
  | 114 => ⟨S400000x128, .f32⟩
  | 115 => ⟨S400000x128, .f32⟩
  | 116 => ⟨S400000x128, .f32⟩
  | 117 => ⟨S400000x128, .f32⟩
  | 118 => ⟨S_, .f32⟩
  | 119 => ⟨S400000x128, .f32⟩
  | 120 => ⟨S400000x128, .f32⟩
  | 121 => ⟨S_, .f32⟩
  | 122 => ⟨S400000x128, .f32⟩
  | 123 => ⟨S400000x128, .f32⟩
  | 124 => ⟨S400000x128, .f32⟩
  | 125 => ⟨S400000x128, .f32⟩
  | 126 => ⟨S1x128, .f32⟩
  | 127 => ⟨S400000x128, .f32⟩
  | _ => ⟨S25000x100, .f32⟩

abbrev hbmTy0_1 (i : Nat) : BufTy := match i % 128 with
  | 0 => ⟨S400000x128, .f32⟩
  | 1 => ⟨S400000x1x3, .f32⟩
  | 2 => ⟨S400000x128x1, .f32⟩
  | 3 => ⟨S400000x128x3, .f32⟩
  | 4 => ⟨S400000x128x3, .f32⟩
  | 5 => ⟨S400000x128x3, .f32⟩
  | 6 => ⟨S_, .f32⟩
  | 7 => ⟨S25000x128x3, .f32⟩
  | 8 => ⟨S400000x1, .i32⟩
  | 9 => ⟨S25000x128x3, .f32⟩
  | 10 => ⟨S25000x64, .f32⟩
  | 11 => ⟨S_, .f32⟩
  | 12 => ⟨S25000x64, .f32⟩
  | 13 => ⟨S25000x64, .f32⟩
  | 14 => ⟨S25000x64, .f32⟩
  | 15 => ⟨S25000x64, .f32⟩
  | 16 => ⟨S25000x128, .f32⟩
  | 17 => ⟨S25000x128, .f32⟩
  | 18 => ⟨S1x128, .f32⟩
  | 19 => ⟨S25000x128, .f32⟩
  | 20 => ⟨S25000x128, .f32⟩
  | 21 => ⟨S25000x128, .f32⟩
  | 22 => ⟨S25000x128, .f32⟩
  | 23 => ⟨S_, .f32⟩
  | 24 => ⟨S25000x128, .f32⟩
  | 25 => ⟨S25000x128, .f32⟩
  | 26 => ⟨S_, .f32⟩
  | 27 => ⟨S25000x128, .f32⟩
  | 28 => ⟨S25000x128, .f32⟩
  | 29 => ⟨S25000x128, .f32⟩
  | 30 => ⟨S25000x128, .f32⟩
  | 31 => ⟨S1x128, .f32⟩
  | 32 => ⟨S25000x128, .f32⟩
  | 33 => ⟨S25000x128, .f32⟩
  | 34 => ⟨S25000x128, .f32⟩
  | _ => ⟨S25000x100, .f32⟩

abbrev hbmTy (i : Nat) : BufTy := match i / 128 with
  | 0 => hbmTy0_0 i
  | 1 => hbmTy0_1 i
  | _ => ⟨S25000x100, .f32⟩

abbrev bufTy : (tb : Table) → Fin (tcTables nBuf tb) → BufTy
  | .hbm, ⟨i, _⟩ => hbmTy i
  | _, _ => ⟨S25000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_c : Ref sig .tc := ⟨.hbm, 53, rfl⟩
abbrev main_v17 : Ref sig .tc := ⟨.hbm, 54, rfl⟩
abbrev main_v18 : Ref sig .tc := ⟨.hbm, 55, rfl⟩
abbrev main_c_0 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_c_1 : Ref sig .tc := ⟨.hbm, 62, rfl⟩
abbrev main_v24 : Ref sig .tc := ⟨.hbm, 63, rfl⟩
abbrev main_v25 : Ref sig .tc := ⟨.hbm, 64, rfl⟩
abbrev main_c_2 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_call2_v0 : Ref sig .tc := ⟨.hbm, 99, rfl⟩
abbrev main_call2_v1 : Ref sig .tc := ⟨.hbm, 100, rfl⟩
abbrev main_call2_cst : Ref sig .tc := ⟨.hbm, 101, rfl⟩
abbrev main_call2_v2 : Ref sig .tc := ⟨.hbm, 102, rfl⟩
abbrev main_call2_v3 : Ref sig .tc := ⟨.hbm, 103, rfl⟩
abbrev main_call2_cst_0 : Ref sig .tc := ⟨.hbm, 104, rfl⟩
abbrev main_call2_v4 : Ref sig .tc := ⟨.hbm, 105, rfl⟩
abbrev main_call2_v5 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_call3_v0 : Ref sig .tc := ⟨.hbm, 116, rfl⟩
abbrev main_call3_v1 : Ref sig .tc := ⟨.hbm, 117, rfl⟩
abbrev main_call3_cst : Ref sig .tc := ⟨.hbm, 118, rfl⟩
abbrev main_call3_v2 : Ref sig .tc := ⟨.hbm, 119, rfl⟩
abbrev main_call3_v3 : Ref sig .tc := ⟨.hbm, 120, rfl⟩
abbrev main_call3_cst_0 : Ref sig .tc := ⟨.hbm, 121, rfl⟩
abbrev main_call3_v4 : Ref sig .tc := ⟨.hbm, 122, rfl⟩
abbrev main_call3_v5 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_cst_3 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_cst_4 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_call4_v0 : Ref sig .tc := ⟨.hbm, 149, rfl⟩
abbrev main_call4_v1 : Ref sig .tc := ⟨.hbm, 150, rfl⟩
abbrev main_call4_cst : Ref sig .tc := ⟨.hbm, 151, rfl⟩
abbrev main_call4_v2 : Ref sig .tc := ⟨.hbm, 152, rfl⟩
abbrev main_call4_v3 : Ref sig .tc := ⟨.hbm, 153, rfl⟩
abbrev main_call4_cst_0 : Ref sig .tc := ⟨.hbm, 154, rfl⟩
abbrev main_call4_v4 : Ref sig .tc := ⟨.hbm, 155, rfl⟩
abbrev main_call4_v5 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S128_S1x128_1 : S128.BroadcastsInDim S1x128 (![1] : Fin 1 → Fin S1x128.rank)
  bcast_S1x128_S25000x128_0_1 : S1x128.BroadcastsInDim S25000x128 (![0, 1] : Fin 2 → Fin S25000x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  bcast_S_S25000x128 : S_.BroadcastsInDim S25000x128 (![] : Fin 0 → Fin S25000x128.rank)
  concatenates_S25000x128_S25000x128_S25000x256_d1 : Shape.Concatenates [S25000x128, S25000x128] S25000x256 1
  bcast_S400000x3_S400000x1x3_0_2 : S400000x3.BroadcastsInDim S400000x1x3 (![0, 2] : Fin 2 → Fin S400000x1x3.rank)
  bcast_S400000x128_S400000x128x1_0_1 : S400000x128.BroadcastsInDim S400000x128x1 (![0, 1] : Fin 2 → Fin S400000x128x1.rank)
  bcast_S400000x1x3_S400000x128x3_0_1_2 : S400000x1x3.BroadcastsInDim S400000x128x3 (![0, 1, 2] : Fin 3 → Fin S400000x128x3.rank)
  bcast_S400000x128x1_S400000x128x3_0_1_2 : S400000x128x1.BroadcastsInDim S400000x128x3 (![0, 1, 2] : Fin 3 → Fin S400000x128x3.rank)
  bcast_S_S25000x128x3 : S_.BroadcastsInDim S25000x128x3 (![] : Fin 0 → Fin S25000x128x3.rank)
  bcast_S_S25000x64 : S_.BroadcastsInDim S25000x64 (![] : Fin 0 → Fin S25000x64.rank)
  concatenates_S25000x64_S25000x64_S25000x128_d1 : Shape.Concatenates [S25000x64, S25000x64] S25000x128 1
  dot_S25000x100_S100x128_S25000x128_1_0_0_1_n_n_wf : DotDims.WF S25000x100 S100x128 S25000x128 [1] [0] [0] [1] [] []
  dot_S400000x120_S120x128_S400000x128_1_0_0_1_n_n_wf : DotDims.WF S400000x120 S120x128 S400000x128 [1] [0] [0] [1] [] []
  dot_S400000x128_S128x128_S400000x128_1_0_0_1_n_n_wf : DotDims.WF S400000x128 S128x128 S400000x128 [1] [0] [0] [1] [] []
  gather_S25000x128_S400000x1_S400000x128_1_0_n_n_0_1_1128_wf : GatherDims.WF S25000x128 S400000x1 S400000x128 [1] [0] [] [0] [] 1 ![1, 128]
  dot_S400000x384_S384x128_S400000x128_1_0_0_1_n_n_wf : DotDims.WF S400000x384 S384x128 S400000x128 [1] [0] [0] [1] [] []
  scatter_S25000x128_S400000x1_S400000x128_1_0_0_1_wf : ScatterDims.WF S25000x128 S400000x1 S400000x128 [1] [0] [0] 1
  dot_S25000x256_S256x128_S25000x128_1_0_0_1_n_n_wf : DotDims.WF S25000x256 S256x128 S25000x128 [1] [0] [0] [1] [] []
  dot_S25000x128_S128x128_S25000x128_1_0_0_1_n_n_wf : DotDims.WF S25000x128 S128x128 S25000x128 [1] [0] [0] [1] [] []
  scatter_S25000x128x3_S400000x1_S400000x128x3_12_0_0_1_wf : ScatterDims.WF S25000x128x3 S400000x1 S400000x128x3 [1, 2] [0] [0] 1
  dot_S25000x1_S1x64_S25000x64_1_0_0_1_n_n_wf : DotDims.WF S25000x1 S1x64 S25000x64 [1] [0] [0] [1] [] []

variable [Facts₀]

def dot_S25000x100_S100x128_S25000x128_1_0_0_1_n_n : DotDims S25000x100 S100x128 S25000x128 where
  lhsContracting := [1]
  rhsContracting := [0]
  lhsNonContracting := [0]
  rhsNonContracting := [1]
  lhsBatch := []
  rhsBatch := []
  wf := dot_S25000x100_S100x128_S25000x128_1_0_0_1_n_n_wf
def dot_S400000x120_S120x128_S400000x128_1_0_0_1_n_n : DotDims S400000x120 S120x128 S400000x128 where
  lhsContracting := [1]
  rhsContracting := [0]
  lhsNonContracting := [0]
  rhsNonContracting := [1]
  lhsBatch := []
  rhsBatch := []
  wf := dot_S400000x120_S120x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def dot_S25000x256_S256x128_S25000x128_1_0_0_1_n_n : DotDims S25000x256 S256x128 S25000x128 where
  lhsContracting := [1]
  rhsContracting := [0]
  lhsNonContracting := [0]
  rhsNonContracting := [1]
  lhsBatch := []
  rhsBatch := []
  wf := dot_S25000x256_S256x128_S25000x128_1_0_0_1_n_n_wf
def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf
def scatter_S25000x128x3_S400000x1_S400000x128x3_12_0_0_1 : ScatterDims S25000x128x3 S400000x1 S400000x128x3 where
  updateWindowDims := [1, 2]
  insertedWindowDims := [0]
  scatterDimsToOperandDims := [0]
  indexVectorDim := 1
  wf := scatter_S25000x128x3_S400000x1_S400000x128x3_12_0_0_1_wf
def dot_S25000x1_S1x64_S25000x64_1_0_0_1_n_n : DotDims S25000x1 S1x64 S25000x64 where
  lhsContracting := [1]
  rhsContracting := [0]
  lhsNonContracting := [0]
  rhsNonContracting := [1]
  lhsBatch := []
  rhsBatch := []
  wf := dot_S25000x1_S1x64_S25000x64_1_0_0_1_n_n_wf

class Facts : Prop extends Facts₀ where

variable [Facts]
-- ==== Proof.PreRange.lean ====
/-
  The precondition's last conjunct, decoded: where the printed predicate is all ones, every entry of the edge index
  is at least -25000 and below 25000 as a signed word.
-/
import proofs.«425565_j41283225649648_3_alg».proof.Pre_finite_inputs
import proofs.«425565_j41283225649648_3_alg».proof.Proof.Gen.Pre_finite_inputs
import Idealize.ShloMosaic.Lib.ReduceAll
import Idealize.ShloMosaic.Lib.ValueIdx
import Idealize.ShloMosaic.Lib.StableHlo.Predicate

noncomputable section

namespace Cert.Pre_finite_inputs.Range

open Cert.Pre_finite_inputs Idealize.ShloMosaic Idealize.ShloMosaic.ValueIdx

/-- The scalar shape has one index. -/
instance : Subsingleton S_.Idx := ⟨fun a b => funext fun d => d.elim0⟩

/-- A scalar word spread over the edge index reads, at every entry, the scalar. -/
theorem bcast_at (w : IVec S_ 32) (h : S_.BroadcastsInDim S2x400000 (![] : Fin 0 → Fin S2x400000.rank))
    (p : S2x400000.Idx) : broadcastInDim S2x400000 ![] h w p = w ix0 :=
  (StableHlo.Predicate.bcast_scalar h (by decide) w p).trans (congrArg w (Subsingleton.elim _ _))

/-- The last six operations: where their result is one, the lower-bound mask they are handed is one at every entry
    of the edge index, and every entry is below the upper bound they are handed, as signed words. -/
theorem last_conjunct (a1 : IVec S2x400000 32) (v133 : IVec S_ 1) (v135 : IVec S2x400000 1) (c53 : IVec S_ 32)
    (h : fn_part8 (F := Ideal) a1 v133 v135 c53 = fun _ => 1#1) (p : S2x400000.Idx) :
    v135 p = 1#1 ∧ (a1 p).toInt < (c53 ix0).toInt := by
  have h0 := congrFun h ix0
  unfold fn_part8 at h0
  dsimp only at h0
  -- the conjunction with everything before: keep the right operand, the `all` over the edge index
  have h1 := (IntOp.andi_eq_one.mp h0).2
  -- the `all` is one: its operand is one at every entry
  have h2 := Host.reduce_andi_all _ _ _ _ ix0 h1 p
  -- the operand is the conjunction of the two masks
  have h3 := IntOp.andi_eq_one.mp h2
  refine ⟨h3.1, ?_⟩
  have h4 : IntOp.cmpi .slt (a1 p) (broadcastInDim S2x400000 ![] Facts.bcast_S_S2x400000 c53 p) = 1#1 := h3.2
  rw [bcast_at] at h4
  exact IntOp.cmpi_slt.mp h4

theorem range_of_pre (a0 : FVec Ideal S25000x100 .f32) (a1 : IVec S2x400000 32) (a2 : FVec Ideal S400000x120 .f32)
    (a3 : FVec Ideal S400000x3 .f32) (a4 : FVec Ideal S25000x1 .f32) (a5 : FVec Ideal S100x128 .f32) (a6 : FVec Ideal S128 .f32)
    (a7 : FVec Ideal S120x128 .f32) (a8 : FVec Ideal S128 .f32) (a9 : FVec Ideal S128x128 .f32) (a10 : FVec Ideal S128 .f32)
    (a11 : FVec Ideal S384x128 .f32) (a12 : FVec Ideal S128 .f32) (a13 : FVec Ideal S128x128 .f32) (a14 : FVec Ideal S128 .f32)
    (a15 : FVec Ideal S256x128 .f32) (a16 : FVec Ideal S128 .f32) (a17 : FVec Ideal S128x128 .f32) (a18 : FVec Ideal S128 .f32)
    (a19 : FVec Ideal S384x128 .f32) (a20 : FVec Ideal S128 .f32) (a21 : FVec Ideal S128x128 .f32) (a22 : FVec Ideal S128 .f32)
    (a23 : FVec Ideal S1x64 .f32) (a24 : FVec Ideal S128x128 .f32) (a25 : FVec Ideal S128 .f32) (a26 : FVec Ideal S128x128 .f32)
    (a27 : FVec Ideal S128 .f32)
    (h : fn (F := Ideal) a0 a1 a2 a3 a4 a5 a6 a7 a8 a9 a10 a11 a12 a13 a14 a15 a16 a17 a18 a19 a20 a21 a22 a23 a24 a25 a26 a27 = fun _ => 1#1)
    (p : S2x400000.Idx) : -25000 ≤ (a1 p).toInt ∧ (a1 p).toInt < 25000 := by
  -- the chain of parts ends in the last one: the conjunction of everything before, the lower-bound mask, the upper bound
  unfold fn fn_part1 fn_part2 fn_part3 fn_part4 fn_part5 fn_part6 fn_part7 at h
  dsimp only at h
  obtain ⟨hge, hlt⟩ := last_conjunct a1 _ _ _ h p
  have hge' : IntOp.cmpi .sge (a1 p) (broadcastInDim S2x400000 ![] Facts.bcast_S_S2x400000 (constantI S_ 32 4294942296#32) p) = 1#1 := hge
  rw [bcast_at] at hge'
  have hlo := IntOp.cmpi_sge.mp hge'
  have e0 : (constantI S_ 32 4294942296#32 ix0).toInt = -25000 := by decide
  have e1 : (constantI S_ 32 25000#32 ix0).toInt = 25000 := by decide
  rw [e0] at hlo
  rw [e1] at hlt
  exact ⟨hlo, hlt⟩

end Cert.Pre_finite_inputs.Range

end
-- ==== Proof.Spec.lean ====
/-
  The mathematics of the message-passing layer, row by row, over the extended reals: what one node row and one edge
  row of each result is as a function of rows of the inputs and of the weight matrices. No program is imported here.

  A dense layer is an affine map of a row (`lin`); the activation is `silu x = x · σ(x)` with σ the logistic
  function; a two-layer perceptron is `lin ∘ silu ∘ lin` (`mlp`). The node embedding is `lin` of a species row, the
  edge embedding the perceptron of an edge-attribute row. A message row is the perceptron of the concatenation of
  the two gathered node rows with the edge embedding, times the first gathered row; the vector message is a second
  perceptron of the same concatenation, scaled by each of the three components of the edge vector. The node update
  adds the perceptron of [embedding | aggregated messages] to the perceptron of the random Fourier features
  [cos(2π t B) | sin(2π t B)] of the node's time.
-/
import Idealize.ShloMosaic.PureOps
import Idealize.ShloMosaic.PureOps.Ideal
import Idealize.ShloMosaic.Lib.ValueIdx

noncomputable section

open scoped BigOperators

namespace Cert.Spec

open Idealize.ShloMosaic Idealize.ShloMosaic.ValueIdx

/-- Entry `(r, c)` of a rank-2 array, curried. -/
abbrev mat {R C : Nat} (A : (⟨2, ![R, C]⟩ : Shape).Idx → EReal) : Fin R → Fin C → EReal := fun r c => A (ix2 r c)
/-- Entry `c` of a rank-1 array. -/
abbrev vec {C : Nat} (v : (⟨1, ![C]⟩ : Shape).Idx → EReal) : Fin C → EReal := fun c => v (ix1 c)
/-- Entry `c` of a bias kept as a `1 × C` row. -/
abbrev row1 {C : Nat} (v : (⟨2, ![1, C]⟩ : Shape).Idx → EReal) : Fin C → EReal := fun c => v (ix2 (0 : Fin 1) c)

/-- An affine map of a row: `x · W + b` at column `c`. -/
def lin {K C : Nat} (x : Fin K → EReal) (W : Fin K → Fin C → EReal) (b : Fin C → EReal) (c : Fin C) : EReal :=
  (∑ k : Fin K, x k * W k c) + b c

/-- `silu x = x · σ(x)`. -/
def silu (x : EReal) : EReal := x * Ideal.logistic x

/-- A two-layer perceptron with a `silu` between the layers. -/
def mlp {K H C : Nat} (x : Fin K → EReal) (W1 : Fin K → Fin H → EReal) (b1 : Fin H → EReal)
    (W2 : Fin H → Fin C → EReal) (b2 : Fin C → EReal) (c : Fin C) : EReal :=
  lin (fun h => silu (lin x W1 b1 h)) W2 b2 c

/-- Two rows of width 128 side by side. -/
def cat2 (x y : Fin 128 → EReal) : Fin 256 → EReal := fun k =>
  if h : k.val < 128 then x ⟨k.val, h⟩ else y ⟨k.val - 128, by have := k.isLt; omega⟩

/-- Three rows of width 128 side by side. -/
def cat3 (x y z : Fin 128 → EReal) : Fin 384 → EReal := fun k =>
  if h : k.val < 128 then x ⟨k.val, h⟩
  else if h2 : k.val < 256 then y ⟨k.val - 128, by omega⟩ else z ⟨k.val - 256, by have := k.isLt; omega⟩

/-- Two rows of width 64 side by side. -/
def cat64 (x y : Fin 64 → EReal) : Fin 128 → EReal := fun k =>
  if h : k.val < 64 then x ⟨k.val, h⟩ else y ⟨k.val - 64, by have := k.isLt; omega⟩

/-- The random Fourier features of a time `t` against the projection row `B`: `[cos (2π·(t·B)) | sin (2π·(t·B))]`,
    `2π` the single-precision word both programs carry. -/
def rff (t : EReal) (B : Fin 64 → EReal) : Fin 128 → EReal :=
  cat64 (fun k => Ideal.cos (Ideal.ofBits .f32 0x40C90FDB#32 * (t * B k)))
    (fun k => Ideal.sin (Ideal.ofBits .f32 0x40C90FDB#32 * (t * B k)))

/-- A message row: the perceptron of `[fi | fj | ea]`, times `fi`. -/
def msg (fi fj ea : Fin 128 → EReal) (W1 : Fin 384 → Fin 128 → EReal) (b1 : Fin 128 → EReal)
    (W2 : Fin 128 → Fin 128 → EReal) (b2 : Fin 128 → EReal) (c : Fin 128) : EReal :=
  mlp (cat3 fi fj ea) W1 b1 W2 b2 c * fi c

/-- A node-update row: the perceptron of `[f | agg]` plus the perceptron of the time features. -/
def upd (f agg : Fin 128 → EReal) (t : EReal) (B : Fin 64 → EReal)
    (Wh1 : Fin 256 → Fin 128 → EReal) (bh1 : Fin 128 → EReal) (Wh2 : Fin 128 → Fin 128 → EReal) (bh2 : Fin 128 → EReal)
    (Wt1 : Fin 128 → Fin 128 → EReal) (bt1 : Fin 128 → EReal) (Wt2 : Fin 128 → Fin 128 → EReal) (bt2 : Fin 128 → EReal)
    (c : Fin 128) : EReal :=
  mlp (cat2 f agg) Wh1 bh1 Wh2 bh2 c + mlp (rff t B) Wt1 bt1 Wt2 bt2 c

/-! ## The merged first layer

The kernel runs the two perceptrons of an edge over ONE first layer of width 256 whose weight is `[W1 | W1']` and whose
bias is `[b1 | b1']`, and takes the two halves of the hidden row apart afterwards. -/

/-- The left half's column `h` of a row of width 256. -/
def lo (h : Fin 128) : Fin 256 := ⟨h.val, by have := h.isLt; omega⟩
/-- The right half's column `h` of a row of width 256. -/
def hi (h : Fin 128) : Fin 256 := ⟨128 + h.val, by have := h.isLt; omega⟩

/-- Entry `j` of the merged hidden row. -/
def hid (x : Fin 384 → EReal) (W : Fin 384 → Fin 256 → EReal) (b : Fin 256 → EReal) (j : Fin 256) : EReal :=
  silu (lin x W b j)

/-- The message row computed over the merged first layer's left half. -/
def msgK (fi fj ea : Fin 128 → EReal) (W : Fin 384 → Fin 256 → EReal) (b : Fin 256 → EReal)
    (W2 : Fin 128 → Fin 128 → EReal) (b2 : Fin 128 → EReal) (c : Fin 128) : EReal :=
  lin (fun h => hid (cat3 fi fj ea) W b (lo h)) W2 b2 c * fi c

/-- The vector-message row computed over the merged first layer's right half. -/
def mvK (fi fj ea : Fin 128 → EReal) (W : Fin 384 → Fin 256 → EReal) (b : Fin 256 → EReal)
    (W2 : Fin 128 → Fin 128 → EReal) (b2 : Fin 128 → EReal) (c : Fin 128) : EReal :=
  lin (fun h => hid (cat3 fi fj ea) W b (hi h)) W2 b2 c

/-- Where the merged weight's left half is `W1` and the merged bias's left half `b1`, the merged form of the
    message row is the plain one. -/
theorem msgK_eq (fi fj ea : Fin 128 → EReal) (W : Fin 384 → Fin 256 → EReal) (b : Fin 256 → EReal)
    (W1 : Fin 384 → Fin 128 → EReal) (b1 : Fin 128 → EReal) (W2 : Fin 128 → Fin 128 → EReal) (b2 : Fin 128 → EReal)
    (hW : ∀ k h, W k (lo h) = W1 k h) (hb : ∀ h, b (lo h) = b1 h) (c : Fin 128) :
    msgK fi fj ea W b W2 b2 c = msg fi fj ea W1 b1 W2 b2 c := by
  unfold msgK msg mlp hid
  congr 2
  funext h
  unfold lin
  rw [hb h]
  congr 2
  exact Finset.sum_congr rfl fun k _ => by rw [hW k h]

/-- The same for the right half and the second perceptron. -/
theorem mvK_eq (fi fj ea : Fin 128 → EReal) (W : Fin 384 → Fin 256 → EReal) (b : Fin 256 → EReal)
    (W1 : Fin 384 → Fin 128 → EReal) (b1 : Fin 128 → EReal) (W2 : Fin 128 → Fin 128 → EReal) (b2 : Fin 128 → EReal)
    (hW : ∀ k h, W k (hi h) = W1 k h) (hb : ∀ h, b (hi h) = b1 h) (c : Fin 128) :
    mvK fi fj ea W b W2 b2 c = mlp (cat3 fi fj ea) W1 b1 W2 b2 c := by
  unfold mvK mlp hid
  congr 1
  funext h
  unfold lin
  rw [hb h]
  congr 2
  exact Finset.sum_congr rfl fun k _ => by rw [hW k h]

/-! ## The edge output's 512 columns

The kernel writes one row of width 512 per edge: the message row, then the vector-message row scaled by each of the
edge vector's three components. -/

/-- Column `c` of the message part. -/
def colMsg (c : Fin 128) : Fin 512 := ⟨c.val, by have := c.isLt; omega⟩
/-- Column `c` of component `k`'s part. -/
def colMv (k : Fin 3) (c : Fin 128) : Fin 512 := ⟨128 + 128 * k.val + c.val, by have := c.isLt; have := k.isLt; omega⟩

/-! ## Indices, the gather and the scatters

Row `s` of the `2 × E` edge index names a node per edge. A gather reads node rows at those indices, a negative
index wrapped once by the number of nodes; the segment sums scatter edge rows onto node rows at the raw indices. -/

abbrev S2xE : Shape := ⟨2, ![2, 400000]⟩
abbrev SEx1 : Shape := ⟨2, ![400000, 1]⟩
abbrev SNxD : Shape := ⟨2, ![25000, 128]⟩
abbrev SExD : Shape := ⟨2, ![400000, 128]⟩
abbrev SNx4D : Shape := ⟨2, ![25000, 512]⟩
abbrev SEx4D : Shape := ⟨2, ![400000, 512]⟩
abbrev SNxDx3 : Shape := ⟨3, ![25000, 128, 3]⟩
abbrev SExDx3 : Shape := ⟨3, ![400000, 128, 3]⟩

/-- A negative index wrapped by the number of nodes. -/
def wrap (v : BitVec 32) : BitVec 32 := Scalar.select (IntOp.cmpi .slt v 0#32) (IntOp.addi v 25000#32) v

/-- Row `s` of the edge index as a column of wrapped start indices. -/
def icol (a1 : S2xE.Idx → BitVec 32) (s : Fin 2) : SEx1.Idx → BitVec 32 :=
  fun p => wrap (a1 (ix2 s (⟨(p 0).val, idx2_lt0 p⟩ : Fin 400000)))

/-- Row 1 of the edge index as a column of raw scatter indices. -/
def jcol (a1 : S2xE.Idx → BitVec 32) : SEx1.Idx → BitVec 32 :=
  fun p => a1 (ix2 (1 : Fin 2) (⟨(p 0).val, idx2_lt0 p⟩ : Fin 400000))

/-- A wrapped index of an entry in `[-25000, 25000)` is a row number: in `[0, 24999]` as a signed word. -/
theorem wrap_inb (v : BitVec 32) (h0 : -25000 ≤ v.toInt) (h1 : v.toInt < 25000) :
    0 ≤ (wrap v).toInt ∧ (wrap v).toInt ≤ 24999 := by
  unfold wrap Scalar.select IntOp.cmpi IntOp.addi
  dsimp only
  by_cases hs : v.slt 0#32 = true
  · -- a negative entry: 25000 is added, and the sum does not leave the signed range
    rw [hs]
    have hneg : v.toInt < 0 := by
      have := hs
      rw [BitVec.slt, decide_eq_true_eq] at this
      simpa using this
    have hadd : (v + 25000#32).toInt = v.toInt + 25000 := by
      rw [BitVec.toInt_add]
      have e : (25000#32 : BitVec 32).toInt = 25000 := by decide
      rw [e]
      apply Int.bmod_eq_of_le <;> omega
    simp only [BitVec.ofBool_true, if_true]
    rw [hadd]; omega
  · -- a non-negative entry is kept
    have hs' : v.slt 0#32 = false := by simpa using hs
    rw [hs']
    have hnn : 0 ≤ v.toInt := by
      have := hs'
      rw [BitVec.slt, decide_eq_false_iff_not] at this
      simpa using this
    simp only [BitVec.ofBool_false]
    rw [if_neg (by decide)]
    omega

/-- The dimension numbers of a gather of whole rows of a `25000 × 128` table at a column of `400000` start indices. -/
def gdims : GatherDims SNxD SEx1 SExD where
  offsetDims := [1]
  collapsedSliceDims := [0]
  operandBatchingDims := []
  startIndicesBatchingDims := []
  startIndexMap := [0]
  indexVectorDim := 1
  sliceSizes := ![1, 128]

/-- The rows of `f` at the start indices `idx`. -/
def takeRows {α : Type} (f : SNxD.Idx → α) (idx : SEx1.Idx → BitVec 32) : SExD.Idx → α := Host.gather gdims f idx

/-- The dimension numbers of a scatter of rows of width 512 onto rows of a `25000 × 512` array. -/
def sdims4 : ScatterDims SNx4D SEx1 SEx4D where
  updateWindowDims := [1]
  insertedWindowDims := [0]
  scatterDimsToOperandDims := [0]
  indexVectorDim := 1

/-- The same at width 128. -/
def sdims1 : ScatterDims SNxD SEx1 SExD where
  updateWindowDims := [1]
  insertedWindowDims := [0]
  scatterDimsToOperandDims := [0]
  indexVectorDim := 1

/-- The same for `128 × 3` slabs. -/
def sdims3 : ScatterDims SNxDx3 SEx1 SExDx3 where
  updateWindowDims := [1, 2]
  insertedWindowDims := [0]
  scatterDimsToOperandDims := [0]
  indexVectorDim := 1

end Cert.Spec

end
-- ==== Proof.Val0.lean ====
/-
  The first pallas_call's output array read at an index. The call runs over 5 grid points; at point `t` it sees rows
  `5000 t … 5000 t + 4999` of the species array and the weight and the bias row whole, and writes the same rows of the
  node embedding. The block it stores is, row by row, the affine map of the species block's row; a block's row `p` at
  point `t` is row `5000 t + p` of the array; the five blocks cover the 25000 rows (row `r` lies in block `r / 5000`);
  so the array ends holding the affine map of each species row.
-/
import proofs.«425565_j41283225649648_3_alg».proof.Proof.Gen.KernelIdeal.Frame
import proofs.«425565_j41283225649648_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open Cert.Spec (mat vec row1)

variable (V : (c : Dev nD) → (b : Ref sig .tc) → Buf (Elt Ideal) ((c : Thread nD τ).loc b))

namespace Region0

/-! ## The block's matmul: where its operands are read

The contraction of the block's `5000 × 100` rows with the `100 × 128` weight runs over one axis: at output index
`(p, q)` and contraction index `k` the left operand is read at `(p, k)` and the right one at `(k, q)`. -/

theorem lhs_blk_0 (i : S5000x128.Idx) (q : dot_S5000x100_S100x128_S5000x128_1_0_0_1_n_n.contr.Idx) :
    (dot_S5000x100_S100x128_S5000x128_1_0_0_1_n_n.lhsIdx i q 0).val = (i 0).val := by
  unfold DotDims.lhsIdx
  rw [dif_neg (show ¬(0 : Fin S5000x100.rank) ∈ dot_S5000x100_S100x128_S5000x128_1_0_0_1_n_n.lhsBatch by decide), dif_pos (show (0 : Fin S5000x100.rank) ∈ dot_S5000x100_S100x128_S5000x128_1_0_0_1_n_n.lhsNonContracting by decide)]
  rfl
theorem lhs_blk_1 (i : S5000x128.Idx) (q : dot_S5000x100_S100x128_S5000x128_1_0_0_1_n_n.contr.Idx) :
    (dot_S5000x100_S100x128_S5000x128_1_0_0_1_n_n.lhsIdx i q 1).val = (q ⟨0, by decide⟩).val :=
  dot_S5000x100_S100x128_S5000x128_1_0_0_1_n_n.lhsIdx_val_of_single rfl i q
theorem rhs_blk_0 (i : S5000x128.Idx) (q : dot_S5000x100_S100x128_S5000x128_1_0_0_1_n_n.contr.Idx) :
    (dot_S5000x100_S100x128_S5000x128_1_0_0_1_n_n.rhsIdx i q 0).val = (q ⟨0, by decide⟩).val :=
  dot_S5000x100_S100x128_S5000x128_1_0_0_1_n_n.rhsIdx_val_of_single rfl i q
theorem rhs_blk_1 (i : S5000x128.Idx) (q : dot_S5000x100_S100x128_S5000x128_1_0_0_1_n_n.contr.Idx) :
    (dot_S5000x100_S100x128_S5000x128_1_0_0_1_n_n.rhsIdx i q 1).val = (i 1).val := by
  unfold DotDims.rhsIdx
  rw [dif_neg (show ¬(1 : Fin S100x128.rank) ∈ dot_S5000x100_S100x128_S5000x128_1_0_0_1_n_n.rhsBatch by decide), dif_pos (show (1 : Fin S100x128.rank) ∈ dot_S5000x100_S100x128_S5000x128_1_0_0_1_n_n.rhsNonContracting by decide)]
  rfl

/-- The block's matmul into the zero accumulator, at `(p, q)`: the sum over the 100 species columns. -/
theorem matmul_blk_apply (x0 : FVec Ideal S5000x100 .f32) (x1 : FVec Ideal S100x128 .f32) (p : Fin 5000) (q : Fin 128) :
    FloatOps.matmul (F := Ideal) dot_S5000x100_S100x128_S5000x128_1_0_0_1_n_n none x0 x1 (constant (F := Ideal) S5000x128 .f32 0x00000000#32) (ix2 p q)
      = ∑ k : Fin 100, x0 (ix2 p k) * x1 (ix2 k q) := by
  refine (Ideal.matmul_constant_zero_apply dot_S5000x100_S100x128_S5000x128_1_0_0_1_n_n none x0 x1 (ix2 p q)).trans ?_
  rw [← Equiv.sum_comp (ValueIdx.contrEquiv1 dot_S5000x100_S100x128_S5000x128_1_0_0_1_n_n 100 rfl rfl).symm]
  refine Finset.sum_congr rfl fun k _ => ?_
  have hk := ValueIdx.contrEquiv1_symm_val dot_S5000x100_S100x128_S5000x128_1_0_0_1_n_n 100 rfl rfl k
  have el : dot_S5000x100_S100x128_S5000x128_1_0_0_1_n_n.lhsIdx (ix2 p q) ((ValueIdx.contrEquiv1 dot_S5000x100_S100x128_S5000x128_1_0_0_1_n_n 100 rfl rfl).symm k) = ix2 p k := funext fun a => Fin.ext (by
    match a with
    | ⟨0, _⟩ => exact lhs_blk_0 _ _
    | ⟨1, _⟩ => exact (lhs_blk_1 _ _).trans hk)
  have er : dot_S5000x100_S100x128_S5000x128_1_0_0_1_n_n.rhsIdx (ix2 p q) ((ValueIdx.contrEquiv1 dot_S5000x100_S100x128_S5000x128_1_0_0_1_n_n 100 rfl rfl).symm k) = ix2 k q := funext fun a => Fin.ext (by
    match a with
    | ⟨0, _⟩ => exact (rhs_blk_0 _ _).trans hk
    | ⟨1, _⟩ => exact rhs_blk_1 _ _)
  rw [el, er]

/-- THE BODY'S ONE STORE at `(p, q)`: the affine map of the block's row `p`, whenever that row is row `r` of an array
    `a0` and the weight and bias blocks are the arrays `W` and `b` themselves. -/
theorem pay_at (x0 : Vec Ideal S5000x100 .f32) (x1 : Vec Ideal S100x128 .f32) (x2 : Vec Ideal S1x128 .f32)
    (a0 : S25000x100.Idx → EReal) (W : S100x128.Idx → EReal) (b : S1x128.Idx → EReal)
    (p : Fin 5000) (q : Fin 128) (r : Fin 25000)
    (h0 : ∀ k : Fin 100, x0 (ix2 p k) = a0 (ix2 r k))
    (h1 : ∀ (k : Fin 100) (j : Fin 128), x1 (ix2 k j) = W (ix2 k j))
    (h2 : ∀ j : Fin 128, x2 (ix2 (0 : Fin 1) j) = b (ix2 (0 : Fin 1) j)) :
    k0_pay1 (F := Ideal) x0 x1 x2 (ix2 p q) = Spec.lin (mat a0 r) (mat W) (row1 b) q := by
  unfold k0_pay1
  refine (addf_apply _ _ (ix2 p q)).trans ?_
  unfold Spec.lin
  refine congrArg₂ (· + ·) ?_ ?_
  · refine (matmul_blk_apply x0 x1 p q).trans ?_
    exact Finset.sum_congr rfl fun k _ => by rw [h0 k, h1 k q]
  · rw [shapeCast_self]
    exact (broadcastTo_1b_ab_apply x2 broadcasts_S1x128_S5000x128 p q).trans (h2 q)

/-! ## From the blocks to the array -/

theorem hz : (![0, 0] : Fin 2 → Nat) = fun _ => 0 := funext fun a => by fin_cases a <;> rfl

/-- What the output array ends holding: at `(r, q)` the affine map of row `r` of the species array. -/
def G0 (a0 : S25000x100.Idx → EReal) (W : S100x128.Idx → EReal) (b : S1x128.Idx → EReal) : S25000x128.Idx → EReal :=
  fun i => Spec.lin (mat a0 (⟨(i 0).val, idx2_lt0 i⟩ : Fin 25000)) (mat W) (row1 b) (⟨(i 1).val, idx2_lt1 i⟩ : Fin 128)

/-- The windows' index maps, decided over the five grid points: the species window moves with the output window along the
    rows, the weight and bias windows stay at block `(0, 0)`, and the output's row block is one of `0 … 4`. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 4 ∧ win0_3.index t (1 : Fin 2) = 0 :=
  (by decide +kernel : ∀ t : Fin grid0.N, _)

/-- Every row block of the output is some point's. -/
theorem idx_onto : ∀ q0 : Fin 5, ∃ t : Fin cfg0.N, win0_3.index t = ![q0.val, 0] :=
  (by decide +kernel : ∀ q0 : Fin 5, ∃ t : Fin grid0.N, win0_3.index t = ![q0.val, 0])

/-- WHAT POINT `t` WRITES BACK is block `t` of `G0` of the arrays as the region finds them. -/
theorem flushed_eq (c : Dev nD) (t : Fin cfg0.N) :
    (dat0 (F := Ideal) V c).flushed 3 t
      = ((cfg0.win 3).blk t).view.read (Elt Ideal) (G0 (V c main_arg0) (V c main_arg5) (V c main_v4)) := by
  show (cfg0.win 3).cut (grid0.coords t) ((dat0 (F := Ideal) V c).after 3 t) = _
  rw [after0_3]
  unfold out0_3
  rw [View.canon_unit_zero hz]
  simp only [View.ld_unit_zero (S := S5000x100) hz, View.ld_unit_zero (S := S100x128) hz, View.ld_unit_zero (S := S1x128) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  have hp : p.val < 5000 := p.isLt
  have hr : win0_3.index t (0 : Fin 2) * 5000 + p.val < 25000 := by omega
  show k0_pay1 (F := Ideal) (iblk0 V c 0 t) (iblk0 V c 1 t) (iblk0 V c 2 t) (ix2 p q)
      = G0 (V c main_arg0) (V c main_arg5) (V c main_v4) (((cfg0.win 3).blk t).view.emb (ix2 p q))
  refine (pay_at (iblk0 V c 0 t) (iblk0 V c 1 t) (iblk0 V c 2 t) (V c main_arg0) (V c main_arg5) (V c main_v4) p q
    ⟨win0_3.index t (0 : Fin 2) * 5000 + p.val, hr⟩ ?_ ?_ ?_).trans ?_
  · -- the species block's row `p` is the array's row `5000 · (block index) + p`
    intro k
    show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = win0_3.index t (0 : Fin 2) * 5000 + p.val; omega
    | ⟨1, _⟩ => show win0_0.index t (1 : Fin 2) * 100 + 1 * k.val = k.val; omega
  · -- the weight block is the whole weight
    intro k j
    show V c main_arg5 (((cfg0.win 1).blk t).view.emb (ix2 k j)) = V c main_arg5 _
    refine congrArg (V c main_arg5) (funext fun a => Fin.ext ?_)
    match a with
    | ⟨0, _⟩ => show win0_1.index t (0 : Fin 2) * 100 + 1 * k.val = k.val; omega
    | ⟨1, _⟩ => show win0_1.index t (1 : Fin 2) * 128 + 1 * j.val = j.val; omega
  · -- the bias block is the whole bias row
    intro j
    show V c main_v4 (((cfg0.win 2).blk t).view.emb (ix2 (0 : Fin 1) j)) = V c main_v4 _
    refine congrArg (V c main_v4) (funext fun a => Fin.ext ?_)
    match a with
    | ⟨0, _⟩ => show win0_2.index t (0 : Fin 2) * 1 + 1 * (0 : Fin 1).val = (0 : Fin 1).val; omega
    | ⟨1, _⟩ => show win0_2.index t (1 : Fin 2) * 128 + 1 * j.val = j.val; omega
  · -- the output block's `(p, q)` is the array's `(5000 · (block index) + p, q)`
    unfold G0
    have er : (⟨win0_3.index t (0 : Fin 2) * 5000 + p.val, hr⟩ : Fin 25000)
        = ⟨((((cfg0.win 3).blk t).view.emb (ix2 p q) : S25000x128.Idx) 0).val, idx2_lt0 _⟩ :=
      Fin.ext (by show win0_3.index t (0 : Fin 2) * 5000 + p.val = win0_3.index t (0 : Fin 2) * 5000 + 1 * p.val; omega)
    have eq : q = (⟨((((cfg0.win 3).blk t).view.emb (ix2 p q) : S25000x128.Idx) 1).val, idx2_lt1 _⟩ : Fin 128) :=
      Fin.ext (by show q.val = win0_3.index t (1 : Fin 2) * 128 + 1 * q.val; omega)
    exact congrArg₂ (fun (r' : Fin 25000) (q' : Fin 128) =>
      Spec.lin (mat (V c main_arg0 : S25000x100.Idx → EReal) r') (mat (V c main_arg5 : S100x128.Idx → EReal))
        (row1 (V c main_v4 : S1x128.Idx → EReal)) q') er eq

/-- An index of the array is in point `t`'s block iff each coordinate is in the block's range on its axis. -/
theorem mem_blk (t : Fin cfg0.N) (i : S25000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v5).slice (win0_3.rect t)).set ↔ _
  rw [View.set_slice_whole, Rect.mem_set_unit]
  exact Iff.rfl

/-- The five row blocks tile the 25000 rows: row `r` is in the block of the point whose row block is `r / 5000`. -/
theorem cover (i : S25000x128.Idx) :
    ∃ t : Fin cfg0.N, (cfg0.win 3).flush t = true ∧ i ∈ ((cfg0.win 3).blk t).view.set := by
  have hi0 : (i 0).val < 25000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY after the first pallas_call: `G0` of the arrays as the region finds them. -/
theorem final (c : Dev nD) :
    (dat0 (F := Ideal) V c).arrAt 3 cfg0.N = G0 (V c main_arg0) (V c main_arg5) (V c main_v4) :=
  (dat0 (F := Ideal) V c).arrAt_eq_of_cover 3 (G0 (V c main_arg0) (V c main_arg5) (V c main_v4))
    (fun t _ => flushed_eq V c t) cover

end Region0

/-- The node embedding: after the first pallas_call, row `r` of its output array is the affine map of row `r` of the
    species array (the blocks of 5000 rows tile the 25000 rows; each block's row is the same function of its own
    species row and of the whole weight and bias). -/
theorem region0 (c : Dev nD) (r : Fin 25000) (q : Fin 128) :
    ((dat0 (F := Ideal) V c).arrAt 3 cfg0.N : S25000x128.Idx → EReal) (ix2 r q)
      = Spec.lin (mat (V c main_arg0 : S25000x100.Idx → EReal) r) (mat (V c main_arg5 : S100x128.Idx → EReal))
          (row1 (V c main_v4 : S1x128.Idx → EReal)) q := by
  rw [Region0.final V c]
  rfl

end Cert.KernelIdeal.Val

end
-- ==== Proof.Val1_Pay.lean ====
/-
  The second pallas_call's payloads read at an index, over arbitrary loaded blocks: each stored value of the body at
  row `p` of a block of 2000 edge rows and column `q`, as the row-by-row mathematics of Spec.lean applied to row `p`
  of the loaded blocks and to the whole weight matrices and bias rows.

  A `tpu.matmul` into the zero accumulator is the plain sum over the contracted axis; a bias kept as a `1 × C` row and
  broadcast down the 2000 rows reads its column; so a dense layer of the body is `Spec.lin` of a block's row. The
  edge embedding block is `lin ∘ silu ∘ lin` of the attribute block's row; the merged hidden block is `silu ∘ lin` of
  the concatenation `[fi | fj | ea]` of three rows, and its two column halves feed the two second layers; the message
  block is the first second layer times `fi`, and the three vector-message blocks the other second layer times one
  component each of the edge vector.
-/
import proofs.«425565_j41283225649648_3_alg».proof.Proof.Gen.KernelIdeal.Skeleton
import proofs.«425565_j41283225649648_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
namespace Cert.KernelIdeal.Val.R1

open Cert.KernelIdeal Cert.KernelIdeal.Gen Idealize.ShloMosaic
open Idealize.ShloMosaic.ValueIdx
open Cert.Spec (mat vec row1)

/-! ### The contraction `[2000, 128] × [128, 128]` -/

theorem lhs_mm128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator at row `p`, column `q`: the sum over the 128 contracted columns. -/
theorem mm128_apply (l : FVec Ideal S2000x128 .f32) (r : FVec Ideal S128x128 .f32) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_mm128_0 _ _
    | ⟨1, _⟩ => exact (lhs_mm128_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_mm128_0 _ _).trans hk
    | ⟨1, _⟩ => exact rhs_mm128_1 _ _)
  rw [el, er]

/-! ### The contraction `[2000, 120] × [120, 128]` -/

theorem lhs_mm120_0 (i : S2000x128.Idx) (q : dot_S2000x120_S120x128_S2000x128_1_0_0_1_n_n.contr.Idx) :
    (dot_S2000x120_S120x128_S2000x128_1_0_0_1_n_n.lhsIdx i q 0).val = (i 0).val := by
  unfold DotDims.lhsIdx
  rw [dif_neg (show ¬(0 : Fin S2000x120.rank) ∈ dot_S2000x120_S120x128_S2000x128_1_0_0_1_n_n.lhsBatch by decide), dif_pos (show (0 : Fin S2000x120.rank) ∈ dot_S2000x120_S120x128_S2000x128_1_0_0_1_n_n.lhsNonContracting by decide)]
  rfl
theorem lhs_mm120_1 (i : S2000x128.Idx) (q : dot_S2000x120_S120x128_S2000x128_1_0_0_1_n_n.contr.Idx) :
    (dot_S2000x120_S120x128_S2000x128_1_0_0_1_n_n.lhsIdx i q 1).val = (q ⟨0, by decide⟩).val :=
  dot_S2000x120_S120x128_S2000x128_1_0_0_1_n_n.lhsIdx_val_of_single rfl i q
theorem rhs_mm120_0 (i : S2000x128.Idx) (q : dot_S2000x120_S120x128_S2000x128_1_0_0_1_n_n.contr.Idx) :
    (dot_S2000x120_S120x128_S2000x128_1_0_0_1_n_n.rhsIdx i q 0).val = (q ⟨0, by decide⟩).val :=
  dot_S2000x120_S120x128_S2000x128_1_0_0_1_n_n.rhsIdx_val_of_single rfl i q
theorem rhs_mm120_1 (i : S2000x128.Idx) (q : dot_S2000x120_S120x128_S2000x128_1_0_0_1_n_n.contr.Idx) :
    (dot_S2000x120_S120x128_S2000x128_1_0_0_1_n_n.rhsIdx i q 1).val = (i 1).val := by
  unfold DotDims.rhsIdx
  rw [dif_neg (show ¬(1 : Fin S120x128.rank) ∈ dot_S2000x120_S120x128_S2000x128_1_0_0_1_n_n.rhsBatch by decide), dif_pos (show (1 : Fin S120x128.rank) ∈ dot_S2000x120_S120x128_S2000x128_1_0_0_1_n_n.rhsNonContracting by decide)]
  rfl

/-- The product into the zero accumulator at row `p`, column `q`: the sum over the 120 contracted columns. -/
theorem mm120_apply (l : FVec Ideal S2000x120 .f32) (r : FVec Ideal S120x128 .f32) (p : Fin 2000) (q : Fin 128) :
    matmul dot_S2000x120_S120x128_S2000x128_1_0_0_1_n_n none l r (constant S2000x128 .f32 0x00000000#32) (ix2 p q)
      = ∑ k : Fin 120, l (ix2 p k) * r (ix2 k q) := by
  refine (Ideal.matmul_constant_zero_apply dot_S2000x120_S120x128_S2000x128_1_0_0_1_n_n none l r (ix2 p q)).trans ?_
  rw [← Equiv.sum_comp (ValueIdx.contrEquiv1 dot_S2000x120_S120x128_S2000x128_1_0_0_1_n_n 120 rfl rfl).symm]
  refine Finset.sum_congr rfl fun k _ => ?_
  have hk := ValueIdx.contrEquiv1_symm_val dot_S2000x120_S120x128_S2000x128_1_0_0_1_n_n 120 rfl rfl k
  have el : dot_S2000x120_S120x128_S2000x128_1_0_0_1_n_n.lhsIdx (ix2 p q) ((ValueIdx.contrEquiv1 dot_S2000x120_S120x128_S2000x128_1_0_0_1_n_n 120 rfl rfl).symm k) = ix2 p k := funext fun a => Fin.ext (by
    match a with
    | ⟨0, _⟩ => exact lhs_mm120_0 _ _
    | ⟨1, _⟩ => exact (lhs_mm120_1 _ _).trans hk)
  have er : dot_S2000x120_S120x128_S2000x128_1_0_0_1_n_n.rhsIdx (ix2 p q) ((ValueIdx.contrEquiv1 dot_S2000x120_S120x128_S2000x128_1_0_0_1_n_n 120 rfl rfl).symm k) = ix2 k q := funext fun a => Fin.ext (by
    match a with
    | ⟨0, _⟩ => exact (rhs_mm120_0 _ _).trans hk
    | ⟨1, _⟩ => exact rhs_mm120_1 _ _)
  rw [el, er]

/-! ### The contraction `[2000, 384] × [384, 256]` -/

theorem lhs_mm384_0 (i : S2000x256.Idx) (q : dot_S2000x384_S384x256_S2000x256_1_0_0_1_n_n.contr.Idx) :
    (dot_S2000x384_S384x256_S2000x256_1_0_0_1_n_n.lhsIdx i q 0).val = (i 0).val := by
  unfold DotDims.lhsIdx
  rw [dif_neg (show ¬(0 : Fin S2000x384.rank) ∈ dot_S2000x384_S384x256_S2000x256_1_0_0_1_n_n.lhsBatch by decide), dif_pos (show (0 : Fin S2000x384.rank) ∈ dot_S2000x384_S384x256_S2000x256_1_0_0_1_n_n.lhsNonContracting by decide)]
  rfl
theorem lhs_mm384_1 (i : S2000x256.Idx) (q : dot_S2000x384_S384x256_S2000x256_1_0_0_1_n_n.contr.Idx) :
    (dot_S2000x384_S384x256_S2000x256_1_0_0_1_n_n.lhsIdx i q 1).val = (q ⟨0, by decide⟩).val :=
  dot_S2000x384_S384x256_S2000x256_1_0_0_1_n_n.lhsIdx_val_of_single rfl i q
theorem rhs_mm384_0 (i : S2000x256.Idx) (q : dot_S2000x384_S384x256_S2000x256_1_0_0_1_n_n.contr.Idx) :
    (dot_S2000x384_S384x256_S2000x256_1_0_0_1_n_n.rhsIdx i q 0).val = (q ⟨0, by decide⟩).val :=
  dot_S2000x384_S384x256_S2000x256_1_0_0_1_n_n.rhsIdx_val_of_single rfl i q
theorem rhs_mm384_1 (i : S2000x256.Idx) (q : dot_S2000x384_S384x256_S2000x256_1_0_0_1_n_n.contr.Idx) :
    (dot_S2000x384_S384x256_S2000x256_1_0_0_1_n_n.rhsIdx i q 1).val = (i 1).val := by
  unfold DotDims.rhsIdx
  rw [dif_neg (show ¬(1 : Fin S384x256.rank) ∈ dot_S2000x384_S384x256_S2000x256_1_0_0_1_n_n.rhsBatch by decide), dif_pos (show (1 : Fin S384x256.rank) ∈ dot_S2000x384_S384x256_S2000x256_1_0_0_1_n_n.rhsNonContracting by decide)]
  rfl

/-- The product into the zero accumulator at row `p`, column `q`: the sum over the 384 contracted columns. -/
theorem mm384_apply (l : FVec Ideal S2000x384 .f32) (r : FVec Ideal S384x256 .f32) (p : Fin 2000) (q : Fin 256) :
    matmul dot_S2000x384_S384x256_S2000x256_1_0_0_1_n_n none l r (constant S2000x256 .f32 0x00000000#32) (ix2 p q)
      = ∑ k : Fin 384, l (ix2 p k) * r (ix2 k q) := by
  refine (Ideal.matmul_constant_zero_apply dot_S2000x384_S384x256_S2000x256_1_0_0_1_n_n none l r (ix2 p q)).trans ?_
  rw [← Equiv.sum_comp (ValueIdx.contrEquiv1 dot_S2000x384_S384x256_S2000x256_1_0_0_1_n_n 384 rfl rfl).symm]
  refine Finset.sum_congr rfl fun k _ => ?_
  have hk := ValueIdx.contrEquiv1_symm_val dot_S2000x384_S384x256_S2000x256_1_0_0_1_n_n 384 rfl rfl k
  have el : dot_S2000x384_S384x256_S2000x256_1_0_0_1_n_n.lhsIdx (ix2 p q) ((ValueIdx.contrEquiv1 dot_S2000x384_S384x256_S2000x256_1_0_0_1_n_n 384 rfl rfl).symm k) = ix2 p k := funext fun a => Fin.ext (by
    match a with
    | ⟨0, _⟩ => exact lhs_mm384_0 _ _
    | ⟨1, _⟩ => exact (lhs_mm384_1 _ _).trans hk)
  have er : dot_S2000x384_S384x256_S2000x256_1_0_0_1_n_n.rhsIdx (ix2 p q) ((ValueIdx.contrEquiv1 dot_S2000x384_S384x256_S2000x256_1_0_0_1_n_n 384 rfl rfl).symm k) = ix2 k q := funext fun a => Fin.ext (by
    match a with
    | ⟨0, _⟩ => exact (rhs_mm384_0 _ _).trans hk
    | ⟨1, _⟩ => exact rhs_mm384_1 _ _)
  rw [el, er]

/-! ## Dense layers of the body at an index -/

/-- `x · σ(x)` of a block, read at an index. -/
theorem silu_apply {s : Shape} (x : FVec Ideal s .f32) (i : s.Idx) : mulf x (logistic x) i = Spec.silu (x i) := rfl

/-- A bias kept as a `1 × 128` row and broadcast down the 2000 rows reads its column. -/
theorem bias128_apply (b : FVec Ideal S1x128 .f32) (p : Fin 2000) (q : Fin 128) :
    broadcastTo S2000x128 (shapeCast S1x128 b shapeCasts_S1x128_S1x128) broadcasts_S1x128_S2000x128 (ix2 p q)
      = b (ix2 (0 : Fin 1) q) := by
  rw [shapeCast_self]
  exact broadcastTo_apply b broadcasts_S1x128_S2000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The same for the merged bias row of width 256. -/
theorem bias256_apply (b : FVec Ideal S1x256 .f32) (p : Fin 2000) (q : Fin 256) :
    broadcastTo S2000x256 (shapeCast S1x256 b shapeCasts_S1x256_S1x256) broadcasts_S1x256_S2000x256 (ix2 p q)
      = b (ix2 (0 : Fin 1) q) := by
  rw [shapeCast_self]
  exact broadcastTo_apply b broadcasts_S1x256_S2000x256 (ix2 p q) (ix2 (0 : Fin 1) q) (fun a => match a with
    | ⟨0, _⟩ => by show (0 : Nat) = if (1 : Nat) = 1 then 0 else p.val; rw [if_pos rfl]
    | ⟨1, _⟩ => by show q.val = if (256 : Nat) = 1 then 0 else q.val; rw [if_neg (by decide)])

/-- A dense layer `128 → 128` of a block: `Spec.lin` of the block's row. -/
theorem lin128_apply (x : FVec Ideal S2000x128 .f32) (W : FVec Ideal S128x128 .f32) (b : FVec Ideal S1x128 .f32)
    (p : Fin 2000) (q : Fin 128) :
    addf (matmul dot_S2000x128_S128x128_S2000x128_1_0_0_1_n_n none x W (constant S2000x128 .f32 0x00000000#32))
        (broadcastTo S2000x128 (shapeCast S1x128 b shapeCasts_S1x128_S1x128) broadcasts_S1x128_S2000x128) (ix2 p q)
      = Spec.lin (fun k => x (ix2 p k)) (mat W) (row1 b) q := by
  refine (addf_apply _ _ _).trans ?_
  rw [mm128_apply, bias128_apply]
  rfl

/-- A dense layer `120 → 128` of a block. -/
theorem lin120_apply (x : FVec Ideal S2000x120 .f32) (W : FVec Ideal S120x128 .f32) (b : FVec Ideal S1x128 .f32)
    (p : Fin 2000) (q : Fin 128) :
    addf (matmul dot_S2000x120_S120x128_S2000x128_1_0_0_1_n_n none x W (constant S2000x128 .f32 0x00000000#32))
        (broadcastTo S2000x128 (shapeCast S1x128 b shapeCasts_S1x128_S1x128) broadcasts_S1x128_S2000x128) (ix2 p q)
      = Spec.lin (fun k => x (ix2 p k)) (mat W) (row1 b) q := by
  refine (addf_apply _ _ _).trans ?_
  rw [mm120_apply, bias128_apply]
  rfl

/-- The merged dense layer `384 → 256` of a block. -/
theorem lin384_apply (x : FVec Ideal S2000x384 .f32) (W : FVec Ideal S384x256 .f32) (b : FVec Ideal S1x256 .f32)
    (p : Fin 2000) (q : Fin 256) :
    addf (matmul dot_S2000x384_S384x256_S2000x256_1_0_0_1_n_n none x W (constant S2000x256 .f32 0x00000000#32))
        (broadcastTo S2000x256 (shapeCast S1x256 b shapeCasts_S1x256_S1x256) broadcasts_S1x256_S2000x256) (ix2 p q)
      = Spec.lin (fun k => x (ix2 p k)) (mat W) (row1 b) q := by
  refine (addf_apply _ _ _).trans ?_
  rw [mm384_apply, bias256_apply]
  rfl

/-! ## The concatenation `[fi | fj | ea]` at an index -/

/-- Three blocks of width 128 joined along the columns, read at row `p`, column `k`: the block that holds the column. -/
theorem cat3_apply (a b c : FVec Ideal S2000x128 .f32) (p : Fin 2000) (k : Fin 384) :
    concatenate S2000x384 1 [⟨S2000x128, a⟩, ⟨S2000x128, b⟩, ⟨S2000x128, c⟩]
        concatenates_S2000x128_S2000x128_S2000x128_S2000x384_d1 (ix2 p k)
      = Spec.cat3 (fun i => a (ix2 p i)) (fun i => b (ix2 p i)) (fun i => c (ix2 p i)) k := by
  unfold Spec.cat3
  have hk := k.isLt
  by_cases h1 : k.val < 128
  · rw [dif_pos h1]
    exact concatenate_apply_piece 1 [⟨S2000x128, a⟩, ⟨S2000x128, b⟩, ⟨S2000x128, c⟩] concatenates_S2000x128_S2000x128_S2000x128_S2000x384_d1 (ix2 p k) 0 (by show 0 < 3; omega)
      S2000x128 a rfl rfl 0 rfl (ix2 p ⟨k.val, h1⟩)
      (fun d => match d with
        | ⟨0, _⟩ => fun _ => rfl
        | ⟨1, _⟩ => fun hne => absurd rfl hne)
      (by show 0 + k.val = k.val; omega)
  · rw [dif_neg h1]
    by_cases h2 : k.val < 256
    · rw [dif_pos h2]
      exact concatenate_apply_piece 1 [⟨S2000x128, a⟩, ⟨S2000x128, b⟩, ⟨S2000x128, c⟩] concatenates_S2000x128_S2000x128_S2000x128_S2000x384_d1 (ix2 p k) 1 (by show 1 < 3; omega)
        S2000x128 b rfl rfl 128 rfl (ix2 p ⟨k.val - 128, by omega⟩)
        (fun d => match d with
          | ⟨0, _⟩ => fun _ => rfl
          | ⟨1, _⟩ => fun hne => absurd rfl hne)
        (by show 128 + (k.val - 128) = k.val; omega)
    · rw [dif_neg h2]
      exact concatenate_apply_piece 1 [⟨S2000x128, a⟩, ⟨S2000x128, b⟩, ⟨S2000x128, c⟩] concatenates_S2000x128_S2000x128_S2000x128_S2000x384_d1 (ix2 p k) 2 (by show 2 < 3; omega)
        S2000x128 c rfl rfl 256 rfl (ix2 p ⟨k.val - 256, by omega⟩)
        (fun d => match d with
          | ⟨0, _⟩ => fun _ => rfl
          | ⟨1, _⟩ => fun hne => absurd rfl hne)
        (by show 256 + (k.val - 256) = k.val; omega)

/-! ## The payloads at an index -/

/-- The edge-embedding block: the perceptron of the attribute block's row. -/
theorem pay7_apply (v4 : Vec Ideal S2000x120 .f32) (v5 : Vec Ideal S120x128 .f32) (v7 : Vec Ideal S1x128 .f32)
    (v13 : Vec Ideal S128x128 .f32) (v15 : Vec Ideal S1x128 .f32) (p : Fin 2000) (q : Fin 128) :
    k1_pay7 v4 v5 v7 v13 v15 (ix2 p q)
      = Spec.mlp (mat (v4 : S2000x120.Idx → EReal) p) (mat (v5 : S120x128.Idx → EReal)) (row1 (v7 : S1x128.Idx → EReal))
          (mat (v13 : S128x128.Idx → EReal)) (row1 (v15 : S1x128.Idx → EReal)) q := by
  unfold k1_pay7
  refine (lin128_apply _ v13 v15 p q).trans ?_
  unfold Spec.mlp
  refine congrArg (fun f => Spec.lin f (mat (v13 : S128x128.Idx → EReal)) (row1 (v15 : S1x128.Idx → EReal)) q) (funext fun h => ?_)
  refine (silu_apply _ (ix2 p h)).trans ?_
  exact congrArg Spec.silu (lin120_apply v4 v5 v7 p h)

/-- The merged hidden block: `silu ∘ lin` of the concatenation of the two gathered rows with the edge-embedding row. -/
theorem pay8_apply (v0 v2 : Vec Ideal S2000x128 .f32) (v4 : Vec Ideal S2000x120 .f32) (v5 : Vec Ideal S120x128 .f32)
    (v7 : Vec Ideal S1x128 .f32) (v13 : Vec Ideal S128x128 .f32) (v15 : Vec Ideal S1x128 .f32)
    (v21 : Vec Ideal S384x256 .f32) (v24 : Vec Ideal S1x256 .f32) (p : Fin 2000) (j : Fin 256) :
    k1_pay8 v0 v2 v4 v5 v7 v13 v15 v21 v24 (ix2 p j)
      = Spec.hid (Spec.cat3 (mat (v0 : S2000x128.Idx → EReal) p) (mat (v2 : S2000x128.Idx → EReal) p)
            (fun k => Spec.mlp (mat (v4 : S2000x120.Idx → EReal) p) (mat (v5 : S120x128.Idx → EReal))
              (row1 (v7 : S1x128.Idx → EReal)) (mat (v13 : S128x128.Idx → EReal)) (row1 (v15 : S1x128.Idx → EReal)) k))
          (mat (v21 : S384x256.Idx → EReal)) (row1 (v24 : S1x256.Idx → EReal)) j := by
  unfold k1_pay8 k1_pay6
  refine (silu_apply _ (ix2 p j)).trans ?_
  unfold Spec.hid
  refine congrArg Spec.silu ?_
  rw [shapeCast_self, shapeCast_self, shapeCast_self]
  refine (lin384_apply _ v21 v24 p j).trans ?_
  refine congrArg (fun f => Spec.lin f (mat (v21 : S384x256.Idx → EReal)) (row1 (v24 : S1x256.Idx → EReal)) j) (funext fun k => ?_)
  refine (cat3_apply _ _ _ p k).trans ?_
  refine congrArg (fun f => Spec.cat3 (mat (v0 : S2000x128.Idx → EReal) p) (mat (v2 : S2000x128.Idx → EReal) p) f k) (funext fun i => ?_)
  exact pay7_apply v4 v5 v7 v13 v15 p i

/-- The left half of the merged hidden block. -/
theorem pay9_apply (v0 v2 : Vec Ideal S2000x128 .f32) (v4 : Vec Ideal S2000x120 .f32) (v5 : Vec Ideal S120x128 .f32)
    (v7 : Vec Ideal S1x128 .f32) (v13 : Vec Ideal S128x128 .f32) (v15 : Vec Ideal S1x128 .f32)
    (v21 : Vec Ideal S384x256 .f32) (v24 : Vec Ideal S1x256 .f32) (p : Fin 2000) (h : Fin 128) :
    k1_pay9 v0 v2 v4 v5 v7 v13 v15 v21 v24 (ix2 p h) = k1_pay8 v0 v2 v4 v5 v7 v13 v15 v21 v24 (ix2 p (Spec.lo h)) := by
  unfold k1_pay9
  exact extractStridedSlice_apply ![0, 0] _ slices_S2000x256_o0_0_S2000x128 (ix2 p h) (ix2 p (Spec.lo h)) (fun a => match a with
    | ⟨0, _⟩ => by show p.val = 0 + p.val; omega
    | ⟨1, _⟩ => by show h.val = 0 + h.val; omega)

/-- The right half of the merged hidden block. -/
theorem pay10_apply (v0 v2 : Vec Ideal S2000x128 .f32) (v4 : Vec Ideal S2000x120 .f32) (v5 : Vec Ideal S120x128 .f32)
    (v7 : Vec Ideal S1x128 .f32) (v13 : Vec Ideal S128x128 .f32) (v15 : Vec Ideal S1x128 .f32)
    (v21 : Vec Ideal S384x256 .f32) (v24 : Vec Ideal S1x256 .f32) (p : Fin 2000) (h : Fin 128) :
    k1_pay10 v0 v2 v4 v5 v7 v13 v15 v21 v24 (ix2 p h) = k1_pay8 v0 v2 v4 v5 v7 v13 v15 v21 v24 (ix2 p (Spec.hi h)) := by
  unfold k1_pay10
  exact extractStridedSlice_apply ![0, 128] _ slices_S2000x256_o0_128_S2000x128 (ix2 p h) (ix2 p (Spec.hi h)) (fun a => match a with
    | ⟨0, _⟩ => by show p.val = 0 + p.val; omega
    | ⟨1, _⟩ => by show 128 + h.val = 128 + h.val; rfl)

/-- The message block: the first second layer of a hidden block, times the first gathered block. -/
theorem pay1_apply (v1 v30 : FVec Ideal S2000x128 .f32) (v32 : Vec Ideal S128x128 .f32) (v34 : Vec Ideal S1x128 .f32)
    (p : Fin 2000) (q : Fin 128) :
    k1_pay1 v1 v30 v32 v34 (ix2 p q)
      = Spec.lin (fun h => v30 (ix2 p h)) (mat (v32 : S128x128.Idx → EReal)) (row1 (v34 : S1x128.Idx → EReal)) q * v1 (ix2 p q) := by
  unfold k1_pay1
  refine (mulf_apply _ _ _).trans ?_
  exact congrArg (· * v1 (ix2 p q)) (lin128_apply v30 v32 v34 p q)

/-- The second perceptron's second layer of a hidden block. -/
theorem pay2_apply (v31 : FVec Ideal S2000x128 .f32) (v39 : Vec Ideal S128x128 .f32) (v41 : Vec Ideal S1x128 .f32)
    (p : Fin 2000) (q : Fin 128) :
    k1_pay2 v31 v39 v41 (ix2 p q)
      = Spec.lin (fun h => v31 (ix2 p h)) (mat (v39 : S128x128.Idx → EReal)) (row1 (v41 : S1x128.Idx → EReal)) q := by
  unfold k1_pay2
  exact lin128_apply v31 v39 v41 p q

/-- The vector-message block of component 0: the second perceptron's block times column 0 of the edge-vector block. -/
theorem pay3_apply (v31 : FVec Ideal S2000x128 .f32) (v39 : Vec Ideal S128x128 .f32) (v41 : Vec Ideal S1x128 .f32)
    (v45 : Vec Ideal S2000x3 .f32) (p : Fin 2000) (q : Fin 128) :
    k1_pay3 v31 v39 v41 v45 (ix2 p q) = k1_pay2 v31 v39 v41 (ix2 p q) * v45 (ix2 p (0 : Fin 3)) := by
  unfold k1_pay3
  refine (mulf_apply _ _ _).trans ?_
  refine congrArg (k1_pay2 v31 v39 v41 (ix2 p q) * ·) ?_
  refine (broadcastTo_apply _ broadcasts_S2000x1_S2000x128 (ix2 p q) (ix2 p (0 : Fin 1)) (fun a => match a with
    | ⟨0, _⟩ => by show p.val = if (2000 : Nat) = 1 then 0 else p.val; rw [if_neg (by decide)]
    | ⟨1, _⟩ => by show (0 : Nat) = if (1 : Nat) = 1 then 0 else q.val; rw [if_pos rfl])).trans ?_
  exact extractStridedSlice_apply ![0, 0] v45 slices_S2000x3_o0_0_S2000x1 (ix2 p (0 : Fin 1)) (ix2 p (0 : Fin 3)) (fun a => match a with
    | ⟨0, _⟩ => by show p.val = 0 + p.val; omega
    | ⟨1, _⟩ => by show (0 : Nat) = 0 + 0; omega)

/-- The vector-message block of component 1: the second perceptron's block times column 1 of the edge-vector block. -/
theorem pay4_apply (v31 : FVec Ideal S2000x128 .f32) (v39 : Vec Ideal S128x128 .f32) (v41 : Vec Ideal S1x128 .f32)
    (v45 : Vec Ideal S2000x3 .f32) (p : Fin 2000) (q : Fin 128) :
    k1_pay4 v31 v39 v41 v45 (ix2 p q) = k1_pay2 v31 v39 v41 (ix2 p q) * v45 (ix2 p (1 : Fin 3)) := by
  unfold k1_pay4
  refine (mulf_apply _ _ _).trans ?_
  refine congrArg (k1_pay2 v31 v39 v41 (ix2 p q) * ·) ?_
  refine (broadcastTo_apply _ broadcasts_S2000x1_S2000x128 (ix2 p q) (ix2 p (0 : Fin 1)) (fun a => match a with
    | ⟨0, _⟩ => by show p.val = if (2000 : Nat) = 1 then 0 else p.val; rw [if_neg (by decide)]
    | ⟨1, _⟩ => by show (0 : Nat) = if (1 : Nat) = 1 then 0 else q.val; rw [if_pos rfl])).trans ?_
  exact extractStridedSlice_apply ![0, 1] v45 slices_S2000x3_o0_1_S2000x1 (ix2 p (0 : Fin 1)) (ix2 p (1 : Fin 3)) (fun a => match a with
    | ⟨0, _⟩ => by show p.val = 0 + p.val; omega
    | ⟨1, _⟩ => by show (1 : Nat) = 1 + 0; omega)

/-- The vector-message block of component 2: the second perceptron's block times column 2 of the edge-vector block. -/
theorem pay5_apply (v31 : FVec Ideal S2000x128 .f32) (v39 : Vec Ideal S128x128 .f32) (v41 : Vec Ideal S1x128 .f32)
    (v45 : Vec Ideal S2000x3 .f32) (p : Fin 2000) (q : Fin 128) :
    k1_pay5 v31 v39 v41 v45 (ix2 p q) = k1_pay2 v31 v39 v41 (ix2 p q) * v45 (ix2 p (2 : Fin 3)) := by
  unfold k1_pay5
  refine (mulf_apply _ _ _).trans ?_
  refine congrArg (k1_pay2 v31 v39 v41 (ix2 p q) * ·) ?_
  refine (broadcastTo_apply _ broadcasts_S2000x1_S2000x128 (ix2 p q) (ix2 p (0 : Fin 1)) (fun a => match a with
    | ⟨0, _⟩ => by show p.val = if (2000 : Nat) = 1 then 0 else p.val; rw [if_neg (by decide)]
    | ⟨1, _⟩ => by show (0 : Nat) = if (1 : Nat) = 1 then 0 else q.val; rw [if_pos rfl])).trans ?_
  exact extractStridedSlice_apply ![0, 2] v45 slices_S2000x3_o0_2_S2000x1 (ix2 p (0 : Fin 1)) (ix2 p (2 : Fin 3)) (fun a => match a with
    | ⟨0, _⟩ => by show p.val = 0 + p.val; omega
    | ⟨1, _⟩ => by show (2 : Nat) = 2 + 0; omega)

/-! ## The stored blocks, row by row -/

/-- The merged hidden row of row `p`: over the two gathered rows and the edge embedding of the attribute row. -/
theorem hidBlk_apply (x0 x1 : Vec Ideal S2000x128 .f32) (x2 : Vec Ideal S2000x120 .f32) (x4 : Vec Ideal S120x128 .f32) (x5 : Vec Ideal S1x128 .f32) (x6 : Vec Ideal S128x128 .f32) (x7 : Vec Ideal S1x128 .f32) (x8 : Vec Ideal S384x256 .f32) (x9 : Vec Ideal S1x256 .f32) (p : Fin 2000) (j : Fin 256) :
    k1_pay8 x0 x1 x2 x4 x5 x6 x7 x8 x9 (ix2 p j)
      = Spec.hid (Spec.cat3 (mat (x0 : S2000x128.Idx → EReal) p) (mat (x1 : S2000x128.Idx → EReal) p) (fun k => Spec.mlp (mat (x2 : S2000x120.Idx → EReal) p) (mat (x4 : S120x128.Idx → EReal)) (row1 (x5 : S1x128.Idx → EReal)) (mat (x6 : S128x128.Idx → EReal)) (row1 (x7 : S1x128.Idx → EReal)) k))
          (mat (x8 : S384x256.Idx → EReal)) (row1 (x9 : S1x256.Idx → EReal)) j :=
  pay8_apply x0 x1 x2 x4 x5 x6 x7 x8 x9 p j

/-- The message row of row `p` over the merged first layer. -/
theorem msgBlk_apply (x0 x1 : Vec Ideal S2000x128 .f32) (x2 : Vec Ideal S2000x120 .f32) (x4 : Vec Ideal S120x128 .f32) (x5 : Vec Ideal S1x128 .f32) (x6 : Vec Ideal S128x128 .f32) (x7 : Vec Ideal S1x128 .f32) (x8 : Vec Ideal S384x256 .f32) (x9 : Vec Ideal S1x256 .f32)
    (x10 : Vec Ideal S128x128 .f32) (x11 : Vec Ideal S1x128 .f32) (p : Fin 2000) (q : Fin 128) :
    k1_pay1 (k1_pay6 x0) (k1_pay9 x0 x1 x2 x4 x5 x6 x7 x8 x9) x10 x11 (ix2 p q)
      = Spec.msgK (mat (x0 : S2000x128.Idx → EReal) p) (mat (x1 : S2000x128.Idx → EReal) p) (fun k => Spec.mlp (mat (x2 : S2000x120.Idx → EReal) p) (mat (x4 : S120x128.Idx → EReal)) (row1 (x5 : S1x128.Idx → EReal)) (mat (x6 : S128x128.Idx → EReal)) (row1 (x7 : S1x128.Idx → EReal)) k)
          (mat (x8 : S384x256.Idx → EReal)) (row1 (x9 : S1x256.Idx → EReal)) (mat (x10 : S128x128.Idx → EReal)) (row1 (x11 : S1x128.Idx → EReal)) q := by
  refine (pay1_apply _ _ x10 x11 p q).trans ?_
  unfold Spec.msgK k1_pay6
  rw [shapeCast_self]
  refine congrArg (fun f => Spec.lin f (mat (x10 : S128x128.Idx → EReal)) (row1 (x11 : S1x128.Idx → EReal)) q * x0 (ix2 p q)) (funext fun h => ?_)
  exact (pay9_apply x0 x1 x2 x4 x5 x6 x7 x8 x9 p h).trans (hidBlk_apply x0 x1 x2 x4 x5 x6 x7 x8 x9 p (Spec.lo h))

/-- The vector-message row of row `p` over the merged first layer, before the scaling by the edge vector. -/
theorem mvBlk_apply (x0 x1 : Vec Ideal S2000x128 .f32) (x2 : Vec Ideal S2000x120 .f32) (x4 : Vec Ideal S120x128 .f32) (x5 : Vec Ideal S1x128 .f32) (x6 : Vec Ideal S128x128 .f32) (x7 : Vec Ideal S1x128 .f32) (x8 : Vec Ideal S384x256 .f32) (x9 : Vec Ideal S1x256 .f32)
    (x12 : Vec Ideal S128x128 .f32) (x13 : Vec Ideal S1x128 .f32) (p : Fin 2000) (q : Fin 128) :
    k1_pay2 (k1_pay10 x0 x1 x2 x4 x5 x6 x7 x8 x9) x12 x13 (ix2 p q)
      = Spec.mvK (mat (x0 : S2000x128.Idx → EReal) p) (mat (x1 : S2000x128.Idx → EReal) p) (fun k => Spec.mlp (mat (x2 : S2000x120.Idx → EReal) p) (mat (x4 : S120x128.Idx → EReal)) (row1 (x5 : S1x128.Idx → EReal)) (mat (x6 : S128x128.Idx → EReal)) (row1 (x7 : S1x128.Idx → EReal)) k)
          (mat (x8 : S384x256.Idx → EReal)) (row1 (x9 : S1x256.Idx → EReal)) (mat (x12 : S128x128.Idx → EReal)) (row1 (x13 : S1x128.Idx → EReal)) q := by
  refine (pay2_apply _ x12 x13 p q).trans ?_
  unfold Spec.mvK
  refine congrArg (fun f => Spec.lin f (mat (x12 : S128x128.Idx → EReal)) (row1 (x13 : S1x128.Idx → EReal)) q) (funext fun h => ?_)
  exact (pay10_apply x0 x1 x2 x4 x5 x6 x7 x8 x9 p h).trans (hidBlk_apply x0 x1 x2 x4 x5 x6 x7 x8 x9 p (Spec.hi h))

/-- Component 0 of the vector message of row `p`. -/
theorem mvBlk0_apply (x0 x1 : Vec Ideal S2000x128 .f32) (x2 : Vec Ideal S2000x120 .f32) (x4 : Vec Ideal S120x128 .f32) (x5 : Vec Ideal S1x128 .f32) (x6 : Vec Ideal S128x128 .f32) (x7 : Vec Ideal S1x128 .f32) (x8 : Vec Ideal S384x256 .f32) (x9 : Vec Ideal S1x256 .f32)
    (x12 : Vec Ideal S128x128 .f32) (x13 : Vec Ideal S1x128 .f32) (x3 : Vec Ideal S2000x3 .f32) (p : Fin 2000) (q : Fin 128) :
    k1_pay3 (k1_pay10 x0 x1 x2 x4 x5 x6 x7 x8 x9) x12 x13 x3 (ix2 p q)
      = Spec.mvK (mat (x0 : S2000x128.Idx → EReal) p) (mat (x1 : S2000x128.Idx → EReal) p) (fun k => Spec.mlp (mat (x2 : S2000x120.Idx → EReal) p) (mat (x4 : S120x128.Idx → EReal)) (row1 (x5 : S1x128.Idx → EReal)) (mat (x6 : S128x128.Idx → EReal)) (row1 (x7 : S1x128.Idx → EReal)) k)
          (mat (x8 : S384x256.Idx → EReal)) (row1 (x9 : S1x256.Idx → EReal)) (mat (x12 : S128x128.Idx → EReal)) (row1 (x13 : S1x128.Idx → EReal)) q
        * x3 (ix2 p (0 : Fin 3)) :=
  (pay3_apply _ x12 x13 x3 p q).trans (congrArg (· * x3 (ix2 p (0 : Fin 3))) (mvBlk_apply x0 x1 x2 x4 x5 x6 x7 x8 x9 x12 x13 p q))

/-- Component 1 of the vector message of row `p`. -/
theorem mvBlk1_apply (x0 x1 : Vec Ideal S2000x128 .f32) (x2 : Vec Ideal S2000x120 .f32) (x4 : Vec Ideal S120x128 .f32) (x5 : Vec Ideal S1x128 .f32) (x6 : Vec Ideal S128x128 .f32) (x7 : Vec Ideal S1x128 .f32) (x8 : Vec Ideal S384x256 .f32) (x9 : Vec Ideal S1x256 .f32)
    (x12 : Vec Ideal S128x128 .f32) (x13 : Vec Ideal S1x128 .f32) (x3 : Vec Ideal S2000x3 .f32) (p : Fin 2000) (q : Fin 128) :
    k1_pay4 (k1_pay10 x0 x1 x2 x4 x5 x6 x7 x8 x9) x12 x13 x3 (ix2 p q)
      = Spec.mvK (mat (x0 : S2000x128.Idx → EReal) p) (mat (x1 : S2000x128.Idx → EReal) p) (fun k => Spec.mlp (mat (x2 : S2000x120.Idx → EReal) p) (mat (x4 : S120x128.Idx → EReal)) (row1 (x5 : S1x128.Idx → EReal)) (mat (x6 : S128x128.Idx → EReal)) (row1 (x7 : S1x128.Idx → EReal)) k)
          (mat (x8 : S384x256.Idx → EReal)) (row1 (x9 : S1x256.Idx → EReal)) (mat (x12 : S128x128.Idx → EReal)) (row1 (x13 : S1x128.Idx → EReal)) q
        * x3 (ix2 p (1 : Fin 3)) :=
  (pay4_apply _ x12 x13 x3 p q).trans (congrArg (· * x3 (ix2 p (1 : Fin 3))) (mvBlk_apply x0 x1 x2 x4 x5 x6 x7 x8 x9 x12 x13 p q))

/-- Component 2 of the vector message of row `p`. -/
theorem mvBlk2_apply (x0 x1 : Vec Ideal S2000x128 .f32) (x2 : Vec Ideal S2000x120 .f32) (x4 : Vec Ideal S120x128 .f32) (x5 : Vec Ideal S1x128 .f32) (x6 : Vec Ideal S128x128 .f32) (x7 : Vec Ideal S1x128 .f32) (x8 : Vec Ideal S384x256 .f32) (x9 : Vec Ideal S1x256 .f32)
    (x12 : Vec Ideal S128x128 .f32) (x13 : Vec Ideal S1x128 .f32) (x3 : Vec Ideal S2000x3 .f32) (p : Fin 2000) (q : Fin 128) :
    k1_pay5 (k1_pay10 x0 x1 x2 x4 x5 x6 x7 x8 x9) x12 x13 x3 (ix2 p q)
      = Spec.mvK (mat (x0 : S2000x128.Idx → EReal) p) (mat (x1 : S2000x128.Idx → EReal) p) (fun k => Spec.mlp (mat (x2 : S2000x120.Idx → EReal) p) (mat (x4 : S120x128.Idx → EReal)) (row1 (x5 : S1x128.Idx → EReal)) (mat (x6 : S128x128.Idx → EReal)) (row1 (x7 : S1x128.Idx → EReal)) k)
          (mat (x8 : S384x256.Idx → EReal)) (row1 (x9 : S1x256.Idx → EReal)) (mat (x12 : S128x128.Idx → EReal)) (row1 (x13 : S1x128.Idx → EReal)) q
        * x3 (ix2 p (2 : Fin 3)) :=
  (pay5_apply _ x12 x13 x3 p q).trans (congrArg (· * x3 (ix2 p (2 : Fin 3))) (mvBlk_apply x0 x1 x2 x4 x5 x6 x7 x8 x9 x12 x13 p q))

end Cert.KernelIdeal.Val.R1

end
-- ==== Proof.Val1.lean ====
/-
  The second pallas_call's two output arrays read at an index. The call runs over 200 grid points; at point `t` it
  sees rows `2000 t … 2000 t + 1999` of the two gathered node arrays, of the edge attributes and of the edge vectors,
  and every weight matrix and bias row whole, and writes rows `2000 t … 2000 t + 1999` of the edge embedding (width
  128) and of the edge output (width 512).

  Each block the body stores is, row by row, the mathematics of Spec.lean applied to the same row of the input blocks
  (the payload lemmas); a row of an input block at point `t` is the row `2000 t + p` of its array (the index maps,
  decided over the grid); so what a point writes back is its block of ONE array-sized function of the windows' arrays
  — `eaArr` for the embedding, `outArr` for the 512-wide output, whose row is the message row followed by the
  vector-message row scaled by each component of the edge vector —, and since the blocks of 2000 rows cover the 400000
  rows (row `r` lies in block `r / 2000`), the arrays end holding those functions.
-/
import proofs.«425565_j41283225649648_3_alg».proof.Proof.Gen.KernelIdeal.Frame
import proofs.«425565_j41283225649648_3_alg».proof.Proof.Spec
import proofs.«425565_j41283225649648_3_alg».proof.Proof.Val1_Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open Cert.Spec (mat vec row1)

variable (V : (c : Dev nD) → (b : Ref sig .tc) → Buf (Elt Ideal) ((c : Thread nD τ).loc b))

/-- Row `e` of the edge embedding as the second pallas_call computes it from its own windows' arrays. -/
abbrev eaRow (c : Dev nD) (e : Fin 400000) : Fin 128 → EReal := fun k =>
  Spec.mlp (mat (V c main_arg2 : S400000x120.Idx → EReal) e) (mat (V c main_arg7 : S120x128.Idx → EReal))
    (row1 (V c main_v10 : S1x128.Idx → EReal)) (mat (V c main_arg9 : S128x128.Idx → EReal))
    (row1 (V c main_v11 : S1x128.Idx → EReal)) k

namespace R1

/-! ## The windows' index maps, and each input block read off its array -/

theorem hz00 : (![0, 0] : Fin 2 → Nat) = fun _ => 0 := funext fun a => by fin_cases a <;> rfl

/-- A grid point's number is below 200. -/
theorem pt_lt (t : Fin cfg1.N) : t.val < 200 := lt_of_lt_of_eq t.isLt N_1

/-- Window 0's index map, decided over the 200 grid points: block row `t`, block column 0. -/
theorem idx1_0 : ∀ t : Fin cfg1.N, win1_0.index t (0 : Fin 2) = t.val ∧ win1_0.index t (1 : Fin 2) = 0 :=
  (by decide +kernel : ∀ t : Fin grid1.N, _)
/-- So its block at point `t` is rows `2000 t … 2000 t + 1999` of its array. -/
theorem blk1_0_apply (c : Dev nD) (t : Fin cfg1.N) (p : Fin 2000) (k : Fin 128) :
    (iblk1 V c 0 t : Vec Ideal S2000x128 .f32) (ix2 p k)
      = (V c main_v6 : S400000x128.Idx → EReal) (ix2 (⟨t.val * 2000 + p.val, by have := pt_lt t; omega⟩ : Fin 400000) k) := by
  obtain ⟨e0, e1⟩ := idx1_0 t
  show (V c main_v6 : S400000x128.Idx → EReal) (((cfg1.win 0).blk t).view.emb (ix2 p k)) = _
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

/-- Window 1's index map, decided over the 200 grid points: block row `t`, block column 0. -/
theorem idx1_1 : ∀ t : Fin cfg1.N, win1_1.index t (0 : Fin 2) = t.val ∧ win1_1.index t (1 : Fin 2) = 0 :=
  (by decide +kernel : ∀ t : Fin grid1.N, _)
/-- So its block at point `t` is rows `2000 t … 2000 t + 1999` of its array. -/
theorem blk1_1_apply (c : Dev nD) (t : Fin cfg1.N) (p : Fin 2000) (k : Fin 128) :
    (iblk1 V c 1 t : Vec Ideal S2000x128 .f32) (ix2 p k)
      = (V c main_v7 : S400000x128.Idx → EReal) (ix2 (⟨t.val * 2000 + p.val, by have := pt_lt t; omega⟩ : Fin 400000) k) := by
  obtain ⟨e0, e1⟩ := idx1_1 t
  show (V c main_v7 : S400000x128.Idx → EReal) (((cfg1.win 1).blk t).view.emb (ix2 p k)) = _
  refine congrArg _ (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega

/-- Window 2's index map, decided over the 200 grid points: block row `t`, block column 0. -/
theorem idx1_2 : ∀ t : Fin cfg1.N, win1_2.index t (0 : Fin 2) = t.val ∧ win1_2.index t (1 : Fin 2) = 0 :=
  (by decide +kernel : ∀ t : Fin grid1.N, _)
/-- So its block at point `t` is rows `2000 t … 2000 t + 1999` of its array. -/
theorem blk1_2_apply (c : Dev nD) (t : Fin cfg1.N) (p : Fin 2000) (k : Fin 120) :
    (iblk1 V c 2 t : Vec Ideal S2000x120 .f32) (ix2 p k)
      = (V c main_arg2 : S400000x120.Idx → EReal) (ix2 (⟨t.val * 2000 + p.val, by have := pt_lt t; omega⟩ : Fin 400000) k) := by
  obtain ⟨e0, e1⟩ := idx1_2 t
  show (V c main_arg2 : S400000x120.Idx → EReal) (((cfg1.win 2).blk t).view.emb (ix2 p k)) = _
  refine congrArg _ (funext fun a => Fin.ext ?_)
  match a with
  | ⟨0, _⟩ => show win1_2.index t (0 : Fin 2) * 2000 + 1 * p.val = t.val * 2000 + p.val; rw [e0]; omega
  | ⟨1, _⟩ => show win1_2.index t (1 : Fin 2) * 120 + 1 * k.val = k.val; rw [e1]; omega

/-- Window 3's index map, decided over the 200 grid points: block row `t`, block column 0. -/
theorem idx1_3 : ∀ t : Fin cfg1.N, win1_3.index t (0 : Fin 2) = t.val ∧ win1_3.index t (1 : Fin 2) = 0 :=
  (by decide +kernel : ∀ t : Fin grid1.N, _)
/-- So its block at point `t` is rows `2000 t … 2000 t + 1999` of its array. -/
theorem blk1_3_apply (c : Dev nD) (t : Fin cfg1.N) (p : Fin 2000) (k : Fin 3) :
    (iblk1 V c 3 t : Vec Ideal S2000x3 .f32) (ix2 p k)
      = (V c main_arg3 : S400000x3.Idx → EReal) (ix2 (⟨t.val * 2000 + p.val, by have := pt_lt t; omega⟩ : Fin 400000) k) := by
  obtain ⟨e0, e1⟩ := idx1_3 t
  show (V c main_arg3 : S400000x3.Idx → EReal) (((cfg1.win 3).blk t).view.emb (ix2 p k)) = _
  refine congrArg _ (funext fun a => Fin.ext ?_)
  match a with
  | ⟨0, _⟩ => show win1_3.index t (0 : Fin 2) * 2000 + 1 * p.val = t.val * 2000 + p.val; rw [e0]; omega
  | ⟨1, _⟩ => show win1_3.index t (1 : Fin 2) * 3 + 1 * k.val = k.val; rw [e1]; omega

/-- Window 4's index map: block (0, 0) at every point. -/
theorem idx1_4 : ∀ t : Fin cfg1.N, win1_4.index t (0 : Fin 2) = 0 ∧ win1_4.index t (1 : Fin 2) = 0 :=
  (by decide +kernel : ∀ t : Fin grid1.N, _)
/-- So its block at every point is its whole array. -/
theorem blk1_4_eq (c : Dev nD) (t : Fin cfg1.N) :
    (iblk1 V c 4 t : Vec Ideal S120x128 .f32) = (V c main_arg7 : S120x128.Idx → EReal) := by
  obtain ⟨e0, e1⟩ := idx1_4 t
  funext y
  show (V c main_arg7 : S120x128.Idx → EReal) (((cfg1.win 4).blk t).view.emb y) = _
  refine congrArg _ (funext fun a => Fin.ext ?_)
  match a with
  | ⟨0, _⟩ => show win1_4.index t (0 : Fin 2) * 120 + 1 * (y 0).val = (y 0).val; rw [e0]; omega
  | ⟨1, _⟩ => show win1_4.index t (1 : Fin 2) * 128 + 1 * (y 1).val = (y 1).val; rw [e1]; omega

/-- Window 5's index map: block (0, 0) at every point. -/
theorem idx1_5 : ∀ t : Fin cfg1.N, win1_5.index t (0 : Fin 2) = 0 ∧ win1_5.index t (1 : Fin 2) = 0 :=
  (by decide +kernel : ∀ t : Fin grid1.N, _)
/-- So its block at every point is its whole array. -/
theorem blk1_5_eq (c : Dev nD) (t : Fin cfg1.N) :
    (iblk1 V c 5 t : Vec Ideal S1x128 .f32) = (V c main_v10 : S1x128.Idx → EReal) := by
  obtain ⟨e0, e1⟩ := idx1_5 t
  funext y
  show (V c main_v10 : S1x128.Idx → EReal) (((cfg1.win 5).blk t).view.emb y) = _
  refine congrArg _ (funext fun a => Fin.ext ?_)
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- Window 6's index map: block (0, 0) at every point. -/
theorem idx1_6 : ∀ t : Fin cfg1.N, win1_6.index t (0 : Fin 2) = 0 ∧ win1_6.index t (1 : Fin 2) = 0 :=
  (by decide +kernel : ∀ t : Fin grid1.N, _)
/-- So its block at every point is its whole array. -/
theorem blk1_6_eq (c : Dev nD) (t : Fin cfg1.N) :
    (iblk1 V c 6 t : Vec Ideal S128x128 .f32) = (V c main_arg9 : S128x128.Idx → EReal) := by
  obtain ⟨e0, e1⟩ := idx1_6 t
  funext y
  show (V c main_arg9 : S128x128.Idx → EReal) (((cfg1.win 6).blk t).view.emb y) = _
  refine congrArg _ (funext fun a => Fin.ext ?_)
  match a with
  | ⟨0, _⟩ => show win1_6.index t (0 : Fin 2) * 128 + 1 * (y 0).val = (y 0).val; rw [e0]; omega
  | ⟨1, _⟩ => show win1_6.index t (1 : Fin 2) * 128 + 1 * (y 1).val = (y 1).val; rw [e1]; omega

/-- Window 7's index map: block (0, 0) at every point. -/
theorem idx1_7 : ∀ t : Fin cfg1.N, win1_7.index t (0 : Fin 2) = 0 ∧ win1_7.index t (1 : Fin 2) = 0 :=
  (by decide +kernel : ∀ t : Fin grid1.N, _)
/-- So its block at every point is its whole array. -/
theorem blk1_7_eq (c : Dev nD) (t : Fin cfg1.N) :
    (iblk1 V c 7 t : Vec Ideal S1x128 .f32) = (V c main_v11 : S1x128.Idx → EReal) := by
  obtain ⟨e0, e1⟩ := idx1_7 t
  funext y
  show (V c main_v11 : S1x128.Idx → EReal) (((cfg1.win 7).blk t).view.emb y) = _
  refine congrArg _ (funext fun a => Fin.ext ?_)
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

/-- Window 8's index map: block (0, 0) at every point. -/
theorem idx1_8 : ∀ t : Fin cfg1.N, win1_8.index t (0 : Fin 2) = 0 ∧ win1_8.index t (1 : Fin 2) = 0 :=
  (by decide +kernel : ∀ t : Fin grid1.N, _)
/-- So its block at every point is its whole array. -/
theorem blk1_8_eq (c : Dev nD) (t : Fin cfg1.N) :
    (iblk1 V c 8 t : Vec Ideal S384x256 .f32) = (V c main_v8 : S384x256.Idx → EReal) := by
  obtain ⟨e0, e1⟩ := idx1_8 t
  funext y
  show (V c main_v8 : S384x256.Idx → EReal) (((cfg1.win 8).blk t).view.emb y) = _
  refine congrArg _ (funext fun a => Fin.ext ?_)
  match a with
  | ⟨0, _⟩ => show win1_8.index t (0 : Fin 2) * 384 + 1 * (y 0).val = (y 0).val; rw [e0]; omega
  | ⟨1, _⟩ => show win1_8.index t (1 : Fin 2) * 256 + 1 * (y 1).val = (y 1).val; rw [e1]; omega

/-- Window 9's index map: block (0, 0) at every point. -/
theorem idx1_9 : ∀ t : Fin cfg1.N, win1_9.index t (0 : Fin 2) = 0 ∧ win1_9.index t (1 : Fin 2) = 0 :=
  (by decide +kernel : ∀ t : Fin grid1.N, _)
/-- So its block at every point is its whole array. -/
theorem blk1_9_eq (c : Dev nD) (t : Fin cfg1.N) :
    (iblk1 V c 9 t : Vec Ideal S1x256 .f32) = (V c main_v12 : S1x256.Idx → EReal) := by
  obtain ⟨e0, e1⟩ := idx1_9 t
  funext y
  show (V c main_v12 : S1x256.Idx → EReal) (((cfg1.win 9).blk t).view.emb y) = _
  refine congrArg _ (funext fun a => Fin.ext ?_)
  match a with
  | ⟨0, _⟩ => show win1_9.index t (0 : Fin 2) * 1 + 1 * (y 0).val = (y 0).val; rw [e0]; omega
  | ⟨1, _⟩ => show win1_9.index t (1 : Fin 2) * 256 + 1 * (y 1).val = (y 1).val; rw [e1]; omega

/-- Window 10's index map: block (0, 0) at every point. -/
theorem idx1_10 : ∀ t : Fin cfg1.N, win1_10.index t (0 : Fin 2) = 0 ∧ win1_10.index t (1 : Fin 2) = 0 :=
  (by decide +kernel : ∀ t : Fin grid1.N, _)
/-- So its block at every point is its whole array. -/
theorem blk1_10_eq (c : Dev nD) (t : Fin cfg1.N) :
    (iblk1 V c 10 t : Vec Ideal S128x128 .f32) = (V c main_arg13 : S128x128.Idx → EReal) := by
  obtain ⟨e0, e1⟩ := idx1_10 t
  funext y
  show (V c main_arg13 : S128x128.Idx → EReal) (((cfg1.win 10).blk t).view.emb y) = _
  refine congrArg _ (funext fun a => Fin.ext ?_)
  match a with
  | ⟨0, _⟩ => show win1_10.index t (0 : Fin 2) * 128 + 1 * (y 0).val = (y 0).val; rw [e0]; omega
  | ⟨1, _⟩ => show win1_10.index t (1 : Fin 2) * 128 + 1 * (y 1).val = (y 1).val; rw [e1]; omega

/-- Window 11's index map: block (0, 0) at every point. -/
theorem idx1_11 : ∀ t : Fin cfg1.N, win1_11.index t (0 : Fin 2) = 0 ∧ win1_11.index t (1 : Fin 2) = 0 :=
  (by decide +kernel : ∀ t : Fin grid1.N, _)
/-- So its block at every point is its whole array. -/
theorem blk1_11_eq (c : Dev nD) (t : Fin cfg1.N) :
    (iblk1 V c 11 t : Vec Ideal S1x128 .f32) = (V c main_v13 : S1x128.Idx → EReal) := by
  obtain ⟨e0, e1⟩ := idx1_11 t
  funext y
  show (V c main_v13 : S1x128.Idx → EReal) (((cfg1.win 11).blk t).view.emb y) = _
  refine congrArg _ (funext fun a => Fin.ext ?_)
  match a with
  | ⟨0, _⟩ => show win1_11.index t (0 : Fin 2) * 1 + 1 * (y 0).val = (y 0).val; rw [e0]; omega
  | ⟨1, _⟩ => show win1_11.index t (1 : Fin 2) * 128 + 1 * (y 1).val = (y 1).val; rw [e1]; omega

/-- Window 12's index map: block (0, 0) at every point. -/
theorem idx1_12 : ∀ t : Fin cfg1.N, win1_12.index t (0 : Fin 2) = 0 ∧ win1_12.index t (1 : Fin 2) = 0 :=
  (by decide +kernel : ∀ t : Fin grid1.N, _)
/-- So its block at every point is its whole array. -/
theorem blk1_12_eq (c : Dev nD) (t : Fin cfg1.N) :
    (iblk1 V c 12 t : Vec Ideal S128x128 .f32) = (V c main_arg21 : S128x128.Idx → EReal) := by
  obtain ⟨e0, e1⟩ := idx1_12 t
  funext y
  show (V c main_arg21 : S128x128.Idx → EReal) (((cfg1.win 12).blk t).view.emb y) = _
  refine congrArg _ (funext fun a => Fin.ext ?_)
  match a with
  | ⟨0, _⟩ => show win1_12.index t (0 : Fin 2) * 128 + 1 * (y 0).val = (y 0).val; rw [e0]; omega
  | ⟨1, _⟩ => show win1_12.index t (1 : Fin 2) * 128 + 1 * (y 1).val = (y 1).val; rw [e1]; omega

/-- Window 13's index map: block (0, 0) at every point. -/
theorem idx1_13 : ∀ t : Fin cfg1.N, win1_13.index t (0 : Fin 2) = 0 ∧ win1_13.index t (1 : Fin 2) = 0 :=
  (by decide +kernel : ∀ t : Fin grid1.N, _)
/-- So its block at every point is its whole array. -/
theorem blk1_13_eq (c : Dev nD) (t : Fin cfg1.N) :
    (iblk1 V c 13 t : Vec Ideal S1x128 .f32) = (V c main_v14 : S1x128.Idx → EReal) := by
  obtain ⟨e0, e1⟩ := idx1_13 t
  funext y
  show (V c main_v14 : S1x128.Idx → EReal) (((cfg1.win 13).blk t).view.emb y) = _
  refine congrArg _ (funext fun a => Fin.ext ?_)
  match a with
  | ⟨0, _⟩ => show win1_13.index t (0 : Fin 2) * 1 + 1 * (y 0).val = (y 0).val; rw [e0]; omega
  | ⟨1, _⟩ => show win1_13.index t (1 : Fin 2) * 128 + 1 * (y 1).val = (y 1).val; rw [e1]; omega

/-- Output window 14's index map: block row `t`, block column 0. -/
theorem idx1_14 : ∀ t : Fin cfg1.N, win1_14.index t (0 : Fin 2) = t.val ∧ win1_14.index t (1 : Fin 2) = 0 :=
  (by decide +kernel : ∀ t : Fin grid1.N, _)

/-- Output window 15's index map: block row `t`, block column 0. -/
theorem idx1_15 : ∀ t : Fin cfg1.N, win1_15.index t (0 : Fin 2) = t.val ∧ win1_15.index t (1 : Fin 2) = 0 :=
  (by decide +kernel : ∀ t : Fin grid1.N, _)

/-! ## The edge embedding array -/

/-- The edge embedding as one array: entry `(e, q)` is column `q` of row `e`'s embedding. -/
def eaArr (c : Dev nD) : S400000x128.Idx → EReal :=
  fun i => eaRow V c ⟨(i 0).val, idx2_lt0 i⟩ ⟨(i 1).val, idx2_lt1 i⟩

/-- Row `p` of the block at point `t` is row `2000 t + p` of the array. -/
theorem emb14 (t : Fin cfg1.N) (p : Fin 2000) (q : Fin 128) :
    ((cfg1.win 14).blk t).view.emb (ix2 p q)
      = (ix2 (⟨t.val * 2000 + p.val, by have := pt_lt t; omega⟩ : Fin 400000) q : S400000x128.Idx) := by
  obtain ⟨e0, e1⟩ := idx1_14 t
  refine funext fun a => Fin.ext ?_
  match a with
  | ⟨0, _⟩ => show win1_14.index t (0 : Fin 2) * 2000 + 1 * p.val = t.val * 2000 + p.val; rw [e0]; omega
  | ⟨1, _⟩ => show win1_14.index t (1 : Fin 2) * 128 + 1 * q.val = q.val; rw [e1]; omega

/-- The stored block at a point, over blocks that are rows of arrays: the perceptron of the array's row. -/
theorem ea_point (x2 : Vec Ideal S2000x120 .f32) (x4 : Vec Ideal S120x128 .f32) (x5 : Vec Ideal S1x128 .f32)
    (x6 : Vec Ideal S128x128 .f32) (x7 : Vec Ideal S1x128 .f32)
    (A2 : S400000x120.Idx → EReal) (A4 : S120x128.Idx → EReal) (A5 : S1x128.Idx → EReal) (A6 : S128x128.Idx → EReal)
    (A7 : S1x128.Idx → EReal) (e : Fin 400000) (p : Fin 2000) (q : Fin 128)
    (h2 : ∀ k : Fin 120, x2 (ix2 p k) = A2 (ix2 e k)) (h4 : x4 = A4) (h5 : x5 = A5) (h6 : x6 = A6) (h7 : x7 = A7) :
    k1_pay7 x2 x4 x5 x6 x7 (ix2 p q) = Spec.mlp (mat A2 e) (mat A4) (row1 A5) (mat A6) (row1 A7) q := by
  subst h4 h5 h6 h7
  refine (pay7_apply x2 x4 x5 x6 x7 p q).trans ?_
  exact congrArg (fun f => Spec.mlp f (mat (x4 : S120x128.Idx → EReal)) (row1 (x5 : S1x128.Idx → EReal))
    (mat (x6 : S128x128.Idx → EReal)) (row1 (x7 : S1x128.Idx → EReal)) q) (funext h2)

/-- What the body leaves in the edge-embedding window at point `t`, read at a block index: the array's entry under it. -/
theorem ea_at (c : Dev nD) (t : Fin cfg1.N) (y : S2000x128.Idx) :
    k1_pay7 (iblk1 V c 2 t) (iblk1 V c 4 t) (iblk1 V c 5 t) (iblk1 V c 6 t) (iblk1 V c 7 t) y
      = eaArr V c (((cfg1.win 14).blk t).view.emb y) := by
  obtain ⟨p, q, rfl⟩ : ∃ (p : Fin 2000) (q : Fin 128), y = ix2 p q := ⟨y 0, y 1, eq_ix2 y⟩
  refine Eq.trans ?_ (congrArg (eaArr V c) (emb14 t p q).symm)
  show _ = eaRow V c (⟨t.val * 2000 + p.val, by have := pt_lt t; omega⟩ : Fin 400000) q
  exact ea_point (iblk1 V c 2 t) (iblk1 V c 4 t) (iblk1 V c 5 t) (iblk1 V c 6 t) (iblk1 V c 7 t) _ _ _ _ _ _ p q
    (fun k => blk1_2_apply V c t p k) (blk1_4_eq V c t) (blk1_5_eq V c t) (blk1_6_eq V c t) (blk1_7_eq V c t)

/-- What point `t` writes back to the edge-embedding array is its block of `eaArr`. -/
theorem flushed14_eq (c : Dev nD) (t : Fin cfg1.N) :
    (dat1 V c).flushed 14 t = ((cfg1.win 14).blk t).view.read (Elt Ideal) (eaArr V c) := by
  show (cfg1.win 14).cut (grid1.coords t) ((dat1 V c).after 14 t) = _
  rw [after1_14]
  unfold out1_14
  rw [View.canon_unit_zero hz00]
  simp only [View.ld_unit_zero (S := S2000x120) hz00, View.ld_unit_zero (S := S120x128) hz00,
    View.ld_unit_zero (S := S1x128) hz00, View.ld_unit_zero (S := S128x128) hz00]
  funext j
  exact ea_at V c t j

/-- An index of the array is in point `t`'s block iff each coordinate is in the block's range on its axis. -/
theorem mem_blk14 (t : Fin cfg1.N) (i : S400000x128.Idx) :
    i ∈ ((cfg1.win 14).blk t).view.set ↔ ∀ a : Fin 2, win1_14.index t a * S2000x128.size a ≤ (i a).val ∧ (i a).val < win1_14.index t a * S2000x128.size a + S2000x128.size a := by
  show i ∈ ((View.whole main_v15_0).slice (win1_14.rect t)).set ↔ _
  rw [View.set_slice_whole, Rect.mem_set_unit]
  exact Iff.rfl

/-- Every row of the array is in some point's block: row `r` in block `r / 2000`. -/
theorem cover14 (i : S400000x128.Idx) :
    ∃ t : Fin cfg1.N, (cfg1.win 14).flush t = true ∧ i ∈ ((cfg1.win 14).blk t).view.set := by
  have hi0 : (i 0).val < 400000 := (i 0).isLt
  have hi1 : (i 1).val < 128 := (i 1).isLt
  let t : Fin cfg1.N := ⟨(i 0).val / 2000, by rw [show cfg1.N = 200 from N_1]; omega⟩
  obtain ⟨e0, e1⟩ := idx1_14 t
  have ht : t.val = (i 0).val / 2000 := rfl
  refine ⟨t, flush1_14 t, ?_⟩
  rw [mem_blk14]
  intro a
  match a with
  | ⟨0, _⟩ => show win1_14.index t (0 : Fin 2) * 2000 ≤ (i 0).val ∧ (i 0).val < win1_14.index t (0 : Fin 2) * 2000 + 2000; rw [e0, ht]; omega
  | ⟨1, _⟩ => show win1_14.index t (1 : Fin 2) * 128 ≤ (i 1).val ∧ (i 1).val < win1_14.index t (1 : Fin 2) * 128 + 128; rw [e1]; omega

/-- So the array ends holding `eaArr`. -/
theorem final14 (c : Dev nD) : (dat1 V c).arrAt 14 cfg1.N = eaArr V c :=
  (dat1 V c).arrAt_eq_of_cover 14 (eaArr V c) (fun t _ => flushed14_eq V c t) cover14

/-! ## The 512-wide edge output array -/

/-- The message row of edge `e` over the merged first layer, from the windows' arrays. -/
abbrev msgRow (c : Dev nD) (e : Fin 400000) : Fin 128 → EReal := fun q =>
  Spec.msgK (mat (V c main_v6 : S400000x128.Idx → EReal) e) (mat (V c main_v7 : S400000x128.Idx → EReal) e)
    (eaRow V c e) (mat (V c main_v8 : S384x256.Idx → EReal)) (row1 (V c main_v12 : S1x256.Idx → EReal))
    (mat (V c main_arg13 : S128x128.Idx → EReal)) (row1 (V c main_v13 : S1x128.Idx → EReal)) q

/-- The vector-message row of edge `e` over the merged first layer, before the scaling by the edge vector. -/
abbrev mvRow (c : Dev nD) (e : Fin 400000) : Fin 128 → EReal := fun q =>
  Spec.mvK (mat (V c main_v6 : S400000x128.Idx → EReal) e) (mat (V c main_v7 : S400000x128.Idx → EReal) e)
    (eaRow V c e) (mat (V c main_v8 : S384x256.Idx → EReal)) (row1 (V c main_v12 : S1x256.Idx → EReal))
    (mat (V c main_arg21 : S128x128.Idx → EReal)) (row1 (V c main_v14 : S1x128.Idx → EReal)) q

/-- Row `e` of the output: the message row in columns 0–127, then for each component `k` of the edge vector the
    vector-message row times that component in columns `128 + 128 k …`. -/
def outRow (c : Dev nD) (e : Fin 400000) (j : Fin 512) : EReal :=
  if h : j.val < 128 then msgRow V c e ⟨j.val, h⟩
  else mvRow V c e ⟨(j.val - 128) % 128, Nat.mod_lt _ (by decide)⟩
    * (V c main_arg3 : S400000x3.Idx → EReal) (ix2 e (⟨(j.val - 128) / 128, by have := j.isLt; omega⟩ : Fin 3))

theorem outRow_colMsg (c : Dev nD) (e : Fin 400000) (q : Fin 128) : outRow V c e (Spec.colMsg q) = msgRow V c e q := by
  unfold outRow
  rw [dif_pos (show (Spec.colMsg q).val < 128 from q.isLt)]
  rfl

theorem outRow_colMv (c : Dev nD) (e : Fin 400000) (k : Fin 3) (q : Fin 128) :
    outRow V c e (Spec.colMv k q) = mvRow V c e q * (V c main_arg3 : S400000x3.Idx → EReal) (ix2 e k) := by
  have hq := q.isLt
  have hk := k.isLt
  have hv : (Spec.colMv k q).val = 128 + 128 * k.val + q.val := rfl
  have e1 : ((Spec.colMv k q).val - 128) % 128 = q.val := by rw [hv]; omega
  have e2 : ((Spec.colMv k q).val - 128) / 128 = k.val := by rw [hv]; omega
  unfold outRow
  rw [dif_neg (by rw [hv]; omega)]
  exact congrArg₂ (· * ·) (congrArg (mvRow V c e) (Fin.ext e1))
    (congrArg (fun z => (V c main_arg3 : S400000x3.Idx → EReal) (ix2 e z)) (Fin.ext e2))

/-- The output as one array. -/
def outArr (c : Dev nD) : S400000x512.Idx → EReal :=
  fun i => outRow V c ⟨(i 0).val, idx2_lt0 i⟩ ⟨(i 1).val, idx2_lt1 i⟩

/-- Row `p` of the block at point `t` is row `2000 t + p` of the array. -/
theorem emb15 (t : Fin cfg1.N) (p : Fin 2000) (j : Fin 512) :
    ((cfg1.win 15).blk t).view.emb (ix2 p j)
      = (ix2 (⟨t.val * 2000 + p.val, by have := pt_lt t; omega⟩ : Fin 400000) j : S400000x512.Idx) := by
  obtain ⟨e0, e1⟩ := idx1_15 t
  refine funext fun a => Fin.ext ?_
  match a with
  | ⟨0, _⟩ => show win1_15.index t (0 : Fin 2) * 2000 + 1 * p.val = t.val * 2000 + p.val; rw [e0]; omega
  | ⟨1, _⟩ => show win1_15.index t (1 : Fin 2) * 512 + 1 * j.val = j.val; rw [e1]; omega

/-- The first store's rectangle holds the message columns. -/
theorem emb_r1_8 (p : Fin 2000) (q : Fin 128) : r1_8.emb (ix2 p q) = (ix2 p (Spec.colMsg q) : S2000x512.Idx) := by
  refine funext fun a => Fin.ext ?_
  match a with
  | ⟨0, _⟩ => show 0 + 1 * p.val = p.val; omega
  | ⟨1, _⟩ => show 0 + 1 * q.val = q.val; omega

/-- The store at column offset 128 holds component 0's columns. -/
theorem emb_r1_9 (p : Fin 2000) (q : Fin 128) : r1_9.emb (ix2 p q) = (ix2 p (Spec.colMv (0 : Fin 3) q) : S2000x512.Idx) := by
  refine funext fun a => Fin.ext ?_
  match a with
  | ⟨0, _⟩ => show 0 + 1 * p.val = p.val; omega
  | ⟨1, _⟩ => show 128 + 1 * q.val = 128 + 128 * 0 + q.val; omega

/-- The store at column offset 256 holds component 1's columns. -/
theorem emb_r1_10 (p : Fin 2000) (q : Fin 128) : r1_10.emb (ix2 p q) = (ix2 p (Spec.colMv (1 : Fin 3) q) : S2000x512.Idx) := by
  refine funext fun a => Fin.ext ?_
  match a with
  | ⟨0, _⟩ => show 0 + 1 * p.val = p.val; omega
  | ⟨1, _⟩ => show 256 + 1 * q.val = 128 + 128 * 1 + q.val; omega

/-- The store at column offset 384 holds component 2's columns. -/
theorem emb_r1_11 (p : Fin 2000) (q : Fin 128) : r1_11.emb (ix2 p q) = (ix2 p (Spec.colMv (2 : Fin 3) q) : S2000x512.Idx) := by
  refine funext fun a => Fin.ext ?_
  match a with
  | ⟨0, _⟩ => show 0 + 1 * p.val = p.val; omega
  | ⟨1, _⟩ => show 384 + 1 * q.val = 128 + 128 * 2 + q.val; omega

/-- The message block at a point, over blocks that are rows of arrays: the message row of the arrays' row. -/
theorem msg_point (x0 x1 : Vec Ideal S2000x128 .f32) (x2 : Vec Ideal S2000x120 .f32) (x4 : Vec Ideal S120x128 .f32) (x5 : Vec Ideal S1x128 .f32) (x6 : Vec Ideal S128x128 .f32) (x7 : Vec Ideal S1x128 .f32) (x8 : Vec Ideal S384x256 .f32) (x9 : Vec Ideal S1x256 .f32)
    (x10 : Vec Ideal S128x128 .f32) (x11 : Vec Ideal S1x128 .f32)
    (A0 A1 : S400000x128.Idx → EReal) (A2 : S400000x120.Idx → EReal) (A4 : S120x128.Idx → EReal) (A5 : S1x128.Idx → EReal) (A6 : S128x128.Idx → EReal) (A7 : S1x128.Idx → EReal) (A8 : S384x256.Idx → EReal) (A9 : S1x256.Idx → EReal) (A10 : S128x128.Idx → EReal) (A11 : S1x128.Idx → EReal) (e : Fin 400000) (p : Fin 2000) (q : Fin 128)
    (h0 : ∀ k : Fin 128, x0 (ix2 p k) = A0 (ix2 e k)) (h1 : ∀ k : Fin 128, x1 (ix2 p k) = A1 (ix2 e k)) (h2 : ∀ k : Fin 120, x2 (ix2 p k) = A2 (ix2 e k)) (h4 : x4 = A4) (h5 : x5 = A5) (h6 : x6 = A6) (h7 : x7 = A7) (h8 : x8 = A8) (h9 : x9 = A9) (h10 : x10 = A10) (h11 : x11 = A11) :
    k1_pay1 (k1_pay6 x0) (k1_pay9 x0 x1 x2 x4 x5 x6 x7 x8 x9) x10 x11 (ix2 p q)
      = Spec.msgK (mat A0 e) (mat A1 e) (fun k => Spec.mlp (mat A2 e) (mat A4) (row1 A5) (mat A6) (row1 A7) k) (mat A8) (row1 A9) (mat A10) (row1 A11) q := by
  subst h4 h5 h6 h7 h8 h9 h10 h11
  refine (msgBlk_apply x0 x1 x2 x4 x5 x6 x7 x8 x9 x10 x11 p q).trans ?_
  have r0 : mat (x0 : S2000x128.Idx → EReal) p = mat A0 e := funext h0
  have r1 : mat (x1 : S2000x128.Idx → EReal) p = mat A1 e := funext h1
  have r2 : mat (x2 : S2000x120.Idx → EReal) p = mat A2 e := funext h2
  rw [r0, r1, r2]

/-- What the body stores in the message columns at point `t`, read at a block index: the array's entry under it. -/
theorem msg_at (c : Dev nD) (t : Fin cfg1.N) (y : S2000x128.Idx) :
    (k1_pay1 (k1_pay6 (iblk1 V c 0 t)) (k1_pay9 (iblk1 V c 0 t) (iblk1 V c 1 t) (iblk1 V c 2 t) (iblk1 V c 4 t) (iblk1 V c 5 t) (iblk1 V c 6 t) (iblk1 V c 7 t) (iblk1 V c 8 t) (iblk1 V c 9 t)) (iblk1 V c 10 t) (iblk1 V c 11 t)) y
      = outArr V c (((cfg1.win 15).blk t).view.emb (r1_8.emb y)) := by
  obtain ⟨p, q, rfl⟩ : ∃ (p : Fin 2000) (q : Fin 128), y = ix2 p q := ⟨y 0, y 1, eq_ix2 y⟩
  refine Eq.trans ?_ (congrArg (fun z => outArr V c (((cfg1.win 15).blk t).view.emb z)) (emb_r1_8 p q).symm)
  refine Eq.trans ?_ (congrArg (outArr V c) (emb15 t p (Spec.colMsg q)).symm)
  refine Eq.trans ?_ (outRow_colMsg V c (⟨t.val * 2000 + p.val, by have := pt_lt t; omega⟩ : Fin 400000) q).symm
  exact msg_point (iblk1 V c 0 t) (iblk1 V c 1 t) (iblk1 V c 2 t) (iblk1 V c 4 t) (iblk1 V c 5 t) (iblk1 V c 6 t) (iblk1 V c 7 t) (iblk1 V c 8 t) (iblk1 V c 9 t) (iblk1 V c 10 t) (iblk1 V c 11 t) _ _ _ _ _ _ _ _ _ _ _ _ p q
    (fun k => blk1_0_apply V c t p k) (fun k => blk1_1_apply V c t p k) (fun k => blk1_2_apply V c t p k) (blk1_4_eq V c t) (blk1_5_eq V c t) (blk1_6_eq V c t) (blk1_7_eq V c t) (blk1_8_eq V c t) (blk1_9_eq V c t) (blk1_10_eq V c t) (blk1_11_eq V c t)

/-- Component 0's block at a point, over blocks that are rows of arrays. -/
theorem mv0_point (x0 x1 : Vec Ideal S2000x128 .f32) (x2 : Vec Ideal S2000x120 .f32) (x4 : Vec Ideal S120x128 .f32) (x5 : Vec Ideal S1x128 .f32) (x6 : Vec Ideal S128x128 .f32) (x7 : Vec Ideal S1x128 .f32) (x8 : Vec Ideal S384x256 .f32) (x9 : Vec Ideal S1x256 .f32)
    (x12 : Vec Ideal S128x128 .f32) (x13 : Vec Ideal S1x128 .f32) (x3 : Vec Ideal S2000x3 .f32)
    (A0 A1 : S400000x128.Idx → EReal) (A2 : S400000x120.Idx → EReal) (A4 : S120x128.Idx → EReal) (A5 : S1x128.Idx → EReal) (A6 : S128x128.Idx → EReal) (A7 : S1x128.Idx → EReal) (A8 : S384x256.Idx → EReal) (A9 : S1x256.Idx → EReal) (A12 : S128x128.Idx → EReal) (A13 : S1x128.Idx → EReal) (A3 : S400000x3.Idx → EReal) (e : Fin 400000) (p : Fin 2000) (q : Fin 128)
    (h0 : ∀ k : Fin 128, x0 (ix2 p k) = A0 (ix2 e k)) (h1 : ∀ k : Fin 128, x1 (ix2 p k) = A1 (ix2 e k)) (h2 : ∀ k : Fin 120, x2 (ix2 p k) = A2 (ix2 e k)) (h4 : x4 = A4) (h5 : x5 = A5) (h6 : x6 = A6) (h7 : x7 = A7) (h8 : x8 = A8) (h9 : x9 = A9) (h12 : x12 = A12) (h13 : x13 = A13) (h3 : x3 (ix2 p (0 : Fin 3)) = A3 (ix2 e (0 : Fin 3))) :
    k1_pay3 (k1_pay10 x0 x1 x2 x4 x5 x6 x7 x8 x9) x12 x13 x3 (ix2 p q)
      = Spec.mvK (mat A0 e) (mat A1 e) (fun k => Spec.mlp (mat A2 e) (mat A4) (row1 A5) (mat A6) (row1 A7) k) (mat A8) (row1 A9) (mat A12) (row1 A13) q * A3 (ix2 e (0 : Fin 3)) := by
  subst h4 h5 h6 h7 h8 h9 h12 h13
  refine (mvBlk0_apply x0 x1 x2 x4 x5 x6 x7 x8 x9 x12 x13 x3 p q).trans ?_
  have r0 : mat (x0 : S2000x128.Idx → EReal) p = mat A0 e := funext h0
  have r1 : mat (x1 : S2000x128.Idx → EReal) p = mat A1 e := funext h1
  have r2 : mat (x2 : S2000x120.Idx → EReal) p = mat A2 e := funext h2
  rw [r0, r1, r2, h3]

/-- What the body stores in component 0's columns at point `t`, read at a block index: the array's entry under it. -/
theorem mv0_at (c : Dev nD) (t : Fin cfg1.N) (y : S2000x128.Idx) :
    (k1_pay3 (k1_pay10 (iblk1 V c 0 t) (iblk1 V c 1 t) (iblk1 V c 2 t) (iblk1 V c 4 t) (iblk1 V c 5 t) (iblk1 V c 6 t) (iblk1 V c 7 t) (iblk1 V c 8 t) (iblk1 V c 9 t)) (iblk1 V c 12 t) (iblk1 V c 13 t) (iblk1 V c 3 t)) y
      = outArr V c (((cfg1.win 15).blk t).view.emb (r1_9.emb y)) := by
  obtain ⟨p, q, rfl⟩ : ∃ (p : Fin 2000) (q : Fin 128), y = ix2 p q := ⟨y 0, y 1, eq_ix2 y⟩
  refine Eq.trans ?_ (congrArg (fun z => outArr V c (((cfg1.win 15).blk t).view.emb z)) (emb_r1_9 p q).symm)
  refine Eq.trans ?_ (congrArg (outArr V c) (emb15 t p (Spec.colMv (0 : Fin 3) q)).symm)
  refine Eq.trans ?_ (outRow_colMv V c (⟨t.val * 2000 + p.val, by have := pt_lt t; omega⟩ : Fin 400000) (0 : Fin 3) q).symm
  exact mv0_point (iblk1 V c 0 t) (iblk1 V c 1 t) (iblk1 V c 2 t) (iblk1 V c 4 t) (iblk1 V c 5 t) (iblk1 V c 6 t) (iblk1 V c 7 t) (iblk1 V c 8 t) (iblk1 V c 9 t) (iblk1 V c 12 t) (iblk1 V c 13 t) (iblk1 V c 3 t) _ _ _ _ _ _ _ _ _ _ _ _ _ p q
    (fun k => blk1_0_apply V c t p k) (fun k => blk1_1_apply V c t p k) (fun k => blk1_2_apply V c t p k) (blk1_4_eq V c t) (blk1_5_eq V c t) (blk1_6_eq V c t) (blk1_7_eq V c t) (blk1_8_eq V c t) (blk1_9_eq V c t) (blk1_12_eq V c t) (blk1_13_eq V c t) (blk1_3_apply V c t p (0 : Fin 3))

/-- Component 1's block at a point, over blocks that are rows of arrays. -/
theorem mv1_point (x0 x1 : Vec Ideal S2000x128 .f32) (x2 : Vec Ideal S2000x120 .f32) (x4 : Vec Ideal S120x128 .f32) (x5 : Vec Ideal S1x128 .f32) (x6 : Vec Ideal S128x128 .f32) (x7 : Vec Ideal S1x128 .f32) (x8 : Vec Ideal S384x256 .f32) (x9 : Vec Ideal S1x256 .f32)
    (x12 : Vec Ideal S128x128 .f32) (x13 : Vec Ideal S1x128 .f32) (x3 : Vec Ideal S2000x3 .f32)
    (A0 A1 : S400000x128.Idx → EReal) (A2 : S400000x120.Idx → EReal) (A4 : S120x128.Idx → EReal) (A5 : S1x128.Idx → EReal) (A6 : S128x128.Idx → EReal) (A7 : S1x128.Idx → EReal) (A8 : S384x256.Idx → EReal) (A9 : S1x256.Idx → EReal) (A12 : S128x128.Idx → EReal) (A13 : S1x128.Idx → EReal) (A3 : S400000x3.Idx → EReal) (e : Fin 400000) (p : Fin 2000) (q : Fin 128)
    (h0 : ∀ k : Fin 128, x0 (ix2 p k) = A0 (ix2 e k)) (h1 : ∀ k : Fin 128, x1 (ix2 p k) = A1 (ix2 e k)) (h2 : ∀ k : Fin 120, x2 (ix2 p k) = A2 (ix2 e k)) (h4 : x4 = A4) (h5 : x5 = A5) (h6 : x6 = A6) (h7 : x7 = A7) (h8 : x8 = A8) (h9 : x9 = A9) (h12 : x12 = A12) (h13 : x13 = A13) (h3 : x3 (ix2 p (1 : Fin 3)) = A3 (ix2 e (1 : Fin 3))) :
    k1_pay4 (k1_pay10 x0 x1 x2 x4 x5 x6 x7 x8 x9) x12 x13 x3 (ix2 p q)
      = Spec.mvK (mat A0 e) (mat A1 e) (fun k => Spec.mlp (mat A2 e) (mat A4) (row1 A5) (mat A6) (row1 A7) k) (mat A8) (row1 A9) (mat A12) (row1 A13) q * A3 (ix2 e (1 : Fin 3)) := by
  subst h4 h5 h6 h7 h8 h9 h12 h13
  refine (mvBlk1_apply x0 x1 x2 x4 x5 x6 x7 x8 x9 x12 x13 x3 p q).trans ?_
  have r0 : mat (x0 : S2000x128.Idx → EReal) p = mat A0 e := funext h0
  have r1 : mat (x1 : S2000x128.Idx → EReal) p = mat A1 e := funext h1
  have r2 : mat (x2 : S2000x120.Idx → EReal) p = mat A2 e := funext h2
  rw [r0, r1, r2, h3]

/-- What the body stores in component 1's columns at point `t`, read at a block index: the array's entry under it. -/
theorem mv1_at (c : Dev nD) (t : Fin cfg1.N) (y : S2000x128.Idx) :
    (k1_pay4 (k1_pay10 (iblk1 V c 0 t) (iblk1 V c 1 t) (iblk1 V c 2 t) (iblk1 V c 4 t) (iblk1 V c 5 t) (iblk1 V c 6 t) (iblk1 V c 7 t) (iblk1 V c 8 t) (iblk1 V c 9 t)) (iblk1 V c 12 t) (iblk1 V c 13 t) (iblk1 V c 3 t)) y
      = outArr V c (((cfg1.win 15).blk t).view.emb (r1_10.emb y)) := by
  obtain ⟨p, q, rfl⟩ : ∃ (p : Fin 2000) (q : Fin 128), y = ix2 p q := ⟨y 0, y 1, eq_ix2 y⟩
  refine Eq.trans ?_ (congrArg (fun z => outArr V c (((cfg1.win 15).blk t).view.emb z)) (emb_r1_10 p q).symm)
  refine Eq.trans ?_ (congrArg (outArr V c) (emb15 t p (Spec.colMv (1 : Fin 3) q)).symm)
  refine Eq.trans ?_ (outRow_colMv V c (⟨t.val * 2000 + p.val, by have := pt_lt t; omega⟩ : Fin 400000) (1 : Fin 3) q).symm
  exact mv1_point (iblk1 V c 0 t) (iblk1 V c 1 t) (iblk1 V c 2 t) (iblk1 V c 4 t) (iblk1 V c 5 t) (iblk1 V c 6 t) (iblk1 V c 7 t) (iblk1 V c 8 t) (iblk1 V c 9 t) (iblk1 V c 12 t) (iblk1 V c 13 t) (iblk1 V c 3 t) _ _ _ _ _ _ _ _ _ _ _ _ _ p q
    (fun k => blk1_0_apply V c t p k) (fun k => blk1_1_apply V c t p k) (fun k => blk1_2_apply V c t p k) (blk1_4_eq V c t) (blk1_5_eq V c t) (blk1_6_eq V c t) (blk1_7_eq V c t) (blk1_8_eq V c t) (blk1_9_eq V c t) (blk1_12_eq V c t) (blk1_13_eq V c t) (blk1_3_apply V c t p (1 : Fin 3))

/-- Component 2's block at a point, over blocks that are rows of arrays. -/
theorem mv2_point (x0 x1 : Vec Ideal S2000x128 .f32) (x2 : Vec Ideal S2000x120 .f32) (x4 : Vec Ideal S120x128 .f32) (x5 : Vec Ideal S1x128 .f32) (x6 : Vec Ideal S128x128 .f32) (x7 : Vec Ideal S1x128 .f32) (x8 : Vec Ideal S384x256 .f32) (x9 : Vec Ideal S1x256 .f32)
    (x12 : Vec Ideal S128x128 .f32) (x13 : Vec Ideal S1x128 .f32) (x3 : Vec Ideal S2000x3 .f32)
    (A0 A1 : S400000x128.Idx → EReal) (A2 : S400000x120.Idx → EReal) (A4 : S120x128.Idx → EReal) (A5 : S1x128.Idx → EReal) (A6 : S128x128.Idx → EReal) (A7 : S1x128.Idx → EReal) (A8 : S384x256.Idx → EReal) (A9 : S1x256.Idx → EReal) (A12 : S128x128.Idx → EReal) (A13 : S1x128.Idx → EReal) (A3 : S400000x3.Idx → EReal) (e : Fin 400000) (p : Fin 2000) (q : Fin 128)
    (h0 : ∀ k : Fin 128, x0 (ix2 p k) = A0 (ix2 e k)) (h1 : ∀ k : Fin 128, x1 (ix2 p k) = A1 (ix2 e k)) (h2 : ∀ k : Fin 120, x2 (ix2 p k) = A2 (ix2 e k)) (h4 : x4 = A4) (h5 : x5 = A5) (h6 : x6 = A6) (h7 : x7 = A7) (h8 : x8 = A8) (h9 : x9 = A9) (h12 : x12 = A12) (h13 : x13 = A13) (h3 : x3 (ix2 p (2 : Fin 3)) = A3 (ix2 e (2 : Fin 3))) :
    k1_pay5 (k1_pay10 x0 x1 x2 x4 x5 x6 x7 x8 x9) x12 x13 x3 (ix2 p q)
      = Spec.mvK (mat A0 e) (mat A1 e) (fun k => Spec.mlp (mat A2 e) (mat A4) (row1 A5) (mat A6) (row1 A7) k) (mat A8) (row1 A9) (mat A12) (row1 A13) q * A3 (ix2 e (2 : Fin 3)) := by
  subst h4 h5 h6 h7 h8 h9 h12 h13
  refine (mvBlk2_apply x0 x1 x2 x4 x5 x6 x7 x8 x9 x12 x13 x3 p q).trans ?_
  have r0 : mat (x0 : S2000x128.Idx → EReal) p = mat A0 e := funext h0
  have r1 : mat (x1 : S2000x128.Idx → EReal) p = mat A1 e := funext h1
  have r2 : mat (x2 : S2000x120.Idx → EReal) p = mat A2 e := funext h2
  rw [r0, r1, r2, h3]

/-- What the body stores in component 2's columns at point `t`, read at a block index: the array's entry under it. -/
theorem mv2_at (c : Dev nD) (t : Fin cfg1.N) (y : S2000x128.Idx) :
    (k1_pay5 (k1_pay10 (iblk1 V c 0 t) (iblk1 V c 1 t) (iblk1 V c 2 t) (iblk1 V c 4 t) (iblk1 V c 5 t) (iblk1 V c 6 t) (iblk1 V c 7 t) (iblk1 V c 8 t) (iblk1 V c 9 t)) (iblk1 V c 12 t) (iblk1 V c 13 t) (iblk1 V c 3 t)) y
      = outArr V c (((cfg1.win 15).blk t).view.emb (r1_11.emb y)) := by
  obtain ⟨p, q, rfl⟩ : ∃ (p : Fin 2000) (q : Fin 128), y = ix2 p q := ⟨y 0, y 1, eq_ix2 y⟩
  refine Eq.trans ?_ (congrArg (fun z => outArr V c (((cfg1.win 15).blk t).view.emb z)) (emb_r1_11 p q).symm)
  refine Eq.trans ?_ (congrArg (outArr V c) (emb15 t p (Spec.colMv (2 : Fin 3) q)).symm)
  refine Eq.trans ?_ (outRow_colMv V c (⟨t.val * 2000 + p.val, by have := pt_lt t; omega⟩ : Fin 400000) (2 : Fin 3) q).symm
  exact mv2_point (iblk1 V c 0 t) (iblk1 V c 1 t) (iblk1 V c 2 t) (iblk1 V c 4 t) (iblk1 V c 5 t) (iblk1 V c 6 t) (iblk1 V c 7 t) (iblk1 V c 8 t) (iblk1 V c 9 t) (iblk1 V c 12 t) (iblk1 V c 13 t) (iblk1 V c 3 t) _ _ _ _ _ _ _ _ _ _ _ _ _ p q
    (fun k => blk1_0_apply V c t p k) (fun k => blk1_1_apply V c t p k) (fun k => blk1_2_apply V c t p k) (blk1_4_eq V c t) (blk1_5_eq V c t) (blk1_6_eq V c t) (blk1_7_eq V c t) (blk1_8_eq V c t) (blk1_9_eq V c t) (blk1_12_eq V c t) (blk1_13_eq V c t) (blk1_3_apply V c t p (2 : Fin 3))

/-- The four stores together: the body's buffer for the output window at point `t`, read at a block index, is the
    array's entry under it. -/
theorem out_at (c : Dev nD) (t : Fin cfg1.N) (y : S2000x512.Idx) :
    View.canon ([⟨r1_11, k1_pay5 (k1_pay10 (iblk1 V c 0 t) (iblk1 V c 1 t) (iblk1 V c 2 t) (iblk1 V c 4 t) (iblk1 V c 5 t) (iblk1 V c 6 t) (iblk1 V c 7 t) (iblk1 V c 8 t) (iblk1 V c 9 t)) (iblk1 V c 12 t) (iblk1 V c 13 t) (iblk1 V c 3 t)⟩,
      ⟨r1_10, k1_pay4 (k1_pay10 (iblk1 V c 0 t) (iblk1 V c 1 t) (iblk1 V c 2 t) (iblk1 V c 4 t) (iblk1 V c 5 t) (iblk1 V c 6 t) (iblk1 V c 7 t) (iblk1 V c 8 t) (iblk1 V c 9 t)) (iblk1 V c 12 t) (iblk1 V c 13 t) (iblk1 V c 3 t)⟩,
      ⟨r1_9, k1_pay3 (k1_pay10 (iblk1 V c 0 t) (iblk1 V c 1 t) (iblk1 V c 2 t) (iblk1 V c 4 t) (iblk1 V c 5 t) (iblk1 V c 6 t) (iblk1 V c 7 t) (iblk1 V c 8 t) (iblk1 V c 9 t)) (iblk1 V c 12 t) (iblk1 V c 13 t) (iblk1 V c 3 t)⟩,
      ⟨r1_8, k1_pay1 (k1_pay6 (iblk1 V c 0 t)) (k1_pay9 (iblk1 V c 0 t) (iblk1 V c 1 t) (iblk1 V c 2 t) (iblk1 V c 4 t) (iblk1 V c 5 t) (iblk1 V c 6 t) (iblk1 V c 7 t) (iblk1 V c 8 t) (iblk1 V c 9 t)) (iblk1 V c 10 t) (iblk1 V c 11 t)⟩] : List (View.Piece (Elt Ideal) S2000x512 .f32)) y
      = outArr V c (((cfg1.win 15).blk t).view.emb y) := by
  refine View.canon_apply_of_pieces (Val := Elt Ideal) (S := S2000x512) (e := .f32) (fun y => outArr V c (((cfg1.win 15).blk t).view.emb y)) _ ?_ y (cover1_15 _ _ _ _ y)
  intro pc hpc
  simp only [List.mem_cons, List.not_mem_nil, or_false] at hpc
  rcases hpc with rfl | rfl | rfl | rfl
  · intro x; exact mv2_at V c t x
  · intro x; exact mv1_at V c t x
  · intro x; exact mv0_at V c t x
  · intro x; exact msg_at V c t x

/-- What point `t` writes back to the output array is its block of `outArr`. -/
theorem flushed15_eq (c : Dev nD) (t : Fin cfg1.N) :
    (dat1 V c).flushed 15 t = ((cfg1.win 15).blk t).view.read (Elt Ideal) (outArr V c) := by
  show (cfg1.win 15).cut (grid1.coords t) ((dat1 V c).after 15 t) = _
  rw [after1_15]
  unfold out1_15
  simp only [View.ld_unit_zero (S := S2000x128) hz00, View.ld_unit_zero (S := S2000x120) hz00, View.ld_unit_zero (S := S2000x3) hz00,
    View.ld_unit_zero (S := S120x128) hz00, View.ld_unit_zero (S := S1x128) hz00, View.ld_unit_zero (S := S128x128) hz00,
    View.ld_unit_zero (S := S384x256) hz00, View.ld_unit_zero (S := S1x256) hz00]
  funext j
  exact out_at V c t j

/-- An index of the array is in point `t`'s block iff each coordinate is in the block's range on its axis. -/
theorem mem_blk15 (t : Fin cfg1.N) (i : S400000x512.Idx) :
    i ∈ ((cfg1.win 15).blk t).view.set ↔ ∀ a : Fin 2, win1_15.index t a * S2000x512.size a ≤ (i a).val ∧ (i a).val < win1_15.index t a * S2000x512.size a + S2000x512.size a := by
  show i ∈ ((View.whole main_v15_1).slice (win1_15.rect t)).set ↔ _
  rw [View.set_slice_whole, Rect.mem_set_unit]
  exact Iff.rfl

/-- Every row of the array is in some point's block: row `r` in block `r / 2000`. -/
theorem cover15 (i : S400000x512.Idx) :
    ∃ t : Fin cfg1.N, (cfg1.win 15).flush t = true ∧ i ∈ ((cfg1.win 15).blk t).view.set := by
  have hi0 : (i 0).val < 400000 := (i 0).isLt
  have hi1 : (i 1).val < 512 := (i 1).isLt
  let t : Fin cfg1.N := ⟨(i 0).val / 2000, by rw [show cfg1.N = 200 from N_1]; omega⟩
  obtain ⟨e0, e1⟩ := idx1_15 t
  have ht : t.val = (i 0).val / 2000 := rfl
  refine ⟨t, flush1_15 t, ?_⟩
  rw [mem_blk15]
  intro a
  match a with
  | ⟨0, _⟩ => show win1_15.index t (0 : Fin 2) * 2000 ≤ (i 0).val ∧ (i 0).val < win1_15.index t (0 : Fin 2) * 2000 + 2000; rw [e0, ht]; omega
  | ⟨1, _⟩ => show win1_15.index t (1 : Fin 2) * 512 ≤ (i 1).val ∧ (i 1).val < win1_15.index t (1 : Fin 2) * 512 + 512; rw [e1]; omega

/-- So the array ends holding `outArr`. -/
theorem final15 (c : Dev nD) : (dat1 V c).arrAt 15 cfg1.N = outArr V c :=
  (dat1 V c).arrAt_eq_of_cover 15 (outArr V c) (fun t _ => flushed15_eq V c t) cover15

end R1

/-- The edge embedding array after the second pallas_call (its blocks of 2000 rows tile the 400000 rows). -/
theorem region1_ea (c : Dev nD) (e : Fin 400000) (q : Fin 128) :
    ((dat1 (F := Ideal) V c).arrAt 14 cfg1.N : S400000x128.Idx → EReal) (ix2 e q) = eaRow V c e q := by
  rw [R1.final14]
  rfl

/-- Columns 0–127 of the 512-wide edge output: the message row over the merged first layer. -/
theorem region1_msg (c : Dev nD) (e : Fin 400000) (q : Fin 128) :
    ((dat1 (F := Ideal) V c).arrAt 15 cfg1.N : S400000x512.Idx → EReal) (ix2 e (Spec.colMsg q))
      = Spec.msgK (mat (V c main_v6 : S400000x128.Idx → EReal) e) (mat (V c main_v7 : S400000x128.Idx → EReal) e)
          (eaRow V c e) (mat (V c main_v8 : S384x256.Idx → EReal)) (row1 (V c main_v12 : S1x256.Idx → EReal))
          (mat (V c main_arg13 : S128x128.Idx → EReal)) (row1 (V c main_v13 : S1x128.Idx → EReal)) q := by
  rw [R1.final15]
  exact R1.outRow_colMsg V c e q

/-- Columns 128 + 128 k + q: the vector-message row over the merged first layer, times component `k` of the edge vector. -/
theorem region1_mv (c : Dev nD) (e : Fin 400000) (k : Fin 3) (q : Fin 128) :
    ((dat1 (F := Ideal) V c).arrAt 15 cfg1.N : S400000x512.Idx → EReal) (ix2 e (Spec.colMv k q))
      = Spec.mvK (mat (V c main_v6 : S400000x128.Idx → EReal) e) (mat (V c main_v7 : S400000x128.Idx → EReal) e)
          (eaRow V c e) (mat (V c main_v8 : S384x256.Idx → EReal)) (row1 (V c main_v12 : S1x256.Idx → EReal))
          (mat (V c main_arg21 : S128x128.Idx → EReal)) (row1 (V c main_v14 : S1x128.Idx → EReal)) q
        * (V c main_arg3 : S400000x3.Idx → EReal) (ix2 e k) := by
  rw [R1.final15]
  exact R1.outRow_colMv V c e k q

end Cert.KernelIdeal.Val

end
-- ==== Proof.Val2.lean ====
/-
  The third pallas_call's output array read at an index. The call runs over 5 grid points; at point `t` it sees rows
  `5000 t … 5000 t + 4999` of the node embedding, of the aggregated messages and of the times, and every weight matrix
  and bias row whole, and writes the same rows of the node update. The block it stores is, row by row, the perceptron
  of `[f | agg]` plus the perceptron of the random Fourier features `[cos (2π t B) | sin (2π t B)]` of the row's time;
  a block's row `p` at point `t` is row `5000 t + p` of its array; the five blocks cover the 25000 rows; so the array
  ends holding that update of each row.
-/
import proofs.«425565_j41283225649648_3_alg».proof.Proof.Gen.KernelIdeal.Frame
import proofs.«425565_j41283225649648_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open Cert.Spec (mat vec row1)

variable (V : (c : Dev nD) → (b : Ref sig .tc) → Buf (Elt Ideal) ((c : Thread nD τ).loc b))

/-! ## A block of rows times a weight matrix, read at an entry

Both products of the node update contract the left operand's columns against the right operand's rows, so entry
`(p, q)` of the product is the sum over `k` of entry `(p, k)` of the left times entry `(k, q)` of the right. -/

theorem lhsW_0 (i : S5000x128.Idx) (k : dot_S5000x256_S256x128_S5000x128_1_0_0_1_n_n.contr.Idx) :
    (dot_S5000x256_S256x128_S5000x128_1_0_0_1_n_n.lhsIdx i k 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhsW_1 (i : S5000x128.Idx) (k : dot_S5000x256_S256x128_S5000x128_1_0_0_1_n_n.contr.Idx) :
    (dot_S5000x256_S256x128_S5000x128_1_0_0_1_n_n.lhsIdx i k 1).val = (k ⟨0, by decide⟩).val :=
  dot_S5000x256_S256x128_S5000x128_1_0_0_1_n_n.lhsIdx_val_of_single rfl i k
theorem rhsW_0 (i : S5000x128.Idx) (k : dot_S5000x256_S256x128_S5000x128_1_0_0_1_n_n.contr.Idx) :
    (dot_S5000x256_S256x128_S5000x128_1_0_0_1_n_n.rhsIdx i k 0).val = (k ⟨0, by decide⟩).val :=
  dot_S5000x256_S256x128_S5000x128_1_0_0_1_n_n.rhsIdx_val_of_single rfl i k
theorem rhsW_1 (i : S5000x128.Idx) (k : dot_S5000x256_S256x128_S5000x128_1_0_0_1_n_n.contr.Idx) :
    (dot_S5000x256_S256x128_S5000x128_1_0_0_1_n_n.rhsIdx i k 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product with a `256 × 128` weight. -/
theorem mulW_apply (x : FVec Ideal S5000x256 .f32) (w : FVec Ideal S256x128 .f32) (p : Fin 5000) (q : Fin 128) :
    matmul dot_S5000x256_S256x128_S5000x128_1_0_0_1_n_n none x w (constant S5000x128 .f32 0x00000000#32) (ix2 p q)
      = ∑ k : Fin 256, x (ix2 p k) * w (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhsW_0 _ _
    | ⟨1, _⟩ => exact (lhsW_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhsW_0 _ _).trans hk
    | ⟨1, _⟩ => exact rhsW_1 _ _)
  rw [el, er]

theorem lhsD_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsD_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
theorem rhsD_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem rhsD_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product with a `128 × 128` weight. -/
theorem mulD_apply (x : FVec Ideal S5000x128 .f32) (w : FVec Ideal S128x128 .f32) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsD_0 _ _
    | ⟨1, _⟩ => exact (lhsD_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsD_0 _ _).trans hk
    | ⟨1, _⟩ => exact rhsD_1 _ _)
  rw [el, er]

/-! ## The layout operations of the body, read at an entry -/

/-- A bias row broadcast down the block's rows. -/
theorem bias_apply (b : Vec Ideal S1x128 .f32) (p : Fin 5000) (q : Fin 128) :
    broadcastTo S5000x128 (shapeCast S1x128 b shapeCasts_S1x128_S1x128) broadcasts_S1x128_S5000x128 (ix2 p q)
      = b (ix2 (0 : Fin 1) q) := by
  rw [shapeCast_self]
  exact broadcastTo_apply b broadcasts_S1x128_S5000x128 (ix2 p q) (ix2 (0 : Fin 1) q)
    (fun a => by match a with | ⟨0, _⟩ => rfl | ⟨1, _⟩ => rfl)

/-- The column of times broadcast along 64 columns. -/
theorem tcol_apply (t : Vec Ideal S5000x1 .f32) (p : Fin 5000) (k : Fin 64) :
    broadcastTo S5000x64 t broadcasts_S5000x1_S5000x64 (ix2 p k) = t (ix2 p (0 : Fin 1)) :=
  broadcastTo_apply t broadcasts_S5000x1_S5000x64 (ix2 p k) (ix2 p (0 : Fin 1))
    (fun a => by match a with | ⟨0, _⟩ => rfl | ⟨1, _⟩ => rfl)

/-- The projection row broadcast down the block's rows. -/
theorem brow_apply (B : Vec Ideal S1x64 .f32) (p : Fin 5000) (k : Fin 64) :
    broadcastTo S5000x64 B broadcasts_S1x64_S5000x64 (ix2 p k) = B (ix2 (0 : Fin 1) k) :=
  broadcastTo_apply B broadcasts_S1x64_S5000x64 (ix2 p k) (ix2 (0 : Fin 1) k)
    (fun a => by match a with | ⟨0, _⟩ => rfl | ⟨1, _⟩ => rfl)

/-- Two blocks of width 128 side by side: row `p` is the two rows side by side. -/
theorem cat128_apply (x y : FVec Ideal S5000x128 .f32) (p : Fin 5000) (k : Fin 256) :
    concatenate S5000x256 1 [⟨S5000x128, x⟩, ⟨S5000x128, y⟩] concatenates_S5000x128_S5000x128_S5000x256_d1 (ix2 p k)
      = Spec.cat2 (fun c => x (ix2 p c)) (fun c => y (ix2 p c)) k := by
  unfold Spec.cat2
  by_cases h : k.val < 128
  · rw [dif_pos h]
    exact concatenate_pair_apply_left 1 x y _ (ix2 p k) rfl (ix2 p ⟨k.val, h⟩)
      (fun b => by match b with | ⟨0, _⟩ => rfl | ⟨1, _⟩ => rfl)
  · rw [dif_neg h]
    exact concatenate_pair_apply_right 1 x y _ (ix2 p k) rfl rfl (ix2 p ⟨k.val - 128, by have := k.isLt; omega⟩)
      (fun b hb => by match b, hb with | ⟨0, _⟩, _ => rfl | ⟨1, _⟩, hb => exact absurd rfl hb)
      (by show k.val - 128 + 128 = k.val; omega)

/-- Two blocks of width 64 side by side. -/
theorem cat64_apply (x y : FVec Ideal S5000x64 .f32) (p : Fin 5000) (k : Fin 128) :
    concatenate S5000x128 1 [⟨S5000x64, x⟩, ⟨S5000x64, y⟩] concatenates_S5000x64_S5000x64_S5000x128_d1 (ix2 p k)
      = Spec.cat64 (fun c => x (ix2 p c)) (fun c => y (ix2 p c)) k := by
  unfold Spec.cat64
  by_cases h : k.val < 64
  · rw [dif_pos h]
    exact concatenate_pair_apply_left 1 x y _ (ix2 p k) rfl (ix2 p ⟨k.val, h⟩)
      (fun b => by match b with | ⟨0, _⟩ => rfl | ⟨1, _⟩ => rfl)
  · rw [dif_neg h]
    exact concatenate_pair_apply_right 1 x y _ (ix2 p k) rfl rfl (ix2 p ⟨k.val - 64, by have := k.isLt; omega⟩)
      (fun b hb => by match b, hb with | ⟨0, _⟩, _ => rfl | ⟨1, _⟩, hb => exact absurd rfl hb)
      (by show k.val - 64 + 64 = k.val; omega)

/-! ## The body's values at an entry -/

/-- The activation at an entry. -/
theorem silu_apply (x : FVec Ideal S5000x128 .f32) (i : S5000x128.Idx) : mulf x (logistic x) i = Spec.silu (x i) := rfl

/-- A dense layer with a `128 × 128` weight over a block: row `p` of the block through the affine map. -/
theorem denseD_apply (x : FVec Ideal S5000x128 .f32) (w : FVec Ideal S128x128 .f32) (b : Vec Ideal S1x128 .f32)
    (p : Fin 5000) (q : Fin 128) :
    addf (matmul dot_S5000x128_S128x128_S5000x128_1_0_0_1_n_n none x w (constant S5000x128 .f32 0x00000000#32))
        (broadcastTo S5000x128 (shapeCast S1x128 b shapeCasts_S1x128_S1x128) broadcasts_S1x128_S5000x128) (ix2 p q)
      = Spec.lin (fun k => x (ix2 p k)) (mat w) (row1 b) q := by
  rw [addf_apply, mulD_apply, bias_apply]
  rfl

/-- The same with the `256 × 128` weight. -/
theorem denseW_apply (x : FVec Ideal S5000x256 .f32) (w : FVec Ideal S256x128 .f32) (b : Vec Ideal S1x128 .f32)
    (p : Fin 5000) (q : Fin 128) :
    addf (matmul dot_S5000x256_S256x128_S5000x128_1_0_0_1_n_n none x w (constant S5000x128 .f32 0x00000000#32))
        (broadcastTo S5000x128 (shapeCast S1x128 b shapeCasts_S1x128_S1x128) broadcasts_S1x128_S5000x128) (ix2 p q)
      = Spec.lin (fun k => x (ix2 p k)) (mat w) (row1 b) q := by
  rw [addf_apply, mulW_apply, bias_apply]
  rfl

/-- The perceptron of `[f | agg]`, row by row. -/
theorem pay2_apply (x0 x1 : Vec Ideal S5000x128 .f32) (w1 : Vec Ideal S256x128 .f32) (b1 : Vec Ideal S1x128 .f32)
    (w2 : Vec Ideal S128x128 .f32) (b2 : Vec Ideal S1x128 .f32) (p : Fin 5000) (q : Fin 128) :
    k2_pay2 x0 x1 w1 b1 w2 b2 (ix2 p q)
      = Spec.mlp (Spec.cat2 (mat x0 p) (mat x1 p)) (mat w1) (row1 b1) (mat w2) (row1 b2) q := by
  unfold k2_pay2
  refine (denseD_apply _ w2 b2 p q).trans ?_
  unfold Spec.mlp
  refine congrArg (fun g => Spec.lin g (mat w2) (row1 b2) q) (funext fun h => ?_)
  refine (silu_apply _ _).trans (congrArg Spec.silu ?_)
  refine (denseW_apply _ w1 b1 p h).trans ?_
  refine congrArg (fun g => Spec.lin g (mat w1) (row1 b1) h) (funext fun j => ?_)
  refine (cat128_apply _ _ p j).trans ?_
  rw [shapeCast_self, shapeCast_self]

/-- The angle `2π · (t · B)` at an entry. -/
theorem angle_apply (t : Vec Ideal S5000x1 .f32) (B : Vec Ideal S1x64 .f32) (p : Fin 5000) (k : Fin 64) :
    mulf (broadcast S5000x64 (Scalar.ofBits (F := Ideal) .f32 0x40C90FDB#32))
        (mulf (broadcastTo S5000x64 t broadcasts_S5000x1_S5000x64) (broadcastTo S5000x64 B broadcasts_S1x64_S5000x64)) (ix2 p k)
      = Ideal.ofBits .f32 0x40C90FDB#32 * (t (ix2 p (0 : Fin 1)) * row1 B k) := by
  rw [mulf_apply, mulf_apply, tcol_apply, brow_apply]
  rfl

/-- The first layer of the time perceptron over the random Fourier features, row by row. -/
theorem pay3_apply (t : Vec Ideal S5000x1 .f32) (B : Vec Ideal S1x64 .f32) (w : Vec Ideal S128x128 .f32)
    (b : Vec Ideal S1x128 .f32) (p : Fin 5000) (q : Fin 128) :
    k2_pay3 t B w b (ix2 p q) = Spec.lin (Spec.rff (t (ix2 p (0 : Fin 1))) (row1 B)) (mat w) (row1 b) q := by
  unfold k2_pay3
  refine (denseD_apply _ w b p q).trans ?_
  refine congrArg (fun g => Spec.lin g (mat w) (row1 b) q) (funext fun j => ?_)
  refine (cat64_apply _ _ p j).trans ?_
  unfold Spec.rff
  refine congrArg₂ (fun g g' => Spec.cat64 g g' j) (funext fun k => ?_) (funext fun k => ?_)
  · exact congrArg Ideal.cos (angle_apply t B p k)
  · exact congrArg Ideal.sin (angle_apply t B p k)

/-- The stored value: the first perceptron plus the second layer of the time perceptron. -/
theorem pay1_apply (v18 v34 : FVec Ideal S5000x128 .f32) (w : Vec Ideal S128x128 .f32) (b : Vec Ideal S1x128 .f32)
    (p : Fin 5000) (q : Fin 128) :
    k2_pay1 v18 v34 w b (ix2 p q)
      = v18 (ix2 p q) + Spec.lin (fun h => Spec.silu (v34 (ix2 p h))) (mat w) (row1 b) q := by
  unfold k2_pay1
  rw [addf_apply]
  refine congrArg (v18 (ix2 p q) + ·) ?_
  refine (denseD_apply _ w b p q).trans ?_
  rfl

/-! ## The output block of one grid point -/

theorem hz : (![0, 0] : Fin 2 → Nat) = fun _ => 0 := funext fun a => by fin_cases a <;> rfl

/-- What the body leaves in the output block, entry by entry: the node update of the rows it read. -/
theorem out_apply (x0 x1 : Vec Ideal S5000x128 .f32) (x2 : Vec Ideal S5000x1 .f32) (x3 : Vec Ideal S256x128 .f32)
    (x4 : Vec Ideal S1x128 .f32) (x5 : Vec Ideal S128x128 .f32) (x6 : Vec Ideal S1x128 .f32) (x7 : Vec Ideal S1x64 .f32)
    (x8 : Vec Ideal S128x128 .f32) (x9 : Vec Ideal S1x128 .f32) (x10 : Vec Ideal S128x128 .f32) (x11 : Vec Ideal S1x128 .f32)
    (p : Fin 5000) (q : Fin 128) :
    out2_12 x0 x1 x2 x3 x4 x5 x6 x7 x8 x9 x10 x11 (ix2 p q)
      = Spec.upd (mat x0 p) (mat x1 p) (x2 (ix2 p (0 : Fin 1))) (row1 x7) (mat x3) (row1 x4) (mat x5) (row1 x6)
          (mat x8) (row1 x9) (mat x10) (row1 x11) q := by
  unfold out2_12
  rw [View.canon_unit_zero hz]
  simp only [View.ld_unit_zero (S := S5000x128) hz, View.ld_unit_zero (S := S256x128) hz, View.ld_unit_zero (S := S1x128) hz,
    View.ld_unit_zero (S := S128x128) hz, View.ld_unit_zero (S := S5000x1) hz, View.ld_unit_zero (S := S1x64) hz]
  refine (pay1_apply _ _ x10 x11 p q).trans ?_
  unfold Spec.upd
  refine congrArg₂ (· + ·) (pay2_apply x0 x1 x3 x4 x5 x6 p q) ?_
  unfold Spec.mlp
  exact congrArg (fun g => Spec.lin g (mat x10) (row1 x11) q)
    (funext fun h => congrArg Spec.silu (pay3_apply x2 x7 x8 x9 p h))

/-! ## The windows' blocks read off the arrays

The windows' index maps at the five grid points: the three row-blocked inputs and the output move together, block
`t` at point `t`; the weights, biases and the projection row are whole at every point. -/

theorem point_lt (t : Fin cfg2.N) : t.val < 5 := by
  have h := t.isLt
  have e : cfg2.N = 5 := N_2
  omega

theorem idx_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_12.index t (0 : Fin 2) = t.val ∧ win2_12.index t (1 : Fin 2) = 0 :=
  (by decide +kernel : ∀ t : Fin grid2.N, _)

theorem idx_whole : ∀ t : Fin cfg2.N,
    (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0) :=
  (by decide +kernel : ∀ t : Fin grid2.N, _)

/-- The row of the arrays that row `p` of point `t`'s blocks is. -/
def rowOf (t : Fin cfg2.N) (p : Fin 5000) : Fin 25000 := ⟨t.val * 5000 + p.val, by have := point_lt t; have := p.isLt; omega⟩

theorem blk0_row (c : Dev nD) (t : Fin cfg2.N) (p : Fin 5000) :
    mat (iblk2 V c 0 t : S5000x128.Idx → EReal) p = mat (V c main_v5 : S25000x128.Idx → EReal) (rowOf t p) := by
  funext k
  show (V c main_v5 : S25000x128.Idx → EReal) (((cfg2.win 0).blk t).view.emb (ix2 p k)) = _
  refine congrArg _ (funext fun a => Fin.ext ?_)
  obtain ⟨e0, e1, -⟩ := idx_rows t
  match a with
  | ⟨0, _⟩ => show win2_0.index t (0 : Fin 2) * 5000 + 1 * p.val = t.val * 5000 + p.val; omega
  | ⟨1, _⟩ => show win2_0.index t (1 : Fin 2) * 128 + 1 * k.val = k.val; omega

theorem blk1_row (c : Dev nD) (t : Fin cfg2.N) (p : Fin 5000) :
    mat (iblk2 V c 1 t : S5000x128.Idx → EReal) p = mat (V c main_v19 : S25000x128.Idx → EReal) (rowOf t p) := by
  funext k
  show (V c main_v19 : S25000x128.Idx → EReal) (((cfg2.win 1).blk t).view.emb (ix2 p k)) = _
  refine congrArg _ (funext fun a => Fin.ext ?_)
  obtain ⟨-, -, e0, e1, -⟩ := idx_rows t
  match a with
  | ⟨0, _⟩ => show win2_1.index t (0 : Fin 2) * 5000 + 1 * p.val = t.val * 5000 + p.val; omega
  | ⟨1, _⟩ => show win2_1.index t (1 : Fin 2) * 128 + 1 * k.val = k.val; omega

theorem blk2_row (c : Dev nD) (t : Fin cfg2.N) (p : Fin 5000) :
    (iblk2 V c 2 t : S5000x1.Idx → EReal) (ix2 p (0 : Fin 1))
      = (V c main_arg4 : S25000x1.Idx → EReal) (ix2 (rowOf t p) (0 : Fin 1)) := by
  show (V c main_arg4 : S25000x1.Idx → EReal) (((cfg2.win 2).blk t).view.emb (ix2 p (0 : Fin 1))) = _
  refine congrArg _ (funext fun a => Fin.ext ?_)
  obtain ⟨-, -, -, -, e0, e1, -⟩ := idx_rows t
  match a with
  | ⟨0, _⟩ => show win2_2.index t (0 : Fin 2) * 5000 + 1 * p.val = t.val * 5000 + p.val; omega
  | ⟨1, _⟩ => show win2_2.index t (1 : Fin 2) * 1 + 1 * 0 = 0; omega

theorem blk3_whole (c : Dev nD) (t : Fin cfg2.N) :
    (iblk2 V c 3 t : S256x128.Idx → EReal) = (V c main_arg15 : S256x128.Idx → EReal) := by
  funext y
  show (V c main_arg15 : S256x128.Idx → EReal) (((cfg2.win 3).blk t).view.emb y) = _
  refine congrArg _ (funext fun a => Fin.ext ?_)
  obtain ⟨⟨e0, e1⟩, -⟩ := idx_whole t
  match a with
  | ⟨0, _⟩ => show win2_3.index t (0 : Fin 2) * 256 + 1 * (y 0).val = (y 0).val; omega
  | ⟨1, _⟩ => show win2_3.index t (1 : Fin 2) * 128 + 1 * (y 1).val = (y 1).val; omega

theorem blk4_whole (c : Dev nD) (t : Fin cfg2.N) :
    (iblk2 V c 4 t : S1x128.Idx → EReal) = (V c main_v23 : S1x128.Idx → EReal) := by
  funext y
  show (V c main_v23 : S1x128.Idx → EReal) (((cfg2.win 4).blk t).view.emb y) = _
  refine congrArg _ (funext fun a => Fin.ext ?_)
  obtain ⟨-, ⟨e0, e1⟩, -⟩ := idx_whole t
  match a with
  | ⟨0, _⟩ => show win2_4.index t (0 : Fin 2) * 1 + 1 * (y 0).val = (y 0).val; omega
  | ⟨1, _⟩ => show win2_4.index t (1 : Fin 2) * 128 + 1 * (y 1).val = (y 1).val; omega

theorem blk5_whole (c : Dev nD) (t : Fin cfg2.N) :
    (iblk2 V c 5 t : S128x128.Idx → EReal) = (V c main_arg17 : S128x128.Idx → EReal) := by
  funext y
  show (V c main_arg17 : S128x128.Idx → EReal) (((cfg2.win 5).blk t).view.emb y) = _
  refine congrArg _ (funext fun a => Fin.ext ?_)
  obtain ⟨-, -, ⟨e0, e1⟩, -⟩ := idx_whole t
  match a with
  | ⟨0, _⟩ => show win2_5.index t (0 : Fin 2) * 128 + 1 * (y 0).val = (y 0).val; omega
  | ⟨1, _⟩ => show win2_5.index t (1 : Fin 2) * 128 + 1 * (y 1).val = (y 1).val; omega

theorem blk6_whole (c : Dev nD) (t : Fin cfg2.N) :
    (iblk2 V c 6 t : S1x128.Idx → EReal) = (V c main_v24 : S1x128.Idx → EReal) := by
  funext y
  show (V c main_v24 : S1x128.Idx → EReal) (((cfg2.win 6).blk t).view.emb y) = _
  refine congrArg _ (funext fun a => Fin.ext ?_)
  obtain ⟨-, -, -, ⟨e0, e1⟩, -⟩ := idx_whole t
  match a with
  | ⟨0, _⟩ => show win2_6.index t (0 : Fin 2) * 1 + 1 * (y 0).val = (y 0).val; omega
  | ⟨1, _⟩ => show win2_6.index t (1 : Fin 2) * 128 + 1 * (y 1).val = (y 1).val; omega

theorem blk7_whole (c : Dev nD) (t : Fin cfg2.N) :
    (iblk2 V c 7 t : S1x64.Idx → EReal) = (V c main_arg23 : S1x64.Idx → EReal) := by
  funext y
  show (V c main_arg23 : S1x64.Idx → EReal) (((cfg2.win 7).blk t).view.emb y) = _
  refine congrArg _ (funext fun a => Fin.ext ?_)
  obtain ⟨-, -, -, -, ⟨e0, e1⟩, -⟩ := idx_whole t
  match a with
  | ⟨0, _⟩ => show win2_7.index t (0 : Fin 2) * 1 + 1 * (y 0).val = (y 0).val; omega
  | ⟨1, _⟩ => show win2_7.index t (1 : Fin 2) * 64 + 1 * (y 1).val = (y 1).val; omega

theorem blk8_whole (c : Dev nD) (t : Fin cfg2.N) :
    (iblk2 V c 8 t : S128x128.Idx → EReal) = (V c main_arg24 : S128x128.Idx → EReal) := by
  funext y
  show (V c main_arg24 : S128x128.Idx → EReal) (((cfg2.win 8).blk t).view.emb y) = _
  refine congrArg _ (funext fun a => Fin.ext ?_)
  obtain ⟨-, -, -, -, -, ⟨e0, e1⟩, -⟩ := idx_whole t
  match a with
  | ⟨0, _⟩ => show win2_8.index t (0 : Fin 2) * 128 + 1 * (y 0).val = (y 0).val; omega
  | ⟨1, _⟩ => show win2_8.index t (1 : Fin 2) * 128 + 1 * (y 1).val = (y 1).val; omega

theorem blk9_whole (c : Dev nD) (t : Fin cfg2.N) :
    (iblk2 V c 9 t : S1x128.Idx → EReal) = (V c main_v25 : S1x128.Idx → EReal) := by
  funext y
  show (V c main_v25 : S1x128.Idx → EReal) (((cfg2.win 9).blk t).view.emb y) = _
  refine congrArg _ (funext fun a => Fin.ext ?_)
  obtain ⟨-, -, -, -, -, -, ⟨e0, e1⟩, -⟩ := idx_whole t
  match a with
  | ⟨0, _⟩ => show win2_9.index t (0 : Fin 2) * 1 + 1 * (y 0).val = (y 0).val; omega
  | ⟨1, _⟩ => show win2_9.index t (1 : Fin 2) * 128 + 1 * (y 1).val = (y 1).val; omega

theorem blk10_whole (c : Dev nD) (t : Fin cfg2.N) :
    (iblk2 V c 10 t : S128x128.Idx → EReal) = (V c main_arg26 : S128x128.Idx → EReal) := by
  funext y
  show (V c main_arg26 : S128x128.Idx → EReal) (((cfg2.win 10).blk t).view.emb y) = _
  refine congrArg _ (funext fun a => Fin.ext ?_)
  obtain ⟨-, -, -, -, -, -, -, ⟨e0, e1⟩, -⟩ := idx_whole t
  match a with
  | ⟨0, _⟩ => show win2_10.index t (0 : Fin 2) * 128 + 1 * (y 0).val = (y 0).val; omega
  | ⟨1, _⟩ => show win2_10.index t (1 : Fin 2) * 128 + 1 * (y 1).val = (y 1).val; omega

theorem blk11_whole (c : Dev nD) (t : Fin cfg2.N) :
    (iblk2 V c 11 t : S1x128.Idx → EReal) = (V c main_v26 : S1x128.Idx → EReal) := by
  funext y
  show (V c main_v26 : S1x128.Idx → EReal) (((cfg2.win 11).blk t).view.emb y) = _
  refine congrArg _ (funext fun a => Fin.ext ?_)
  obtain ⟨-, -, -, -, -, -, -, -, e0, e1⟩ := idx_whole t
  match a with
  | ⟨0, _⟩ => show win2_11.index t (0 : Fin 2) * 1 + 1 * (y 0).val = (y 0).val; omega
  | ⟨1, _⟩ => show win2_11.index t (1 : Fin 2) * 128 + 1 * (y 1).val = (y 1).val; omega

/-! ## From the blocks to the array -/

/-- The node update of the whole arrays, entry by entry. -/
def updArr (c : Dev nD) : S25000x128.Idx → EReal := fun i =>
  Spec.upd (mat (V c main_v5 : S25000x128.Idx → EReal) ⟨(i 0).val, idx2_lt0 i⟩)
    (mat (V c main_v19 : S25000x128.Idx → EReal) ⟨(i 0).val, idx2_lt0 i⟩)
    ((V c main_arg4 : S25000x1.Idx → EReal) (ix2 (⟨(i 0).val, idx2_lt0 i⟩ : Fin 25000) (0 : Fin 1)))
    (row1 (V c main_arg23 : S1x64.Idx → EReal))
    (mat (V c main_arg15 : S256x128.Idx → EReal)) (row1 (V c main_v23 : S1x128.Idx → EReal))
    (mat (V c main_arg17 : S128x128.Idx → EReal)) (row1 (V c main_v24 : S1x128.Idx → EReal))
    (mat (V c main_arg24 : S128x128.Idx → EReal)) (row1 (V c main_v25 : S1x128.Idx → EReal))
    (mat (V c main_arg26 : S128x128.Idx → EReal)) (row1 (V c main_v26 : S1x128.Idx → EReal))
    ⟨(i 1).val, idx2_lt1 i⟩

/-- Entry `(p, q)` of the block point `t` leaves is entry `(t · 5000 + p, q)` of the node update of the arrays. -/
theorem blk_entry (c : Dev nD) (t : Fin cfg2.N) (p : Fin 5000) (q : Fin 128) :
    out2_12 (iblk2 V c 0 t) (iblk2 V c 1 t) (iblk2 V c 2 t) (iblk2 V c 3 t) (iblk2 V c 4 t) (iblk2 V c 5 t) (iblk2 V c 6 t)
        (iblk2 V c 7 t) (iblk2 V c 8 t) (iblk2 V c 9 t) (iblk2 V c 10 t) (iblk2 V c 11 t) (ix2 p q)
      = updArr V c (ix2 (rowOf t p) q) := by
  refine (out_apply (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t) (iblk2 V c 11 t) p q).trans ?_
  rw [blk0_row V c t p, blk1_row V c t p, blk2_row V c t p, blk3_whole V c t, blk4_whole V c t, blk5_whole V c t,
    blk6_whole V c t, blk7_whole V c t, blk8_whole V c t, blk9_whole V c t, blk10_whole V c t, blk11_whole V c t]
  rfl

/-- What point `t` writes back is block `t` of the node update of the arrays. -/
theorem flushed_eq (c : Dev nD) (t : Fin cfg2.N) :
    (dat2 V c).flushed 12 t = ((cfg2.win 12).blk t).view.read (Elt Ideal) (updArr V c) := by
  show (cfg2.win 12).cut (grid2.coords t) ((dat2 V c).after 12 t) = _
  rw [after2_12]
  funext j
  show out2_12 (iblk2 V c 0 t) (iblk2 V c 1 t) (iblk2 V c 2 t) (iblk2 V c 3 t) (iblk2 V c 4 t) (iblk2 V c 5 t) (iblk2 V c 6 t)
        (iblk2 V c 7 t) (iblk2 V c 8 t) (iblk2 V c 9 t) (iblk2 V c 10 t) (iblk2 V c 11 t) j
      = updArr V c (((cfg2.win 12).blk t).view.emb j)
  have hj : j = ix2 (j 0) (j 1) := eq_ix2 j
  have he : ((cfg2.win 12).blk t).view.emb j = ix2 (rowOf t (j 0)) (j 1) := by
    funext a; apply Fin.ext
    obtain ⟨-, -, -, -, -, -, e0, e1⟩ := idx_rows t
    match a with
    | ⟨0, _⟩ => show win2_12.index t (0 : Fin 2) * 5000 + 1 * (j 0).val = t.val * 5000 + (j 0).val; omega
    | ⟨1, _⟩ => show win2_12.index t (1 : Fin 2) * 128 + 1 * (j 1).val = (j 1).val; omega
  exact ((congrArg (out2_12 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (iblk2 V c 10 t) (iblk2 V c 11 t)) hj).trans
    (blk_entry V c t (j 0) (j 1))).trans (congrArg (updArr V c) he.symm)

/-- An index of the array is in point `t`'s block iff each coordinate is in the block's range on its axis. -/
theorem mem_blk (t : Fin cfg2.N) (i : S25000x128.Idx) :
    i ∈ ((cfg2.win 12).blk t).view.set ↔ ∀ a : Fin 2, win2_12.index t a * S5000x128.size a ≤ (i a).val ∧ (i a).val < win2_12.index t a * S5000x128.size a + S5000x128.size a := by
  show i ∈ ((View.whole main_v27).slice (win2_12.rect t)).set ↔ _
  rw [View.set_slice_whole, Rect.mem_set_unit]
  exact Iff.rfl

/-- The five blocks of 5000 rows tile the 25000 rows: row `r` is in block `r / 5000`. -/
theorem covered (i : S25000x128.Idx) :
    ∃ t : Fin cfg2.N, (cfg2.win 12).flush t = true ∧ i ∈ ((cfg2.win 12).blk t).view.set := by
  have hi0 : (i 0).val < 25000 := (i 0).isLt
  have hi1 : (i 1).val < 128 := (i 1).isLt
  have hN : cfg2.N = 5 := N_2
  have ht : (i 0).val / 5000 < cfg2.N := by omega
  obtain ⟨-, -, -, -, -, -, e0, e1⟩ := idx_rows ⟨(i 0).val / 5000, ht⟩
  refine ⟨⟨(i 0).val / 5000, ht⟩, flush2_12 _, ?_⟩
  rw [mem_blk]
  intro a
  match a with
  | ⟨0, _⟩ =>
    show win2_12.index ⟨(i 0).val / 5000, ht⟩ (0 : Fin 2) * 5000 ≤ (i 0).val ∧ (i 0).val < win2_12.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_12.index ⟨(i 0).val / 5000, ht⟩ (1 : Fin 2) * 128 ≤ (i 1).val ∧ (i 1).val < win2_12.index ⟨(i 0).val / 5000, ht⟩ (1 : Fin 2) * 128 + 128
    omega

/-- The array after the third pallas_call is the node update of the arrays. -/
theorem arr_eq (c : Dev nD) : (dat2 V c).arrAt 12 cfg2.N = updArr V c :=
  (dat2 V c).arrAt_eq_of_cover 12 (updArr V c) (fun t _ => flushed_eq V c t) covered

/-- The node update: after the third pallas_call, row `n` of its output array is the update of row `n` of the
    embedding, row `n` of the aggregated messages and node `n`'s time (blocks of 5000 rows tile the 25000 rows). -/
theorem region2 (c : Dev nD) (n : Fin 25000) (q : Fin 128) :
    ((dat2 (F := Ideal) V c).arrAt 12 cfg2.N : S25000x128.Idx → EReal) (ix2 n q)
      = Spec.upd (mat (V c main_v5 : S25000x128.Idx → EReal) n) (mat (V c main_v19 : S25000x128.Idx → EReal) n)
          ((V c main_arg4 : S25000x1.Idx → EReal) (ix2 n (0 : Fin 1))) (row1 (V c main_arg23 : S1x64.Idx → EReal))
          (mat (V c main_arg15 : S256x128.Idx → EReal)) (row1 (V c main_v23 : S1x128.Idx → EReal))
          (mat (V c main_arg17 : S128x128.Idx → EReal)) (row1 (V c main_v24 : S1x128.Idx → EReal))
          (mat (V c main_arg24 : S128x128.Idx → EReal)) (row1 (V c main_v25 : S1x128.Idx → EReal))
          (mat (V c main_arg26 : S128x128.Idx → EReal)) (row1 (V c main_v26 : S1x128.Idx → EReal)) q := by
  rw [arr_eq V c]
  rfl

end Cert.KernelIdeal.Val

end
-- ==== Proof.HostDefs.lean ====
/-
  Names shared by the two modules that read the kernel program's host operations: the edge index as launched, the
  range every entry of it lies in under the precondition, and the node embedding array the first pallas_call leaves.
-/
import proofs.«425565_j41283225649648_3_alg».proof.Proof.Gen.KernelIdeal.Frame
import proofs.«425565_j41283225649648_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
namespace Cert.KernelIdeal.Host

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The edge index as launched. -/
abbrev A1 (c : Dev nD) : S2x400000.Idx → BitVec 32 := m ((c : Thread nD τ).loc main_arg1)
/-- Every entry of the edge index is in `[-25000, 25000)`. -/
abbrev InRange : Prop := ∀ (c : Dev nD) (p : S2x400000.Idx), -25000 ≤ (A1 m c p).toInt ∧ (A1 m c p).toInt < 25000
/-- The node embedding array as the first pallas_call leaves it. -/
abbrev Farr (c : Dev nD) : S25000x128.Idx → EReal := (dat0 (F := Ideal) (V1 m ρ) c).arrAt 3 cfg0.N

end Cert.KernelIdeal.Host

end
-- ==== Proof.HostA.lean ====
/-
  What the kernel program's host operations leave in the arrays the first two pallas_calls read. Before the first
  call: the arguments as launched and the bias reshaped to a `1 × 128` row. Before the second: the two gathered
  arrays — each a gather of the embedding's rows at a column of wrapped indices, followed by a select that would fill
  a row whose index is outside `[0, 24999]`; with every entry of the edge index in `[-25000, 25000)` the wrapped index
  is always inside, the mask is all ones and the select is the gather —, the arguments as launched, the biases as rows,
  and the two first-layer weights and biases joined side by side into one `384 × 256` weight and one `1 × 256` row.
-/
import proofs.«425565_j41283225649648_3_alg».proof.Proof.Gen.KernelIdeal.Frame
import proofs.«425565_j41283225649648_3_alg».proof.Proof.Spec
import proofs.«425565_j41283225649648_3_alg».proof.Proof.HostDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
namespace Cert.KernelIdeal.Host

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo

variable (m : (ℓ : Loc nD τ sig) → Buf (Elt Ideal) ℓ) (ρ : Dev nD → PrngReg)

/-! ## Buffers a host stretch leaves alone -/

/-- A singleton of a listed reference lies in the list's image. -/
private theorem single_sub_list {W : List (Ref sig .tc)} {y : Ref sig .tc} (hy : y ∈ W) :
    ({Proc.devRef (τ := τ) .tc y} : Finset (DevRef τ sig)) ⊆ (W.map (Proc.devRef (τ := τ) .tc)).toFinset := by
  intro d hd
  rw [Finset.mem_singleton] at hd
  subst hd
  exact List.mem_toFinset.mpr (List.mem_map.mpr ⟨y, hy, rfl⟩)

/-- What the stretch before the first pallas_call writes. -/
private abbrev L0 : List (Ref sig .tc) := [main_v0, main_v1, main_v2, main_v3, main_v4]
/-- What the first gather's stretch writes. -/
private abbrev L1 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v6]
/-- What the second gather's stretch writes. -/
private abbrev L11 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v7]
/-- What the stretch of concatenates and reshapes before the second pallas_call writes. -/
private abbrev L12 : List (Ref sig .tc) := [main_v8, main_v9, main_v10, main_v11, main_v12, main_v13, main_v14]

private theorem keep0 (X : Valuation τ sig (Elt Ideal)) (r : Ref sig .tc) (hr : r ∉ L0) :
    StableHlo.after (hostOps0 (F := Ideal)) X (Proc.devRef .tc r) = X (Proc.devRef .tc r) := by
  refine StableHlo.after_of_writes_sub (W := L0) hostOps0 X ?_ hr
  simp only [hostOps0, List.Forall, StableHlo.unary_writes, StableHlo.reshape_writes]
  repeat' apply And.intro
  all_goals exact single_sub_list (by decide)

private theorem keep1 (X : Valuation τ sig (Elt Ideal)) (r : Ref sig .tc) (hr : r ∉ L1) :
    StableHlo.after (hostOps1 (F := Ideal)) X (Proc.devRef .tc r) = X (Proc.devRef .tc r) := by
  refine StableHlo.after_of_writes_sub (W := L1) hostOps1 X ?_ hr
  simp only [hostOps1, List.Forall, StableHlo.nullary_writes, StableHlo.unary_writes, StableHlo.binary_writes,
    StableHlo.ternary_writes]
  repeat' apply And.intro
  all_goals exact single_sub_list (by decide)

private theorem keep11 (X : Valuation τ sig (Elt Ideal)) (r : Ref sig .tc) (hr : r ∉ L11) :
    StableHlo.after (hostOps1_1 (F := Ideal)) X (Proc.devRef .tc r) = X (Proc.devRef .tc r) := by
  refine StableHlo.after_of_writes_sub (W := L11) hostOps1_1 X ?_ hr
  simp only [hostOps1_1, List.Forall, StableHlo.nullary_writes, StableHlo.unary_writes, StableHlo.binary_writes,
    StableHlo.ternary_writes]
  repeat' apply And.intro
  all_goals exact single_sub_list (by decide)

private theorem keep12 (X : Valuation τ sig (Elt Ideal)) (r : Ref sig .tc) (hr : r ∉ L12) :
    StableHlo.after (hostOps1_2 (F := Ideal)) X (Proc.devRef .tc r) = X (Proc.devRef .tc r) := by
  refine StableHlo.after_of_writes_sub (W := L12) hostOps1_2 X ?_ hr
  simp only [hostOps1_2, List.Forall, StableHlo.binary_writes, StableHlo.reshape_writes]
  repeat' apply And.intro
  all_goals exact single_sub_list (by decide)

/-- A buffer the first stretch does not write holds at the first pallas_call's entry what it held at launch. -/
private theorem W1_keep (c : Dev nD) (r : Ref sig .tc) (hr : r ∉ L0) :
    W1 m ρ c (Proc.devRef .tc r) = m ((c : Thread nD τ).loc r) :=
  (keep0 (W0 m ρ c) r hr).trans rfl

/-- A buffer that neither gather's stretch writes and that is no array of the first pallas_call holds after the two
    gathers what it held at launch. -/
private theorem W4_keep (c : Dev nD) (r : Ref sig .tc) (h11 : r ∉ L11) (h1 : r ∉ L1)
    (hs : ∀ w, Pipeline.arrRef spec0 w ≠ r) (h0 : r ∉ L0) :
    W4 m ρ c (Proc.devRef .tc r) = m ((c : Thread nD τ).loc r) :=
  calc W4 m ρ c (Proc.devRef .tc r)
    _ = W3 m ρ c (Proc.devRef .tc r) := keep11 (W3 m ρ c) r h11
    _ = W2 m ρ c (Proc.devRef .tc r) := keep1 (W2 m ρ c) r h1
    _ = W1 m ρ c (Proc.devRef .tc r) := W2_of_ne m ρ c r hs
    _ = m ((c : Thread nD τ).loc r) := W1_keep m ρ c r h0

/-- The same at the second pallas_call's entry, for a buffer the last stretch does not write either. -/
private theorem W5_keep (c : Dev nD) (r : Ref sig .tc) (h12 : r ∉ L12) (h11 : r ∉ L11) (h1 : r ∉ L1)
    (hs : ∀ w, Pipeline.arrRef spec0 w ≠ r) (h0 : r ∉ L0) :
    W5 m ρ c (Proc.devRef .tc r) = m ((c : Thread nD τ).loc r) :=
  (keep12 (W4 m ρ c) r h12).trans (W4_keep m ρ c r h11 h1 hs h0)

/-! ## The first pallas_call's windows at its entry -/

theorem V1_arg0 (c : Dev nD) : (V1 m ρ c main_arg0 : S25000x100.Idx → EReal) = m ((c : Thread nD τ).loc main_arg0) :=
  W1_keep m ρ c main_arg0 (by decide)
theorem V1_arg5 (c : Dev nD) : (V1 m ρ c main_arg5 : S100x128.Idx → EReal) = m ((c : Thread nD τ).loc main_arg5) :=
  W1_keep m ρ c main_arg5 (by decide)
/-- The bias kept as a `1 × 128` row. -/
theorem V1_v4 (c : Dev nD) (q : Fin 128) :
    (V1 m ρ c main_v4 : S1x128.Idx → EReal) (ix2 (0 : Fin 1) q) = (m ((c : Thread nD τ).loc main_arg6) : S128.Idx → EReal) (ix1 q) := by
  have e : ∀ X : Valuation τ sig (Elt Ideal), (StableHlo.after (hostOps0 (F := Ideal)) X (Proc.devRef .tc main_v4) : S1x128.Idx → EReal)
      = shapeCast S1x128 (X (Proc.devRef .tc main_arg6) : S128.Idx → EReal) shapeCasts_S128_S1x128 := by
    intro X
    dsimp only [hostOps0]
    after_results
    rfl
  show (StableHlo.after (hostOps0 (F := Ideal)) (W0 m ρ c) (Proc.devRef .tc main_v4) : S1x128.Idx → EReal) (ix2 (0 : Fin 1) q) = _
  rw [e]
  exact shapeCast_a_1a_apply _ _ 0 q

/-! ## The last host stretch before the second pallas_call, over any earlier contents -/

section Ops12
variable (X : Valuation τ sig (Elt Ideal))

private theorem ops12_v10 : (StableHlo.after (hostOps1_2 (F := Ideal)) X (Proc.devRef .tc main_v10) : S1x128.Idx → EReal)
    = shapeCast S1x128 (X (Proc.devRef .tc main_arg8) : S128.Idx → EReal) shapeCasts_S128_S1x128 := by
  dsimp only [hostOps1_2]; after_results <;> rfl
private theorem ops12_v11 : (StableHlo.after (hostOps1_2 (F := Ideal)) X (Proc.devRef .tc main_v11) : S1x128.Idx → EReal)
    = shapeCast S1x128 (X (Proc.devRef .tc main_arg10) : S128.Idx → EReal) shapeCasts_S128_S1x128 := by
  dsimp only [hostOps1_2]; after_results <;> rfl
private theorem ops12_v13 : (StableHlo.after (hostOps1_2 (F := Ideal)) X (Proc.devRef .tc main_v13) : S1x128.Idx → EReal)
    = shapeCast S1x128 (X (Proc.devRef .tc main_arg14) : S128.Idx → EReal) shapeCasts_S128_S1x128 := by
  dsimp only [hostOps1_2]; after_results <;> rfl
private theorem ops12_v14 : (StableHlo.after (hostOps1_2 (F := Ideal)) X (Proc.devRef .tc main_v14) : S1x128.Idx → EReal)
    = shapeCast S1x128 (X (Proc.devRef .tc main_arg22) : S128.Idx → EReal) shapeCasts_S128_S1x128 := by
  dsimp only [hostOps1_2]; after_results <;> rfl
private theorem ops12_v8 : (StableHlo.after (hostOps1_2 (F := Ideal)) X (Proc.devRef .tc main_v8) : S384x256.Idx → EReal)
    = concatenate S384x256 1 [⟨S384x128, (X (Proc.devRef .tc main_arg11) : S384x128.Idx → EReal)⟩,
        ⟨S384x128, (X (Proc.devRef .tc main_arg19) : S384x128.Idx → EReal)⟩] concatenates_S384x128_S384x128_S384x256_d1 := by
  dsimp only [hostOps1_2]; after_results <;> rfl
private theorem ops12_v12 : (StableHlo.after (hostOps1_2 (F := Ideal)) X (Proc.devRef .tc main_v12) : S1x256.Idx → EReal)
    = shapeCast S1x256 (concatenate S256 0 [⟨S128, (X (Proc.devRef .tc main_arg12) : S128.Idx → EReal)⟩,
        ⟨S128, (X (Proc.devRef .tc main_arg20) : S128.Idx → EReal)⟩] concatenates_S128_S128_S256_d0) shapeCasts_S256_S1x256 := by
  dsimp only [hostOps1_2]; after_results <;> rfl

end Ops12

/-! ## jnp's `take` of rows, as the program prints it

The flat index vector has its negative entries wrapped once by the number of nodes and is made a column; the mask says,
per edge, that the column's entry is in `[0, 24999]`; the result is the gather of the table's rows at the column where
the mask holds and the fill elsewhere. -/

/-- The start-index column: the flat index vector, a negative entry wrapped once, as a column. -/
private def takeCol (v : S400000.Idx → BitVec 32) : S400000x1.Idx → BitVec 32 :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 25000#32))) v)

/-- The in-bounds mask, per edge. -/
private def takeMask (col : S400000x1.Idx → BitVec 32) : S400000.Idx → BitVec 1 :=
  Host.reduce IntOp.andi
    (andi (cmpi .sge col (broadcastInDim S400000x1 ![] bcast_S_S400000x1 (constantI S_ 32 0#32)))
      (cmpi .sle col (broadcastInDim S400000x1 ![0, 1] bcast_S1x1_S400000x1_0_1
        (broadcastInDim S1x1 ![1] bcast_S1_S1x1_1 (constantI S1 32 24999#32)))))
    (constantI S_ 1 1#1) reducesTo_S400000x1_S400000_d1 h_S_

/-- The rows of `f` at the column where the mask holds, the fill elsewhere. -/
private def takeFill (f : S25000x128.Idx → EReal) (v : S400000.Idx → BitVec 32) : S400000x128.Idx → EReal :=
  select (broadcastInDim S400000x128 ![0] bcast_S400000_S400000x128_0 (takeMask (takeCol v)))
    (Host.gather gather_S25000x128_S400000x1_S400000x128_1_0_n_n_0_1_1128 f (takeCol v))
    (broadcastInDim S400000x128 ![] bcast_S_S400000x128 (constant (F := Ideal) S_ .f32 0x7FC00000#32))

/-- Contents moved to a typed reference's buffer type and back are themselves. -/
private theorem ofBuf_toBuf {T : BufTy} (x : TRef sig T) (v : T.Contents (Elt Ideal)) : x.ofBuf (x.toBuf v) = v := by
  obtain ⟨r, rfl, _, _⟩ := x
  rfl
/-- The two gathered arrays' buffers have the arrays' own type: contents move there by the identity. -/
private theorem toBuf_v6 (w : (⟨S400000x128, .f32⟩ : BufTy).Contents (Elt Ideal)) :
    (TRef.of (sig := sig) (T := ⟨S400000x128, .f32⟩) main_v6).toBuf w = w := rfl
private theorem toBuf_v7 (w : (⟨S400000x128, .f32⟩ : BufTy).Contents (Elt Ideal)) :
    (TRef.of (sig := sig) (T := ⟨S400000x128, .f32⟩) main_v7).toBuf w = w := rfl

set_option maxHeartbeats 800000 in
/-- The first gather's stretch leaves at its result the `take` of the table `f` it finds at the embedding's buffer, at
    the flat index vector `v` it finds at row 0's buffer. -/
private theorem ops1_v6 (X : Valuation τ sig (Elt Ideal)) (v : S400000.Idx → BitVec 32) (f : S25000x128.Idx → EReal)
    (hv : X (Proc.devRef .tc main_v1) = (TRef.of (sig := sig) (T := ⟨S400000, .i32⟩) main_v1).toBuf v)
    (hf : X (Proc.devRef .tc main_v5) = (TRef.of (sig := sig) (T := ⟨S25000x128, .f32⟩) main_v5).toBuf f) :
    (StableHlo.after (hostOps1 (F := Ideal)) X (Proc.devRef .tc main_v6) : S400000x128.Idx → EReal) = takeFill f v := by
  have e : StableHlo.after (hostOps1 (F := Ideal)) X (Proc.devRef .tc main_v6)
      = (TRef.of (sig := sig) (T := ⟨S400000x128, .f32⟩) main_v6).toBuf (takeFill f v) := by
    dsimp only [hostOps1]
    after_results
    simp only [ofBuf_toBuf]
    rw [hv, hf]
    simp only [ofBuf_toBuf]
    rfl
  exact e.trans (toBuf_v6 _)

set_option maxHeartbeats 800000 in
/-- The second gather's stretch does the same at row 1's buffer. -/
private theorem ops11_v7 (X : Valuation τ sig (Elt Ideal)) (v : S400000.Idx → BitVec 32) (f : S25000x128.Idx → EReal)
    (hv : X (Proc.devRef .tc main_v3) = (TRef.of (sig := sig) (T := ⟨S400000, .i32⟩) main_v3).toBuf v)
    (hf : X (Proc.devRef .tc main_v5) = (TRef.of (sig := sig) (T := ⟨S25000x128, .f32⟩) main_v5).toBuf f) :
    (StableHlo.after (hostOps1_1 (F := Ideal)) X (Proc.devRef .tc main_v7) : S400000x128.Idx → EReal) = takeFill f v := by
  have e : StableHlo.after (hostOps1_1 (F := Ideal)) X (Proc.devRef .tc main_v7)
      = (TRef.of (sig := sig) (T := ⟨S400000x128, .f32⟩) main_v7).toBuf (takeFill f v) := by
    dsimp only [hostOps1_1]
    after_results
    simp only [ofBuf_toBuf]
    rw [hv, hf]
    simp only [ofBuf_toBuf]
    rfl
  exact e.trans (toBuf_v7 _)

/-! ### In range the mask is all ones and the `take` is the gather -/

/-- A fold by `and` from 1 over words that are all 1 is 1. -/
private theorem foldl_andi_one {ι : Type} (g : ι → BitVec 1) :
    ∀ l : List ι, (∀ n ∈ l, g n = 1#1) → l.foldl (fun r n => IntOp.andi r (g n)) 1#1 = 1#1
  | [], _ => rfl
  | a :: l, h => by
    have e : IntOp.andi (1#1 : BitVec 1) 1#1 = 1#1 := by decide
    rw [List.foldl_cons, h a List.mem_cons_self, e]
    exact foldl_andi_one g l fun n hn => h n (List.mem_cons_of_mem _ hn)

/-- The column's entry for edge `p` is the wrapped entry of the flat index vector. -/
private theorem takeCol_apply (v : S400000.Idx → BitVec 32) (p : S400000x1.Idx) :
    takeCol v p = Spec.wrap (v (ix1 (⟨(p 0).val, idx2_lt0 p⟩ : Fin 400000))) := by
  unfold takeCol
  refine (broadcastInDim_apply _ _ _ p (ix1 (⟨(p 0).val, idx2_lt0 p⟩ : Fin 400000)) ?_).trans rfl
  show ∀ a : Fin 1, _
  refine Fin.forall_fin_one.mpr ?_
  show (p 0).val = if (400000 : ℕ) = 1 then 0 else (p 0).val
  rw [if_neg (by decide)]

/-- With every entry of the column a row number, the mask holds at every edge. -/
private theorem takeMask_one (col : S400000x1.Idx → BitVec 32)
    (h : ∀ p, 0 ≤ (col p).toInt ∧ (col p).toInt ≤ 24999) (j : S400000.Idx) : takeMask col j = 1#1 := by
  have h0 : (0#32 : BitVec 32).toInt = 0 := by decide
  have h1 : (24999#32 : BitVec 32).toInt = 24999 := by decide
  unfold takeMask
  rw [Host.reduce_eq_foldl]
  refine foldl_andi_one _ _ fun i _ => ?_
  refine IntOp.andi_eq_one.mpr ⟨IntOp.cmpi_sge.mpr ?_, IntOp.cmpi_sle.mpr ?_⟩
  · show (0#32 : BitVec 32).toInt ≤ (col i).toInt
    rw [h0]; exact (h i).1
  · show (col i).toInt ≤ (24999#32 : BitVec 32).toInt
    rw [h1]; exact (h i).2

/-- With every entry of the column a row number, the fill never applies: the `take` is the gather of whole rows. -/
private theorem takeFill_eq (f : S25000x128.Idx → EReal) (v : S400000.Idx → BitVec 32)
    (h : ∀ p, 0 ≤ (takeCol v p).toInt ∧ (takeCol v p).toInt ≤ 24999) :
    takeFill f v = Spec.takeRows f (takeCol v) := by
  funext y
  have hm : broadcastInDim S400000x128 ![0] bcast_S400000_S400000x128_0 (takeMask (takeCol v)) y = 1#1 :=
    takeMask_one _ h _
  unfold takeFill
  rw [select_apply, hm, select_one]
  rfl

/-! ### The flat index rows and the two gathered arrays -/

/-- Row `s` of the edge index, sliced out and flattened, read at edge `e`. -/
private theorem flatRow_apply (a1 : S2x400000.Idx → BitVec 32) (s : Fin 2) (off : Fin 2 → Nat)
    (hs : S2x400000.Slices off S1x400000) (h0 : off 0 = s.val) (h1 : off 1 = 0) (e : Fin 400000) :
    shapeCast S400000 (extractStridedSlice S1x400000 off a1 hs) shapeCasts_S1x400000_S400000 (ix1 e) = a1 (ix2 s e) := by
  refine (shapeCast_apply _ _ (ix1 e) (ix2 (0 : Fin 1) e) ?_).trans
    (extractStridedSlice_apply off a1 hs (ix2 (0 : Fin 1) e) (ix2 s e) ?_)
  · rw [Shape.rowMajor_val_two, Shape.rowMajor_val_one]
    show 0 * 400000 + e.val = e.val
    omega
  · show ∀ a : Fin 2, _
    refine Fin.forall_fin_two.mpr ⟨?_, ?_⟩
    · show s.val = off 0 + 0
      omega
    · show e.val = off 1 + e.val
      omega

/-- The start-index column made from that flat row is the specification's column of wrapped indices. -/
private theorem takeCol_flatRow (a1 : S2x400000.Idx → BitVec 32) (s : Fin 2) (off : Fin 2 → Nat)
    (hs : S2x400000.Slices off S1x400000) (h0 : off 0 = s.val) (h1 : off 1 = 0) :
    takeCol (shapeCast S400000 (extractStridedSlice S1x400000 off a1 hs) shapeCasts_S1x400000_S400000) = Spec.icol a1 s := by
  funext p
  rw [takeCol_apply, flatRow_apply a1 s off hs h0 h1]
  rfl

/-- The first stretch leaves at the two flat index buffers rows 0 and 1 of what it finds at the edge index's buffer. -/
private theorem ops0_v1 (X : Valuation τ sig (Elt Ideal)) :
    (StableHlo.after (hostOps0 (F := Ideal)) X (Proc.devRef .tc main_v1) : S400000.Idx → BitVec 32)
      = shapeCast S400000 (extractStridedSlice S1x400000 ![0, 0] (X (Proc.devRef .tc main_arg1) : S2x400000.Idx → BitVec 32)
          slices_S2x400000_S1x400000_0_0) shapeCasts_S1x400000_S400000 := by
  dsimp only [hostOps0]; after_results <;> rfl
private theorem ops0_v3 (X : Valuation τ sig (Elt Ideal)) :
    (StableHlo.after (hostOps0 (F := Ideal)) X (Proc.devRef .tc main_v3) : S400000.Idx → BitVec 32)
      = shapeCast S400000 (extractStridedSlice S1x400000 ![1, 0] (X (Proc.devRef .tc main_arg1) : S2x400000.Idx → BitVec 32)
          slices_S2x400000_S1x400000_1_0) shapeCasts_S1x400000_S400000 := by
  dsimp only [hostOps0]; after_results <;> rfl

/-- Under the range hypothesis every entry of the specification's column is a row number. -/
private theorem icol_inb (hr : InRange m) (c : Dev nD) (s : Fin 2) (p : S400000x1.Idx) :
    0 ≤ (Spec.icol (A1 m c) s p).toInt ∧ (Spec.icol (A1 m c) s p).toInt ≤ 24999 :=
  Spec.wrap_inb _ (hr c _).1 (hr c _).2

/-! ## The second pallas_call's windows at its entry -/

/-- The first gathered array: with every index in range the fill of jnp's `take` never applies, and the array is the
    gather of the embedding's rows at the wrapped indices of row 0. -/
theorem V5_v6 (hr : InRange m) (c : Dev nD) :
    (V5 m ρ c main_v6 : S400000x128.Idx → EReal) = Spec.takeRows (Farr m ρ c) (Spec.icol (A1 m c) 0) := by
  -- the flat index vector and the table the gather's stretch finds
  have hv : (W2 m ρ c (Proc.devRef .tc main_v1) : S400000.Idx → BitVec 32)
      = shapeCast S400000 (extractStridedSlice S1x400000 ![0, 0] (A1 m c) slices_S2x400000_S1x400000_0_0)
          shapeCasts_S1x400000_S400000 :=
    (W2_of_ne m ρ c main_v1 (by decide)).trans (ops0_v1 (W0 m ρ c))
  have hf : W2 m ρ c (Proc.devRef .tc main_v5)
      = (TRef.of (sig := sig) (T := ⟨S25000x128, .f32⟩) main_v5).toBuf (Farr m ρ c) := by
    refine (W2_arr m ρ c 3).trans ?_
    rfl
  have hcol : takeCol (W2 m ρ c (Proc.devRef .tc main_v1) : S400000.Idx → BitVec 32) = Spec.icol (A1 m c) 0 := by
    rw [hv]; exact takeCol_flatRow (A1 m c) 0 _ _ rfl rfl
  have e := ops1_v6 (W2 m ρ c) (W2 m ρ c (Proc.devRef .tc main_v1) : S400000.Idx → BitVec 32) (Farr m ρ c) rfl hf
  refine ((keep12 (W4 m ρ c) main_v6 (by decide)).trans ((keep11 (W3 m ρ c) main_v6 (by decide)).trans e)).trans ?_
  rw [takeFill_eq _ _ (by rw [hcol]; exact icol_inb m hr c 0), hcol]
/-- The second, at row 1. -/
theorem V5_v7 (hr : InRange m) (c : Dev nD) :
    (V5 m ρ c main_v7 : S400000x128.Idx → EReal) = Spec.takeRows (Farr m ρ c) (Spec.icol (A1 m c) 1) := by
  have hv : (W3 m ρ c (Proc.devRef .tc main_v3) : S400000.Idx → BitVec 32)
      = shapeCast S400000 (extractStridedSlice S1x400000 ![1, 0] (A1 m c) slices_S2x400000_S1x400000_1_0)
          shapeCasts_S1x400000_S400000 :=
    (keep1 (W2 m ρ c) main_v3 (by decide)).trans ((W2_of_ne m ρ c main_v3 (by decide)).trans (ops0_v3 (W0 m ρ c)))
  have hf : W3 m ρ c (Proc.devRef .tc main_v5)
      = (TRef.of (sig := sig) (T := ⟨S25000x128, .f32⟩) main_v5).toBuf (Farr m ρ c) := by
    refine (keep1 (W2 m ρ c) main_v5 (by decide)).trans ((W2_arr m ρ c 3).trans ?_)
    rfl
  have hcol : takeCol (W3 m ρ c (Proc.devRef .tc main_v3) : S400000.Idx → BitVec 32) = Spec.icol (A1 m c) 1 := by
    rw [hv]; exact takeCol_flatRow (A1 m c) 1 _ _ rfl rfl
  have e := ops11_v7 (W3 m ρ c) (W3 m ρ c (Proc.devRef .tc main_v3) : S400000.Idx → BitVec 32) (Farr m ρ c) rfl hf
  refine ((keep12 (W4 m ρ c) main_v7 (by decide)).trans e).trans ?_
  rw [takeFill_eq _ _ (by rw [hcol]; exact icol_inb m hr c 1), hcol]
theorem V5_arg2 (c : Dev nD) : (V5 m ρ c main_arg2 : S400000x120.Idx → EReal) = m ((c : Thread nD τ).loc main_arg2) :=
  W5_keep m ρ c main_arg2 (by decide) (by decide) (by decide) (by decide) (by decide)
theorem V5_arg3 (c : Dev nD) : (V5 m ρ c main_arg3 : S400000x3.Idx → EReal) = m ((c : Thread nD τ).loc main_arg3) :=
  W5_keep m ρ c main_arg3 (by decide) (by decide) (by decide) (by decide) (by decide)
theorem V5_arg7 (c : Dev nD) : (V5 m ρ c main_arg7 : S120x128.Idx → EReal) = m ((c : Thread nD τ).loc main_arg7) :=
  W5_keep m ρ c main_arg7 (by decide) (by decide) (by decide) (by decide) (by decide)
theorem V5_arg9 (c : Dev nD) : (V5 m ρ c main_arg9 : S128x128.Idx → EReal) = m ((c : Thread nD τ).loc main_arg9) :=
  W5_keep m ρ c main_arg9 (by decide) (by decide) (by decide) (by decide) (by decide)
theorem V5_arg13 (c : Dev nD) : (V5 m ρ c main_arg13 : S128x128.Idx → EReal) = m ((c : Thread nD τ).loc main_arg13) :=
  W5_keep m ρ c main_arg13 (by decide) (by decide) (by decide) (by decide) (by decide)
theorem V5_arg21 (c : Dev nD) : (V5 m ρ c main_arg21 : S128x128.Idx → EReal) = m ((c : Thread nD τ).loc main_arg21) :=
  W5_keep m ρ c main_arg21 (by decide) (by decide) (by decide) (by decide) (by decide)
theorem V5_v10 (c : Dev nD) (q : Fin 128) :
    (V5 m ρ c main_v10 : S1x128.Idx → EReal) (ix2 (0 : Fin 1) q) = (m ((c : Thread nD τ).loc main_arg8) : S128.Idx → EReal) (ix1 q) := by
  show (StableHlo.after (hostOps1_2 (F := Ideal)) (W4 m ρ c) (Proc.devRef .tc main_v10) : S1x128.Idx → EReal) (ix2 (0 : Fin 1) q) = _
  rw [ops12_v10]
  refine (shapeCast_a_1a_apply _ _ 0 q).trans ?_
  rw [W4_keep m ρ c main_arg8 (by decide) (by decide) (by decide) (by decide)]
theorem V5_v11 (c : Dev nD) (q : Fin 128) :
    (V5 m ρ c main_v11 : S1x128.Idx → EReal) (ix2 (0 : Fin 1) q) = (m ((c : Thread nD τ).loc main_arg10) : S128.Idx → EReal) (ix1 q) := by
  show (StableHlo.after (hostOps1_2 (F := Ideal)) (W4 m ρ c) (Proc.devRef .tc main_v11) : S1x128.Idx → EReal) (ix2 (0 : Fin 1) q) = _
  rw [ops12_v11]
  refine (shapeCast_a_1a_apply _ _ 0 q).trans ?_
  rw [W4_keep m ρ c main_arg10 (by decide) (by decide) (by decide) (by decide)]
theorem V5_v13 (c : Dev nD) (q : Fin 128) :
    (V5 m ρ c main_v13 : S1x128.Idx → EReal) (ix2 (0 : Fin 1) q) = (m ((c : Thread nD τ).loc main_arg14) : S128.Idx → EReal) (ix1 q) := by
  show (StableHlo.after (hostOps1_2 (F := Ideal)) (W4 m ρ c) (Proc.devRef .tc main_v13) : S1x128.Idx → EReal) (ix2 (0 : Fin 1) q) = _
  rw [ops12_v13]
  refine (shapeCast_a_1a_apply _ _ 0 q).trans ?_
  rw [W4_keep m ρ c main_arg14 (by decide) (by decide) (by decide) (by decide)]
theorem V5_v14 (c : Dev nD) (q : Fin 128) :
    (V5 m ρ c main_v14 : S1x128.Idx → EReal) (ix2 (0 : Fin 1) q) = (m ((c : Thread nD τ).loc main_arg22) : S128.Idx → EReal) (ix1 q) := by
  show (StableHlo.after (hostOps1_2 (F := Ideal)) (W4 m ρ c) (Proc.devRef .tc main_v14) : S1x128.Idx → EReal) (ix2 (0 : Fin 1) q) = _
  rw [ops12_v14]
  refine (shapeCast_a_1a_apply _ _ 0 q).trans ?_
  rw [W4_keep m ρ c main_arg22 (by decide) (by decide) (by decide) (by decide)]

/-- The merged first-layer weight `[Ws1 | Wv1]`, half by half. -/
theorem V5_v8_lo (c : Dev nD) (k : Fin 384) (h : Fin 128) :
    (V5 m ρ c main_v8 : S384x256.Idx → EReal) (ix2 k (Spec.lo h)) = (m ((c : Thread nD τ).loc main_arg11) : S384x128.Idx → EReal) (ix2 k h) := by
  show (StableHlo.after (hostOps1_2 (F := Ideal)) (W4 m ρ c) (Proc.devRef .tc main_v8) : S384x256.Idx → EReal) (ix2 k (Spec.lo h)) = _
  rw [ops12_v8]
  refine (concatenate_pair_apply_left (t := S384x256) (s₁ := S384x128) (s₂ := S384x128) (1 : Fin 2) _ _ _
    (ix2 k (Spec.lo h)) rfl (ix2 k h) ?_).trans ?_
  · show ∀ b : Fin 2, _
    exact Fin.forall_fin_two.mpr ⟨rfl, rfl⟩
  · rw [W4_keep m ρ c main_arg11 (by decide) (by decide) (by decide) (by decide)]
theorem V5_v8_hi (c : Dev nD) (k : Fin 384) (h : Fin 128) :
    (V5 m ρ c main_v8 : S384x256.Idx → EReal) (ix2 k (Spec.hi h)) = (m ((c : Thread nD τ).loc main_arg19) : S384x128.Idx → EReal) (ix2 k h) := by
  show (StableHlo.after (hostOps1_2 (F := Ideal)) (W4 m ρ c) (Proc.devRef .tc main_v8) : S384x256.Idx → EReal) (ix2 k (Spec.hi h)) = _
  rw [ops12_v8]
  refine (concatenate_pair_apply_right (t := S384x256) (s₁ := S384x128) (s₂ := S384x128) (1 : Fin 2) _ _ _
    (ix2 k (Spec.hi h)) rfl rfl (ix2 k h) ?_ ?_).trans ?_
  · show ∀ b : Fin 2, _
    exact Fin.forall_fin_two.mpr ⟨fun _ => rfl, fun hb => absurd rfl hb⟩
  · show h.val + 128 = 128 + h.val
    omega
  · rw [W4_keep m ρ c main_arg19 (by decide) (by decide) (by decide) (by decide)]
/-- The merged first-layer bias `[bs1 | bv1]` kept as a `1 × 256` row, half by half. -/
theorem V5_v12_lo (c : Dev nD) (h : Fin 128) :
    (V5 m ρ c main_v12 : S1x256.Idx → EReal) (ix2 (0 : Fin 1) (Spec.lo h)) = (m ((c : Thread nD τ).loc main_arg12) : S128.Idx → EReal) (ix1 h) := by
  show (StableHlo.after (hostOps1_2 (F := Ideal)) (W4 m ρ c) (Proc.devRef .tc main_v12) : S1x256.Idx → EReal) (ix2 (0 : Fin 1) (Spec.lo h)) = _
  rw [ops12_v12]
  refine (shapeCast_a_1a_apply _ _ 0 (Spec.lo h)).trans ?_
  refine (concatenate_pair_apply_left (t := S256) (s₁ := S128) (s₂ := S128) (0 : Fin 1) _ _ _
    (ix1 (Spec.lo h)) rfl (ix1 h) ?_).trans ?_
  · show ∀ b : Fin 1, _
    exact Fin.forall_fin_one.mpr rfl
  · rw [W4_keep m ρ c main_arg12 (by decide) (by decide) (by decide) (by decide)]
theorem V5_v12_hi (c : Dev nD) (h : Fin 128) :
    (V5 m ρ c main_v12 : S1x256.Idx → EReal) (ix2 (0 : Fin 1) (Spec.hi h)) = (m ((c : Thread nD τ).loc main_arg20) : S128.Idx → EReal) (ix1 h) := by
  show (StableHlo.after (hostOps1_2 (F := Ideal)) (W4 m ρ c) (Proc.devRef .tc main_v12) : S1x256.Idx → EReal) (ix2 (0 : Fin 1) (Spec.hi h)) = _
  rw [ops12_v12]
  refine (shapeCast_a_1a_apply _ _ 0 (Spec.hi h)).trans ?_
  refine (concatenate_pair_apply_right (t := S256) (s₁ := S128) (s₂ := S128) (0 : Fin 1) _ _ _
    (ix1 (Spec.hi h)) rfl rfl (ix1 h) ?_ ?_).trans ?_
  · show ∀ b : Fin 1, _
    exact Fin.forall_fin_one.mpr fun hb => absurd rfl hb
  · show h.val + 128 = 128 + h.val
    omega
  · rw [W4_keep m ρ c main_arg20 (by decide) (by decide) (by decide) (by decide)]

end Cert.KernelIdeal.Host

end
-- ==== Proof.HostB.lean ====
/-
  What the kernel program's last host operations leave in the arrays the third pallas_call reads, and the three results
  at the return. One segment sum scatters the 512-wide edge rows onto node rows at the raw indices of row 1 of the edge
  index; its first 128 columns are the aggregated messages the third call reads; its last 384 columns, reshaped to
  `3 × 128` and the two last axes exchanged, are the vector output: entry `(n, q, k)` is column `128 + 128 k + q` of
  row `n`. The node embedding reaches the third call as the first call left it, the arguments as launched, the biases
  as rows. The node update is the third call's output array, the edge embedding the second call's.
-/
import proofs.«425565_j41283225649648_3_alg».proof.Proof.Gen.KernelIdeal.Frame
import proofs.«425565_j41283225649648_3_alg».proof.Proof.Spec
import proofs.«425565_j41283225649648_3_alg».proof.Proof.HostDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
namespace Cert.KernelIdeal.Host

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo

variable (m : (ℓ : Loc nD τ sig) → Buf (Elt Ideal) ℓ) (ρ : Dev nD → PrngReg)

/-- The edge embedding array as the second pallas_call leaves it. -/
abbrev EAarr (c : Dev nD) : S400000x128.Idx → EReal := (dat1 (F := Ideal) (V5 m ρ) c).arrAt 14 cfg1.N
/-- The 512-wide edge output as the second pallas_call leaves it. -/
abbrev CATarr (c : Dev nD) : S400000x512.Idx → EReal := (dat1 (F := Ideal) (V5 m ρ) c).arrAt 15 cfg1.N
/-- The one segment sum of the 512-wide edge rows over the raw indices of row 1. -/
abbrev SCAT (c : Dev nD) : S25000x512.Idx → EReal :=
  Ideal.hostScatterAdd Spec.sdims4 (fun _ => (0 : EReal)) (Spec.jcol (A1 m c)) (CATarr m ρ c)

/-- A buffer that no operation of a host stretch writes holds after the stretch what it held before: the stretch's
    operations are listed and each one's result buffer told apart from the given one. -/
local macro "keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The third pallas_call's windows at its entry -/

/-- The node embedding is the first pallas_call's output window 3; nothing after that call writes it. -/
theorem V7_v5 (c : Dev nD) : (V7 m ρ c main_v5 : S25000x128.Idx → EReal) = Farr m ρ c :=
  calc W7 m ρ c (Proc.devRef .tc main_v5)
    _ = W6 m ρ c (Proc.devRef .tc main_v5) := by keeps hostOps2
    _ = W5 m ρ c (Proc.devRef .tc main_v5) := W6_of_ne m ρ c main_v5 (by decide)
    _ = W4 m ρ c (Proc.devRef .tc main_v5) := by keeps hostOps1_2
    _ = W3 m ρ c (Proc.devRef .tc main_v5) := by keeps hostOps1_1
    _ = W2 m ρ c (Proc.devRef .tc main_v5) := by keeps hostOps1
    _ = (dat0 (V1 m ρ) c).arrAt 3 cfg0.N := W2_arr m ρ c 3

/-! ### The last host stretch: the one segment sum and its parts -/

/-- The printed scatter's dimension numbers are the ones of `Spec.sdims4`, and at the extended reals the scatter
    is the exact sum. -/
private theorem scatterAdd_eq (x : S25000x512.Idx → EReal) (i : S400000x1.Idx → BitVec 32) (u : S400000x512.Idx → EReal) :
    Host.scatterAdd (F := Ideal) (φ := .f32) scatter_S25000x512_S400000x1_S400000x512_1_0_0_1 x i u
      = Ideal.hostScatterAdd Spec.sdims4 x i u := rfl

/-- The zero fill: a broadcast of the scalar `0`. -/
private theorem zero_fill :
    (broadcastInDim S25000x512 ![] bcast_S_S25000x512 (constant (F := Ideal) S_ .f32 0x00000000#32) : S25000x512.Idx → EReal)
      = fun _ => (0 : EReal) := by
  funext i
  rw [broadcastInDim_apply ![] bcast_S_S25000x512 _ i ix0 (fun a => a.elim0), constant_apply, Ideal.ofBits_zero_f32]

/-- Row 1 of the edge index, sliced out, flattened and stood up as a column, is `Spec.jcol`. -/
private theorem jcol_eq (a1 : S2x400000.Idx → BitVec 32) :
    (broadcastInDim S400000x1 ![0] bcast_S400000_S400000x1_0
        (shapeCast S400000 (extractStridedSlice S1x400000 ![1, 0] a1 slices_S2x400000_S1x400000_1_0) shapeCasts_S1x400000_S400000)
      : S400000x1.Idx → BitVec 32) = Spec.jcol a1 := by
  funext p
  have hp : (p 0).val < 400000 := idx2_lt0 p
  rw [broadcastInDim_apply ![0] bcast_S400000_S400000x1_0 _ p (ix1 (⟨(p 0).val, hp⟩ : Fin 400000))
        (fun a => by obtain rfl : a = 0 := Fin.fin_one_eq_zero a; rfl),
      shapeCast_apply _ shapeCasts_S1x400000_S400000 (ix1 (⟨(p 0).val, hp⟩ : Fin 400000))
        (ix2 (0 : Fin 1) (⟨(p 0).val, hp⟩ : Fin 400000))
        (by rw [Shape.rowMajor_val_two, Shape.rowMajor_val_one]; show 0 * 400000 + (p 0).val = (p 0).val; omega),
      extractStridedSlice_apply ![1, 0] a1 slices_S2x400000_S1x400000_1_0 (ix2 (0 : Fin 1) (⟨(p 0).val, hp⟩ : Fin 400000))
        (ix2 (1 : Fin 2) (⟨(p 0).val, hp⟩ : Fin 400000))
        (fun a => match a with | ⟨0, _⟩ => rfl | ⟨1, _⟩ => by show (p 0).val = 0 + (p 0).val; omega)]
  rfl

/-- The flattened row 1 of the edge index is made by the first host stretch and never written again. -/
private theorem W6_v3 (c : Dev nD) : (W6 m ρ c (Proc.devRef .tc main_v3) : S400000.Idx → BitVec 32)
    = shapeCast S400000 (extractStridedSlice S1x400000 ![1, 0] (A1 m c) slices_S2x400000_S1x400000_1_0) shapeCasts_S1x400000_S400000 :=
  calc W6 m ρ c (Proc.devRef .tc main_v3)
    _ = W5 m ρ c (Proc.devRef .tc main_v3) := W6_of_ne m ρ c main_v3 (by decide)
    _ = W4 m ρ c (Proc.devRef .tc main_v3) := by keeps hostOps1_2
    _ = W3 m ρ c (Proc.devRef .tc main_v3) := by keeps hostOps1_1
    _ = W2 m ρ c (Proc.devRef .tc main_v3) := by keeps hostOps1
    _ = W1 m ρ c (Proc.devRef .tc main_v3) := W2_of_ne m ρ c main_v3 (by decide)
    _ = _ := by
      show StableHlo.after hostOps0 (W0 m ρ c) (Proc.devRef .tc main_v3) = _
      after_results
      rfl

/-- The scatter's result buffer holds the one segment sum. -/
private theorem W7_v18 (c : Dev nD) : (W7 m ρ c (Proc.devRef .tc main_v18) : S25000x512.Idx → EReal) = SCAT m ρ c := by
  have e : (W7 m ρ c (Proc.devRef .tc main_v18) : S25000x512.Idx → EReal)
      = Host.scatterAdd (F := Ideal) (φ := .f32) scatter_S25000x512_S400000x1_S400000x512_1_0_0_1
          (broadcastInDim S25000x512 ![] bcast_S_S25000x512 (constant (F := Ideal) S_ .f32 0x00000000#32))
          (broadcastInDim S400000x1 ![0] bcast_S400000_S400000x1_0 (W6 m ρ c (Proc.devRef .tc main_v3) : S400000.Idx → BitVec 32))
          (W6 m ρ c (Proc.devRef .tc main_v15_1) : S400000x512.Idx → EReal) := by
    show StableHlo.after hostOps2 (W6 m ρ c) (Proc.devRef .tc main_v18) = _
    generalize W6 m ρ c = W
    after_results
  rw [e, W6_v3, jcol_eq, zero_fill, scatterAdd_eq]
  exact congrArg (Ideal.hostScatterAdd Spec.sdims4 (fun _ => (0 : EReal)) (Spec.jcol (A1 m c))) (W6_arr m ρ c 15)

/-- The buffer of the aggregated messages holds the slice of the segment sum's first 128 columns. -/
private theorem W7_v19 (c : Dev nD) : (W7 m ρ c (Proc.devRef .tc main_v19) : S25000x128.Idx → EReal)
    = extractStridedSlice S25000x128 ![0, 0] (SCAT m ρ c) slices_S25000x512_S25000x128_0_0 := by
  have e : (W7 m ρ c (Proc.devRef .tc main_v19) : S25000x128.Idx → EReal)
      = extractStridedSlice S25000x128 ![0, 0] (W7 m ρ c (Proc.devRef .tc main_v18) : S25000x512.Idx → EReal) slices_S25000x512_S25000x128_0_0 := by
    show StableHlo.after hostOps2 (W6 m ρ c) (Proc.devRef .tc main_v19)
      = extractStridedSlice S25000x128 ![0, 0] (StableHlo.after hostOps2 (W6 m ρ c) (Proc.devRef .tc main_v18)) slices_S25000x512_S25000x128_0_0
    generalize W6 m ρ c = W
    after_results
  rw [e, W7_v18]
/-- The reshaped, transposed last 384 columns of the segment sum. -/
private theorem W7_v22 (c : Dev nD) : (W7 m ρ c (Proc.devRef .tc main_v22) : S25000x128x3.Idx → EReal)
    = transpose S25000x128x3 [0, 2, 1]
        (shapeCast S25000x3x128 (extractStridedSlice S25000x384 ![0, 128] (SCAT m ρ c) slices_S25000x512_S25000x384_0_128)
          shapeCasts_S25000x384_S25000x3x128)
        transposes_S25000x3x128_S25000x128x3_0_2_1 := by
  have e : (W7 m ρ c (Proc.devRef .tc main_v22) : S25000x128x3.Idx → EReal)
      = transpose S25000x128x3 [0, 2, 1]
          (shapeCast S25000x3x128
            (extractStridedSlice S25000x384 ![0, 128] (W7 m ρ c (Proc.devRef .tc main_v18) : S25000x512.Idx → EReal) slices_S25000x512_S25000x384_0_128)
            shapeCasts_S25000x384_S25000x3x128)
          transposes_S25000x3x128_S25000x128x3_0_2_1 := by
    show StableHlo.after hostOps2 (W6 m ρ c) (Proc.devRef .tc main_v22)
      = transpose S25000x128x3 [0, 2, 1]
          (shapeCast S25000x3x128
            (extractStridedSlice S25000x384 ![0, 128] (StableHlo.after hostOps2 (W6 m ρ c) (Proc.devRef .tc main_v18)) slices_S25000x512_S25000x384_0_128)
            shapeCasts_S25000x384_S25000x3x128)
          transposes_S25000x3x128_S25000x128x3_0_2_1
    generalize W6 m ρ c = W
    after_results
    rfl
  rw [e, W7_v18]

/-- The aggregated messages: the segment sum's first 128 columns. -/
theorem V7_v19 (c : Dev nD) (n : Fin 25000) (q : Fin 128) :
    (V7 m ρ c main_v19 : S25000x128.Idx → EReal) (ix2 n q) = SCAT m ρ c (ix2 n (Spec.colMsg q)) := by
  show (W7 m ρ c (Proc.devRef .tc main_v19) : S25000x128.Idx → EReal) (ix2 n q) = _
  rw [W7_v19]
  generalize SCAT m ρ c = X
  refine extractStridedSlice_apply ![0, 0] X slices_S25000x512_S25000x128_0_0 (ix2 n q) (ix2 n (Spec.colMsg q)) ?_
  intro a
  match a with
  | ⟨0, _⟩ => show n.val = 0 + n.val; omega
  | ⟨1, _⟩ => show q.val = 0 + q.val; omega

/-- An input window of the third pallas_call that is an argument of the program: the call's exit holds the
    argument as launched, and the call leaves an input window's array as entered. -/
theorem V7_arg4 (c : Dev nD) : (V7 m ρ c main_arg4 : S25000x1.Idx → EReal) = m ((c : Thread nD τ).loc main_arg4) :=
  ((W8_arr m ρ c 2).trans (((dat2 (V7 m ρ) c).arrAt_in 2 rfl _).trans (A_eq2 (V7 m ρ) c 2))).symm.trans (W8_main_arg4 m ρ c)
theorem V7_arg15 (c : Dev nD) : (V7 m ρ c main_arg15 : S256x128.Idx → EReal) = m ((c : Thread nD τ).loc main_arg15) :=
  ((W8_arr m ρ c 3).trans (((dat2 (V7 m ρ) c).arrAt_in 3 rfl _).trans (A_eq2 (V7 m ρ) c 3))).symm.trans (W8_main_arg15 m ρ c)
theorem V7_arg17 (c : Dev nD) : (V7 m ρ c main_arg17 : S128x128.Idx → EReal) = m ((c : Thread nD τ).loc main_arg17) :=
  ((W8_arr m ρ c 5).trans (((dat2 (V7 m ρ) c).arrAt_in 5 rfl _).trans (A_eq2 (V7 m ρ) c 5))).symm.trans (W8_main_arg17 m ρ c)
theorem V7_arg23 (c : Dev nD) : (V7 m ρ c main_arg23 : S1x64.Idx → EReal) = m ((c : Thread nD τ).loc main_arg23) :=
  ((W8_arr m ρ c 7).trans (((dat2 (V7 m ρ) c).arrAt_in 7 rfl _).trans (A_eq2 (V7 m ρ) c 7))).symm.trans (W8_main_arg23 m ρ c)
theorem V7_arg24 (c : Dev nD) : (V7 m ρ c main_arg24 : S128x128.Idx → EReal) = m ((c : Thread nD τ).loc main_arg24) :=
  ((W8_arr m ρ c 8).trans (((dat2 (V7 m ρ) c).arrAt_in 8 rfl _).trans (A_eq2 (V7 m ρ) c 8))).symm.trans (W8_main_arg24 m ρ c)
theorem V7_arg26 (c : Dev nD) : (V7 m ρ c main_arg26 : S128x128.Idx → EReal) = m ((c : Thread nD τ).loc main_arg26) :=
  ((W8_arr m ρ c 10).trans (((dat2 (V7 m ρ) c).arrAt_in 10 rfl _).trans (A_eq2 (V7 m ρ) c 10))).symm.trans (W8_main_arg26 m ρ c)

/-- An argument that the third pallas_call does not take as a window holds at the call's entry and before the last
    host stretch what it held at launch: read back from the return through the call's exit and the stretch. -/
private theorem W6_arg16 (c : Dev nD) : W6 m ρ c (Proc.devRef .tc main_arg16) = m ((c : Thread nD τ).loc main_arg16) :=
  ((W8_of_ne m ρ c main_arg16 (by decide)).trans (by keeps hostOps2)).symm.trans (W8_main_arg16 m ρ c)
private theorem W6_arg18 (c : Dev nD) : W6 m ρ c (Proc.devRef .tc main_arg18) = m ((c : Thread nD τ).loc main_arg18) :=
  ((W8_of_ne m ρ c main_arg18 (by decide)).trans (by keeps hostOps2)).symm.trans (W8_main_arg18 m ρ c)
private theorem W6_arg25 (c : Dev nD) : W6 m ρ c (Proc.devRef .tc main_arg25) = m ((c : Thread nD τ).loc main_arg25) :=
  ((W8_of_ne m ρ c main_arg25 (by decide)).trans (by keeps hostOps2)).symm.trans (W8_main_arg25 m ρ c)
private theorem W6_arg27 (c : Dev nD) : W6 m ρ c (Proc.devRef .tc main_arg27) = m ((c : Thread nD τ).loc main_arg27) :=
  ((W8_of_ne m ρ c main_arg27 (by decide)).trans (by keeps hostOps2)).symm.trans (W8_main_arg27 m ρ c)

/-- A bias of width 128 kept as a `1 × 128` row: entry `(0, q)` of the row is entry `q` of the bias. -/
theorem V7_v23 (c : Dev nD) (q : Fin 128) :
    (V7 m ρ c main_v23 : S1x128.Idx → EReal) (ix2 (0 : Fin 1) q) = (m ((c : Thread nD τ).loc main_arg16) : S128.Idx → EReal) (ix1 q) := by
  have e : (W7 m ρ c (Proc.devRef .tc main_v23) : S1x128.Idx → EReal)
      = shapeCast S1x128 (W6 m ρ c (Proc.devRef .tc main_arg16) : S128.Idx → EReal) shapeCasts_S128_S1x128 := by
    show StableHlo.after hostOps2 (W6 m ρ c) (Proc.devRef .tc main_v23) = _
    generalize W6 m ρ c = W
    after_results
    rfl
  show (W7 m ρ c (Proc.devRef .tc main_v23) : S1x128.Idx → EReal) (ix2 (0 : Fin 1) q) = _
  rw [e, shapeCast_a_1a_apply, W6_arg16]
theorem V7_v24 (c : Dev nD) (q : Fin 128) :
    (V7 m ρ c main_v24 : S1x128.Idx → EReal) (ix2 (0 : Fin 1) q) = (m ((c : Thread nD τ).loc main_arg18) : S128.Idx → EReal) (ix1 q) := by
  have e : (W7 m ρ c (Proc.devRef .tc main_v24) : S1x128.Idx → EReal)
      = shapeCast S1x128 (W6 m ρ c (Proc.devRef .tc main_arg18) : S128.Idx → EReal) shapeCasts_S128_S1x128 := by
    show StableHlo.after hostOps2 (W6 m ρ c) (Proc.devRef .tc main_v24) = _
    generalize W6 m ρ c = W
    after_results
    rfl
  show (W7 m ρ c (Proc.devRef .tc main_v24) : S1x128.Idx → EReal) (ix2 (0 : Fin 1) q) = _
  rw [e, shapeCast_a_1a_apply, W6_arg18]
theorem V7_v25 (c : Dev nD) (q : Fin 128) :
    (V7 m ρ c main_v25 : S1x128.Idx → EReal) (ix2 (0 : Fin 1) q) = (m ((c : Thread nD τ).loc main_arg25) : S128.Idx → EReal) (ix1 q) := by
  have e : (W7 m ρ c (Proc.devRef .tc main_v25) : S1x128.Idx → EReal)
      = shapeCast S1x128 (W6 m ρ c (Proc.devRef .tc main_arg25) : S128.Idx → EReal) shapeCasts_S128_S1x128 := by
    show StableHlo.after hostOps2 (W6 m ρ c) (Proc.devRef .tc main_v25) = _
    generalize W6 m ρ c = W
    after_results
    rfl
  show (W7 m ρ c (Proc.devRef .tc main_v25) : S1x128.Idx → EReal) (ix2 (0 : Fin 1) q) = _
  rw [e, shapeCast_a_1a_apply, W6_arg25]
theorem V7_v26 (c : Dev nD) (q : Fin 128) :
    (V7 m ρ c main_v26 : S1x128.Idx → EReal) (ix2 (0 : Fin 1) q) = (m ((c : Thread nD τ).loc main_arg27) : S128.Idx → EReal) (ix1 q) := by
  have e : (W7 m ρ c (Proc.devRef .tc main_v26) : S1x128.Idx → EReal)
      = shapeCast S1x128 (W6 m ρ c (Proc.devRef .tc main_arg27) : S128.Idx → EReal) shapeCasts_S128_S1x128 := by
    show StableHlo.after hostOps2 (W6 m ρ c) (Proc.devRef .tc main_v26) = _
    generalize W6 m ρ c = W
    after_results
    rfl
  show (W7 m ρ c (Proc.devRef .tc main_v26) : S1x128.Idx → EReal) (ix2 (0 : Fin 1) q) = _
  rw [e, shapeCast_a_1a_apply, W6_arg27]

/-! ## The three results at the return -/

theorem V8_v27 (c : Dev nD) : (V8 m ρ c main_v27 : S25000x128.Idx → EReal) = (dat2 (F := Ideal) (V7 m ρ) c).arrAt 12 cfg2.N :=
  W8_arr m ρ c 12

/-- The vector output: the segment sum's last 384 columns, as 3 × 128, the two last axes exchanged. -/
theorem V8_v22 (c : Dev nD) (n : Fin 25000) (q : Fin 128) (k : Fin 3) :
    (V8 m ρ c main_v22 : S25000x128x3.Idx → EReal) (ix3 n q k) = SCAT m ρ c (ix2 n (Spec.colMv k q)) := by
  have h8 : W8 m ρ c (Proc.devRef .tc main_v22) = W7 m ρ c (Proc.devRef .tc main_v22) := W8_of_ne m ρ c main_v22 (by decide)
  have hk : 128 * k.val + q.val < 384 := by have := k.isLt; have := q.isLt; omega
  show (W8 m ρ c (Proc.devRef .tc main_v22) : S25000x128x3.Idx → EReal) (ix3 n q k) = _
  rw [h8, W7_v22, transpose_ix3_021_apply,
    shapeCast_apply _ shapeCasts_S25000x384_S25000x3x128 (ix3 n k q) (ix2 n (⟨128 * k.val + q.val, hk⟩ : Fin 384))
      (by rw [Shape.rowMajor_val_two, Shape.rowMajor_val_three]
          show n.val * 384 + (128 * k.val + q.val) = (n.val * 3 + k.val) * 128 + q.val
          omega)]
  generalize SCAT m ρ c = X
  exact extractStridedSlice_apply ![0, 128] X slices_S25000x512_S25000x384_0_128
    (ix2 n (⟨128 * k.val + q.val, hk⟩ : Fin 384)) (ix2 n (Spec.colMv k q))
    (fun a => match a with
      | ⟨0, _⟩ => by show n.val = 0 + n.val; omega
      | ⟨1, _⟩ => by show 128 + 128 * k.val + q.val = 128 + (128 * k.val + q.val); omega)

/-- The edge embedding is the second pallas_call's output window 14; nothing after that call writes it. -/
theorem V8_v15_0 (c : Dev nD) : (V8 m ρ c main_v15_0 : S400000x128.Idx → EReal) = EAarr m ρ c :=
  calc W8 m ρ c (Proc.devRef .tc main_v15_0)
    _ = W7 m ρ c (Proc.devRef .tc main_v15_0) := W8_of_ne m ρ c main_v15_0 (by decide)
    _ = W6 m ρ c (Proc.devRef .tc main_v15_0) := by keeps hostOps2
    _ = (dat1 (V5 m ρ) c).arrAt 14 cfg1.N := W6_arr m ρ c 14

end Cert.KernelIdeal.Host

end
-- ==== Proof.Scatter.lean ====
/-
  The segment sums read at an index. A scatter-add of edge rows onto node rows at a column of indices holds, at node
  `n`, the operand's entry plus the sum over the edges whose index IS `n` of the edge row's entry (an index outside
  the node range lands nowhere). So one segment sum of 512-wide rows, read at a column, is the segment sum of that
  column: the merged sum's message columns are the 128-wide sum of the message rows, and its column
  `128 + 128 k + q` is entry `(q, k)` of the sum of the `128 × 3` slabs.
-/
import proofs.«425565_j41283225649648_3_alg».proof.Proof.Spec

noncomputable section

open scoped BigOperators

namespace Cert.Spec

open Idealize.ShloMosaic Idealize.ShloMosaic.ValueIdx

/-- The edges whose scatter index is node `n`. -/
def landing (idx : SEx1.Idx → BitVec 32) (n : Fin 25000) : Finset (Fin 400000) :=
  Finset.univ.filter fun e : Fin 400000 => (idx (ix2 e (0 : Fin 1))).toInt = (n.val : Int)

namespace Scat

/-- An update index lands at the operand index `i` exactly when, on every operand axis, its window's start plus its
    window coordinate is `i`'s coordinate: the landing point is defined only where every such sum is inside the
    operand, and an index of the operand is inside it. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro e a
      have e1 : (d.start j idx a + (d.window j a : Int)).toNat = (i a).val := congrArg Fin.val (congrFun e a)
      have := h a
      omega
    · intro e
      funext a
      apply Fin.ext
      show (d.start j idx a + (d.window j a : Int)).toNat = (i a).val
      have := e a
      omega
  · rename_i h
    constructor
    · intro e
      exact absurd e (by simp)
    · intro e
      exfalso
      apply h
      intro a
      have := e a
      have := (i a).isLt
      constructor <;> omega

/-- A statement about each of three axes is the three statements. -/
theorem forall_fin3 {P : Fin 3 → Prop} : (∀ a, P a) ↔ P 0 ∧ P 1 ∧ P 2 := by
  constructor
  · intro h
    exact ⟨h 0, h 1, h 2⟩
  · rintro ⟨h0, h1, h2⟩ a
    match a with
    | ⟨0, _⟩ => exact h0
    | ⟨1, _⟩ => exact h1
    | ⟨2, _⟩ => exact h2

/-! ### Rows of any width

A scatter of rows of width `W` onto the rows of an `N × W` array at an `E × 1` column of indices: on the row
axis the window starts at the edge's index, read signed, and has no extent; on the column axis it starts at `0` and
its coordinate is the update's column. -/

section Rows

variable {N E W : Nat} (d : ScatterDims ⟨2, ![N, W]⟩ ⟨2, ![E, 1]⟩ ⟨2, ![E, W]⟩)

theorem rows_start0 (huw : d.updateWindowDims = [1]) (hiw : d.insertedWindowDims = [0])
    (hsd : d.scatterDimsToOperandDims = [0]) (hiv : d.indexVectorDim = 1)
    (idx : (⟨2, ![E, 1]⟩ : Shape).Idx → BitVec 32) (j : (⟨2, ![E, W]⟩ : Shape).Idx) :
    d.start j idx 0 = (idx (ix2 (j 0 : Fin E) (0 : Fin 1))).toInt := by
  obtain ⟨uw, iw, sd, iv, wf⟩ := d
  subst huw hiw hsd hiv
  unfold ScatterDims.start
  rw [dif_pos (show (0 : Fin 2) ∈ ([0] : List (Fin 2)) by decide)]
  congr 2
  funext b
  match b with
  | ⟨0, _⟩ => rfl
  | ⟨1, _⟩ => rfl

theorem rows_start1 (hsd : d.scatterDimsToOperandDims = [0])
    (idx : (⟨2, ![E, 1]⟩ : Shape).Idx → BitVec 32) (j : (⟨2, ![E, W]⟩ : Shape).Idx) : d.start j idx 1 = 0 := by
  obtain ⟨uw, iw, sd, iv, wf⟩ := d
  subst hsd
  unfold ScatterDims.start
  rw [dif_neg (show (1 : Fin 2) ∉ ([0] : List (Fin 2)) by decide)]

theorem rows_window0 (hiw : d.insertedWindowDims = [0]) (j : (⟨2, ![E, W]⟩ : Shape).Idx) : d.window j 0 = 0 := by
  obtain ⟨uw, iw, sd, iv, wf⟩ := d
  subst hiw
  unfold ScatterDims.window
  split
  · rename_i ha
    exact absurd ha (show (0 : Fin 2) ∉ ([1] : List (Fin 2)) by decide)
  · rfl

theorem rows_window1 (huw : d.updateWindowDims = [1]) (hiw : d.insertedWindowDims = [0])
    (j : (⟨2, ![E, W]⟩ : Shape).Idx) : d.window j 1 = (j 1).val := by
  obtain ⟨uw, iw, sd, iv, wf⟩ := d
  subst huw hiw
  unfold ScatterDims.window
  split
  · rfl
  · rename_i ha
    exact absurd (show (1 : Fin 2) ∈ ([1] : List (Fin 2)) by decide) ha

/-- An update entry lands at `(n, q)` exactly when its edge's index is `n` and its column is `q`. -/
theorem rows_res_iff (huw : d.updateWindowDims = [1]) (hiw : d.insertedWindowDims = [0])
    (hsd : d.scatterDimsToOperandDims = [0]) (hiv : d.indexVectorDim = 1)
    (idx : (⟨2, ![E, 1]⟩ : Shape).Idx → BitVec 32) (j : (⟨2, ![E, W]⟩ : Shape).Idx) (n : Fin N) (q : Fin W) :
    d.resultIdx? j idx = some (ix2 n q)
      ↔ (idx (ix2 (j 0 : Fin E) (0 : Fin 1))).toInt = (n.val : Int) ∧ (j 1).val = q.val := by
  rw [resultIdx?_eq_some_iff, Fin.forall_fin_two, rows_start0 d huw hiw hsd hiv, rows_start1 d hsd, rows_window0 d hiw,
    rows_window1 d huw hiw]
  show (idx (ix2 (j 0 : Fin E) (0 : Fin 1))).toInt + ((0 : Nat) : Int) = (n.val : Int) ∧ (0 : Int) + ((j 1).val : Int) = (q.val : Int) ↔ _
  constructor
  · rintro ⟨h0, h1⟩
    exact ⟨by omega, by omega⟩
  · rintro ⟨h0, h1⟩
    exact ⟨by omega, by omega⟩

/-- An update index in column `q` is its edge paired with `q`. -/
theorem rows_back (q : Fin W) (j : (⟨2, ![E, W]⟩ : Shape).Idx) (h1 : (j 1).val = q.val) : ix2 (j 0 : Fin E) q = j := by
  obtain ⟨e, c, rfl⟩ : ∃ (e : Fin E) (c : Fin W), j = ix2 e c := ⟨j 0, j 1, eq_ix2 j⟩
  have hc : c = q := Fin.ext h1
  subst hc
  rfl

/-- The scatter-add of rows read at `(n, q)`: the operand's entry plus the sum, over the edges whose index is `n`,
    of the edge row's entry in column `q`. -/
theorem rows_apply (huw : d.updateWindowDims = [1]) (hiw : d.insertedWindowDims = [0])
    (hsd : d.scatterDimsToOperandDims = [0]) (hiv : d.indexVectorDim = 1)
    (x : (⟨2, ![N, W]⟩ : Shape).Idx → EReal) (idx : (⟨2, ![E, 1]⟩ : Shape).Idx → BitVec 32)
    (u : (⟨2, ![E, W]⟩ : Shape).Idx → EReal) (n : Fin N) (q : Fin W) :
    Ideal.hostScatterAdd d x idx u (ix2 n q)
      = x (ix2 n q) + ∑ e ∈ Finset.univ.filter (fun e : Fin E => (idx (ix2 e (0 : Fin 1))).toInt = (n.val : Int)), u (ix2 e q) := by
  unfold Ideal.hostScatterAdd
  refine congrArg (fun t => x (ix2 n q) + t) ?_
  -- the update entries landing at `(n, q)` are, one for one, the edges whose index is `n`
  refine Finset.sum_bij' (fun j _ => (j 0 : Fin E)) (fun e _ => ix2 e q) ?_ ?_ ?_ ?_ ?_
  · intro j hj
    exact Finset.mem_filter.2 ⟨Finset.mem_univ _, ((rows_res_iff d huw hiw hsd hiv idx j n q).1 (Finset.mem_filter.1 hj).2).1⟩
  · intro e he
    exact Finset.mem_filter.2 ⟨Finset.mem_univ _, (rows_res_iff d huw hiw hsd hiv idx (ix2 e q) n q).2 ⟨(Finset.mem_filter.1 he).2, rfl⟩⟩
  · intro j hj
    exact rows_back q j ((rows_res_iff d huw hiw hsd hiv idx j n q).1 (Finset.mem_filter.1 hj).2).2
  · intro e he
    rfl
  · intro j hj
    exact (congrArg u (rows_back q j ((rows_res_iff d huw hiw hsd hiv idx j n q).1 (Finset.mem_filter.1 hj).2).2)).symm

end Rows

/-! ### Slabs of `128 × 3`

On the node axis the window starts at the edge's index and has no extent; on the two slab axes it starts at `0`
and its coordinates are the update's. -/

theorem start3_0 (idx : SEx1.Idx → BitVec 32) (j : SExDx3.Idx) :
    sdims3.start j idx 0 = (idx (ix2 (j 0) (0 : Fin 1))).toInt := by
  unfold ScatterDims.start
  rw [dif_pos (by decide)]
  congr 2
  funext b
  match b with
  | ⟨0, _⟩ => rfl
  | ⟨1, _⟩ => rfl

theorem start3_1 (idx : SEx1.Idx → BitVec 32) (j : SExDx3.Idx) : sdims3.start j idx 1 = 0 := by
  unfold ScatterDims.start
  rw [dif_neg (by decide)]

theorem start3_2 (idx : SEx1.Idx → BitVec 32) (j : SExDx3.Idx) : sdims3.start j idx 2 = 0 := by
  unfold ScatterDims.start
  rw [dif_neg (by decide)]

theorem window3_0 (j : SExDx3.Idx) : sdims3.window j 0 = 0 := by
  unfold ScatterDims.window
  rw [dif_neg (by decide)]

theorem window3_1 (j : SExDx3.Idx) : sdims3.window j 1 = (j 1).val := by
  unfold ScatterDims.window
  rw [dif_pos (by decide)]
  rfl

theorem window3_2 (j : SExDx3.Idx) : sdims3.window j 2 = (j 2).val := by
  unfold ScatterDims.window
  rw [dif_pos (by decide)]
  rfl

/-- An update entry lands at `(n, q, k)` exactly when its edge's index is `n` and its slab coordinates are `(q, k)`. -/
theorem res3_iff (idx : SEx1.Idx → BitVec 32) (j : SExDx3.Idx) (n : Fin 25000) (q : Fin 128) (k : Fin 3) :
    sdims3.resultIdx? j idx = some (ix3 n q k)
      ↔ (idx (ix2 (j 0) (0 : Fin 1))).toInt = (n.val : Int) ∧ (j 1).val = q.val ∧ (j 2).val = k.val := by
  rw [resultIdx?_eq_some_iff, forall_fin3, start3_0, start3_1, start3_2, window3_0, window3_1, window3_2]
  show (idx (ix2 (j 0) (0 : Fin 1))).toInt + ((0 : Nat) : Int) = (n.val : Int)
      ∧ (0 : Int) + ((j 1).val : Int) = (q.val : Int) ∧ (0 : Int) + ((j 2).val : Int) = (k.val : Int) ↔ _
  constructor
  · rintro ⟨h0, h1, h2⟩
    exact ⟨by omega, by omega, by omega⟩
  · rintro ⟨h0, h1, h2⟩
    exact ⟨by omega, by omega, by omega⟩

/-- An update index at slab coordinates `(q, k)` is its edge with `(q, k)`. -/
theorem back3 (q : Fin 128) (k : Fin 3) (j : SExDx3.Idx) (h1 : (j 1).val = q.val) (h2 : (j 2).val = k.val) :
    ix3 (j 0 : Fin 400000) q k = j := by
  obtain ⟨e, c, l, rfl⟩ : ∃ (e : Fin 400000) (c : Fin 128) (l : Fin 3), j = ix3 e c l := ⟨j 0, j 1, j 2, eq_ix3 j⟩
  have hc : c = q := Fin.ext h1
  have hl : l = k := Fin.ext h2
  subst hc
  subst hl
  rfl

end Scat

open Scat

/-! ### The three segment sums read at an index -/

theorem scat4_apply (x : SNx4D.Idx → EReal) (idx : SEx1.Idx → BitVec 32) (u : SEx4D.Idx → EReal) (n : Fin 25000) (q : Fin 512) :
    Ideal.hostScatterAdd sdims4 x idx u (ix2 n q) = x (ix2 n q) + ∑ e ∈ landing idx n, u (ix2 e q) :=
  rows_apply sdims4 rfl rfl rfl rfl x idx u n q

theorem scat1_apply (x : SNxD.Idx → EReal) (idx : SEx1.Idx → BitVec 32) (u : SExD.Idx → EReal) (n : Fin 25000) (q : Fin 128) :
    Ideal.hostScatterAdd sdims1 x idx u (ix2 n q) = x (ix2 n q) + ∑ e ∈ landing idx n, u (ix2 e q) :=
  rows_apply sdims1 rfl rfl rfl rfl x idx u n q

theorem scat3_apply (x : SNxDx3.Idx → EReal) (idx : SEx1.Idx → BitVec 32) (u : SExDx3.Idx → EReal) (n : Fin 25000) (q : Fin 128) (k : Fin 3) :
    Ideal.hostScatterAdd sdims3 x idx u (ix3 n q k) = x (ix3 n q k) + ∑ e ∈ landing idx n, u (ix3 e q k) := by
  unfold Ideal.hostScatterAdd
  refine congrArg (fun t => x (ix3 n q k) + t) ?_
  -- the update entries landing at `(n, q, k)` are, one for one, the edges whose index is `n`
  refine Finset.sum_bij' (fun j _ => (j 0 : Fin 400000)) (fun e _ => ix3 e q k) ?_ ?_ ?_ ?_ ?_
  · intro j hj
    exact Finset.mem_filter.2 ⟨Finset.mem_univ _, ((res3_iff idx j n q k).1 (Finset.mem_filter.1 hj).2).1⟩
  · intro e he
    exact Finset.mem_filter.2 ⟨Finset.mem_univ _, (res3_iff idx (ix3 e q k) n q k).2 ⟨(Finset.mem_filter.1 he).2, rfl, rfl⟩⟩
  · intro j hj
    have hr := (res3_iff idx j n q k).1 (Finset.mem_filter.1 hj).2
    exact back3 q k j hr.2.1 hr.2.2
  · intro e he
    rfl
  · intro j hj
    have hr := (res3_iff idx j n q k).1 (Finset.mem_filter.1 hj).2
    exact (congrArg u (back3 q k j hr.2.1 hr.2.2)).symm

/-- The merged sum's message columns are the sum of the message rows. -/
theorem scat4_msg (idx : SEx1.Idx → BitVec 32) (u4 : SEx4D.Idx → EReal) (u1 : SExD.Idx → EReal)
    (h : ∀ (e : Fin 400000) (q : Fin 128), u4 (ix2 e (colMsg q)) = u1 (ix2 e q)) (n : Fin 25000) (q : Fin 128) :
    Ideal.hostScatterAdd sdims4 (fun _ => (0 : EReal)) idx u4 (ix2 n (colMsg q))
      = Ideal.hostScatterAdd sdims1 (fun _ => (0 : EReal)) idx u1 (ix2 n q) := by
  rw [scat4_apply, scat1_apply]
  simp only [zero_add]
  exact Finset.sum_congr rfl fun e _ => h e q

/-- The merged sum's column `128 + 128 k + q` is entry `(q, k)` of the sum of the slabs. -/
theorem scat4_mv (idx : SEx1.Idx → BitVec 32) (u4 : SEx4D.Idx → EReal) (u3 : SExDx3.Idx → EReal)
    (h : ∀ (e : Fin 400000) (q : Fin 128) (k : Fin 3), u4 (ix2 e (colMv k q)) = u3 (ix3 e q k)) (n : Fin 25000) (q : Fin 128) (k : Fin 3) :
    Ideal.hostScatterAdd sdims4 (fun _ => (0 : EReal)) idx u4 (ix2 n (colMv k q))
      = Ideal.hostScatterAdd sdims3 (fun _ => (0 : EReal)) idx u3 (ix3 n q k) := by
  rw [scat4_apply, scat3_apply]
  simp only [zero_add]
  exact Finset.sum_congr rfl fun e _ => h e q k

end Cert.Spec

end
-- ==== Proof.RefEdge.lean ====
/-
  The reference's edge-side stages read row by row: the node embedding, the edge embedding, the two gathers, the
  message row, the vector-message row and its product with the edge vector.
-/
import proofs.«425565_j41283225649648_3_alg».proof.Proof.Gen.ReferenceIdeal.Run
import proofs.«425565_j41283225649648_3_alg».proof.Proof.Gen.ReferenceIdeal.Read
import proofs.«425565_j41283225649648_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefVal

open Cert.ReferenceIdeal Cert.ReferenceIdeal.Gen Cert.ReferenceIdeal.Read Idealize.ShloMosaic Idealize.ShloMosaic.TcCoe Idealize.SL.Sem
open Idealize.ShloMosaic.ValueIdx
open Cert.Spec (mat vec row1)

variable (x0 : S25000x100.Idx → EReal) (x1 : S2x400000.Idx → BitVec 32) (x2 : S400000x120.Idx → EReal) (x3 : S400000x3.Idx → EReal)
  (x4 : S25000x1.Idx → EReal) (x5 : S100x128.Idx → EReal) (x6 : S128.Idx → EReal) (x7 : S120x128.Idx → EReal) (x8 : S128.Idx → EReal)
  (x9 : S128x128.Idx → EReal) (x10 : S128.Idx → EReal) (x11 : S384x128.Idx → EReal) (x12 : S128.Idx → EReal) (x13 : S128x128.Idx → EReal)
  (x14 : S128.Idx → EReal) (x15 : S256x128.Idx → EReal) (x16 : S128.Idx → EReal) (x17 : S128x128.Idx → EReal) (x18 : S128.Idx → EReal)
  (x19 : S384x128.Idx → EReal) (x20 : S128.Idx → EReal) (x21 : S128x128.Idx → EReal) (x22 : S128.Idx → EReal) (x23 : S1x64.Idx → EReal)
  (x24 : S128x128.Idx → EReal) (x25 : S128.Idx → EReal) (x26 : S128x128.Idx → EReal) (x27 : S128.Idx → EReal)

/-- The reference's node embedding array. -/
abbrev RF : S25000x128.Idx → EReal := val_main_v7 (F := Ideal) x0 x5 x6
/-- The reference's edge embedding array. -/
abbrev REA : S400000x128.Idx → EReal := val_main_v16 (F := Ideal) x2 x7 x8 x9 x10
/-- The reference's two gathered arrays. -/
abbrev RFI : S400000x128.Idx → EReal := val_main_v23 (F := Ideal) x0 x1 x5 x6
abbrev RFJ : S400000x128.Idx → EReal := val_main_v30 (F := Ideal) x0 x1 x5 x6
/-- The reference's message array, vector-message array and the slabs it scatters. -/
abbrev RMSG : S400000x128.Idx → EReal := val_main_v41 (F := Ideal) x0 x1 x2 x5 x6 x7 x8 x9 x10 x11 x12 x13 x14
abbrev RMV : S400000x128.Idx → EReal := val_main_v63 (F := Ideal) x0 x1 x2 x5 x6 x7 x8 x9 x10 x19 x20 x21 x22
abbrev RMVEV : S400000x128x3.Idx → EReal := val_main_v68 (F := Ideal) x0 x1 x2 x3 x5 x6 x7 x8 x9 x10 x19 x20 x21 x22

/-! ## Facts shared by the stages -/

/-- Two rank-2 indices with the same two coordinates are equal. -/
local macro "ix2_rfl" : term => `(funext fun a => match a with | ⟨0, _⟩ => rfl | ⟨1, _⟩ => rfl)

/-- The single-precision word of `1.0` denotes one. -/
private theorem one_bits : Ideal.ofBits .f32 0x3F800000#32 = 1 := IdealRules.sign_bit.ideal_onePat .f32

/-- `y · (1 / (1 + e^(-y)))`, the two ones carried as single-precision words, is `silu y`. -/
private theorem silu_bits (y : EReal) :
    FloatOps.mulf (F := Ideal) (φ := .f32) y
      (FloatOps.hostDivf (FloatOps.ofBits .f32 0x3F800000#32)
        (FloatOps.addf (FloatOps.ofBits .f32 0x3F800000#32) (FloatOps.hostUnary .exp (FloatOps.hostNegf y))))
      = Spec.silu y := by
  show y * Ideal.div (Ideal.ofBits .f32 0x3F800000#32) (Ideal.ofBits .f32 0x3F800000#32 + Ideal.exp (-y)) = _
  rw [one_bits]; rfl

/-- Three arrays of width 128 joined along the columns, read at row `e` and column `k`: the three rows side by
    side. The column falls in exactly one of the three spans `[0, 128)`, `[128, 256)`, `[256, 384)`. -/
private theorem cat3_read (A B C : S400000x128.Idx → EReal)
    (h : Shape.Concatenates ([(⟨S400000x128, A⟩ : (s : Shape) × (s.Idx → EReal)), ⟨S400000x128, B⟩, ⟨S400000x128, C⟩].map (·.1))
      S400000x384 1)
    (e : Fin 400000) (k : Fin 384) :
    concatenate S400000x384 1 [⟨S400000x128, A⟩, ⟨S400000x128, B⟩, ⟨S400000x128, C⟩] h (ix2 e k)
      = Spec.cat3 (mat A e) (mat B e) (mat C e) k := by
  unfold Spec.cat3
  by_cases h1 : k.val < 128
  · rw [dif_pos h1]
    exact concatenate_apply_piece 1 _ h (ix2 e k) 0 (by show 0 < 3; omega) S400000x128 A rfl rfl 0 rfl (ix2 e ⟨k.val, h1⟩)
      (fun b hb => by
        match b with
        | ⟨0, _⟩ => rfl
        | ⟨1, _⟩ => exact absurd rfl hb)
      (by show 0 + k.val = k.val; omega)
  · rw [dif_neg h1]
    by_cases h2 : k.val < 256
    · rw [dif_pos h2]
      exact concatenate_apply_piece 1 _ h (ix2 e k) 1 (by show 1 < 3; omega) S400000x128 B rfl rfl 128 rfl
        (ix2 e ⟨k.val - 128, by omega⟩)
        (fun b hb => by
          match b with
          | ⟨0, _⟩ => rfl
          | ⟨1, _⟩ => exact absurd rfl hb)
        (by show 128 + (k.val - 128) = k.val; omega)
    · rw [dif_neg h2]
      exact concatenate_apply_piece 1 _ h (ix2 e k) 2 (by show 2 < 3; omega) S400000x128 C rfl rfl 256 rfl
        (ix2 e ⟨k.val - 256, by have := k.isLt; omega⟩)
        (fun b hb => by
          match b with
          | ⟨0, _⟩ => rfl
          | ⟨1, _⟩ => exact absurd rfl hb)
        (by show 256 + (k.val - 256) = k.val; omega)

/-! ## The node embedding: an affine map of a species row -/

private theorem bias6 (r : Fin 25000) (q : Fin 128) : val_main_v6 (F := Ideal) x6 (ix2 r q) = x6 (ix1 q) := by
  rw [val_main_v6_apply, val_main_v5_apply]
  exact congrArg x6 (funext fun a => match a with | ⟨0, _⟩ => rfl)

private theorem dot4 (r : Fin 25000) (q : Fin 128) :
    val_main_v4 (F := Ideal) x0 x5 (ix2 r q) = ∑ k : Fin 100, x0 (ix2 r k) * x5 (ix2 k q) := by
  rw [val_main_v4_apply]
  refine Finset.sum_congr rfl fun k _ => ?_
  rw [show lidx_main_v4 (ix2 r q) k = ix2 r k from ix2_rfl, show ridx_main_v4 (ix2 r q) k = ix2 k q from ix2_rfl]

theorem ref_f (r : Fin 25000) (q : Fin 128) : RF x0 x5 x6 (ix2 r q) = Spec.lin (mat x0 r) (mat x5) (vec x6) q := by
  show val_main_v7 (F := Ideal) x0 x5 x6 (ix2 r q) = _
  rw [val_main_v7_apply, dot4, bias6]
  rfl

/-! ## The edge embedding: a perceptron of an edge-attribute row -/

private theorem bias10 (e : Fin 400000) (q : Fin 128) : val_main_v10 (F := Ideal) x8 (ix2 e q) = x8 (ix1 q) := by
  rw [val_main_v10_apply, val_main_v9_apply]
  exact congrArg x8 (funext fun a => match a with | ⟨0, _⟩ => rfl)

private theorem dot8 (e : Fin 400000) (q : Fin 128) :
    val_main_v8 (F := Ideal) x2 x7 (ix2 e q) = ∑ k : Fin 120, x2 (ix2 e k) * x7 (ix2 k q) := by
  rw [val_main_v8_apply]
  refine Finset.sum_congr rfl fun k _ => ?_
  rw [show lidx_main_v8 (ix2 e q) k = ix2 e k from ix2_rfl, show ridx_main_v8 (ix2 e q) k = ix2 k q from ix2_rfl]

/-- The first layer at an edge row. -/
private theorem lin11 (e : Fin 400000) (h : Fin 128) :
    val_main_v11 (F := Ideal) x2 x7 x8 (ix2 e h) = Spec.lin (mat x2 e) (mat x7) (vec x8) h := by
  rw [val_main_v11_apply, dot8, bias10]
  rfl

/-- The hidden row: the activation of the first layer. -/
private theorem hid12 (e : Fin 400000) (h : Fin 128) :
    val_main_v12 (F := Ideal) x2 x7 x8 (ix2 e h) = Spec.silu (Spec.lin (mat x2 e) (mat x7) (vec x8) h) := by
  rw [val_main_v12_apply, val_main_call0_v5_apply, val_main_call0_v4_apply, val_main_call0_cst_0_apply,
    val_main_call0_v3_apply, val_main_call0_v2_apply, val_main_call0_cst_apply, val_main_call0_v1_apply,
    val_main_call0_v0_apply, lin11]
  exact silu_bits _

private theorem bias15 (e : Fin 400000) (q : Fin 128) : val_main_v15 (F := Ideal) x10 (ix2 e q) = x10 (ix1 q) := by
  rw [val_main_v15_apply, val_main_v14_apply]
  exact congrArg x10 (funext fun a => match a with | ⟨0, _⟩ => rfl)

private theorem dot13 (e : Fin 400000) (q : Fin 128) :
    val_main_v13 (F := Ideal) x2 x7 x8 x9 (ix2 e q)
      = ∑ k : Fin 128, Spec.silu (Spec.lin (mat x2 e) (mat x7) (vec x8) k) * x9 (ix2 k q) := by
  rw [val_main_v13_apply]
  refine Finset.sum_congr rfl fun k _ => ?_
  rw [show lidx_main_v13 (ix2 e q) k = ix2 e k from ix2_rfl, show ridx_main_v13 (ix2 e q) k = ix2 k q from ix2_rfl, hid12]

theorem ref_ea (e : Fin 400000) (q : Fin 128) :
    REA x2 x7 x8 x9 x10 (ix2 e q) = Spec.mlp (mat x2 e) (mat x7) (vec x8) (mat x9) (vec x10) q := by
  show val_main_v16 (F := Ideal) x2 x7 x8 x9 x10 (ix2 e q) = _
  rw [val_main_v16_apply, dot13, bias15]
  rfl

/-! ## The gathers: rows of the node embedding at the wrapped entries of a row of the edge index -/

/-- The start indices of the first gather: row 0 of the edge index, each entry wrapped. -/
private theorem icol0 : val_main_v22 (F := Ideal) x1 = Spec.icol x1 0 := by
  funext p
  rw [val_main_v22_apply, val_main_v21_apply, val_main_v18_apply, val_main_v20_apply, val_main_v17_apply,
    val_main_v19_apply, val_main_c_apply, val_main_c_0_apply, val_main_v1_apply, val_main_v0_apply]
  have hJ : idx_main_v0 (idx_main_v1 (idx_main_v22 p)) = ix2 (0 : Fin 2) (⟨(p 0).val, idx2_lt0 p⟩ : Fin 400000) :=
    funext fun a => match a with
      | ⟨0, _⟩ => rfl
      | ⟨1, _⟩ => Fin.ext (Nat.mod_eq_of_lt (idx2_lt0 p))
  exact congrArg (fun j => Spec.wrap (x1 j)) hJ

/-- The start indices of the second gather: row 1 of the edge index, each entry wrapped. -/
private theorem icol1 : val_main_v29 (F := Ideal) x1 = Spec.icol x1 1 := by
  funext p
  rw [val_main_v29_apply, val_main_v28_apply, val_main_v25_apply, val_main_v27_apply, val_main_v24_apply,
    val_main_v26_apply, val_main_c_1_apply, val_main_c_2_apply, val_main_v3_apply, val_main_v2_apply]
  have hJ : idx_main_v2 (idx_main_v3 (idx_main_v29 p)) = ix2 (1 : Fin 2) (⟨(p 0).val, idx2_lt0 p⟩ : Fin 400000) :=
    funext fun a => match a with
      | ⟨0, _⟩ => rfl
      | ⟨1, _⟩ => Fin.ext (Nat.mod_eq_of_lt (idx2_lt0 p))
  exact congrArg (fun j => Spec.wrap (x1 j)) hJ

/-- The gathers are the rows of the embedding at the wrapped indices of each row of the edge index. -/
theorem ref_fi : RFI x0 x1 x5 x6 = Spec.takeRows (RF x0 x5 x6) (Spec.icol x1 0) := by
  show val_main_v23 (F := Ideal) x0 x1 x5 x6 = _
  unfold val_main_v23 Spec.takeRows
  rw [icol0]
  rfl
theorem ref_fj : RFJ x0 x1 x5 x6 = Spec.takeRows (RF x0 x5 x6) (Spec.icol x1 1) := by
  show val_main_v30 (F := Ideal) x0 x1 x5 x6 = _
  unfold val_main_v30 Spec.takeRows
  rw [icol1]
  rfl

/-! ## The message row -/

/-- The joined array at an edge row: the two gathered rows and the edge embedding side by side. -/
private theorem cat31 (e : Fin 400000) (k : Fin 384) :
    val_main_v31 (F := Ideal) x0 x1 x2 x5 x6 x7 x8 x9 x10 (ix2 e k)
      = Spec.cat3 (mat (RFI x0 x1 x5 x6) e) (mat (RFJ x0 x1 x5 x6) e) (mat (REA x2 x7 x8 x9 x10) e) k := by
  unfold val_main_v31
  exact cat3_read _ _ _ _ e k

private theorem bias34 (e : Fin 400000) (q : Fin 128) : val_main_v34 (F := Ideal) x12 (ix2 e q) = x12 (ix1 q) := by
  rw [val_main_v34_apply, val_main_v33_apply]
  exact congrArg x12 (funext fun a => match a with | ⟨0, _⟩ => rfl)

private theorem dot32 (e : Fin 400000) (q : Fin 128) :
    val_main_v32 (F := Ideal) x0 x1 x2 x5 x6 x7 x8 x9 x10 x11 (ix2 e q)
      = ∑ k : Fin 384, Spec.cat3 (mat (RFI x0 x1 x5 x6) e) (mat (RFJ x0 x1 x5 x6) e) (mat (REA x2 x7 x8 x9 x10) e) k
          * x11 (ix2 k q) := by
  rw [val_main_v32_apply]
  refine Finset.sum_congr rfl fun k _ => ?_
  rw [show lidx_main_v32 (ix2 e q) k = ix2 e k from ix2_rfl, show ridx_main_v32 (ix2 e q) k = ix2 k q from ix2_rfl, cat31]

private theorem lin35 (e : Fin 400000) (h : Fin 128) :
    val_main_v35 (F := Ideal) x0 x1 x2 x5 x6 x7 x8 x9 x10 x11 x12 (ix2 e h)
      = Spec.lin (Spec.cat3 (mat (RFI x0 x1 x5 x6) e) (mat (RFJ x0 x1 x5 x6) e) (mat (REA x2 x7 x8 x9 x10) e))
          (mat x11) (vec x12) h := by
  rw [val_main_v35_apply, dot32, bias34]
  rfl

private theorem hid36 (e : Fin 400000) (h : Fin 128) :
    val_main_v36 (F := Ideal) x0 x1 x2 x5 x6 x7 x8 x9 x10 x11 x12 (ix2 e h)
      = Spec.silu (Spec.lin (Spec.cat3 (mat (RFI x0 x1 x5 x6) e) (mat (RFJ x0 x1 x5 x6) e) (mat (REA x2 x7 x8 x9 x10) e))
          (mat x11) (vec x12) h) := by
  rw [val_main_v36_apply, val_main_call1_v5_apply, val_main_call1_v4_apply, val_main_call1_cst_0_apply,
    val_main_call1_v3_apply, val_main_call1_v2_apply, val_main_call1_cst_apply, val_main_call1_v1_apply,
    val_main_call1_v0_apply, lin35]
  exact silu_bits _

private theorem bias39 (e : Fin 400000) (q : Fin 128) : val_main_v39 (F := Ideal) x14 (ix2 e q) = x14 (ix1 q) := by
  rw [val_main_v39_apply, val_main_v38_apply]
  exact congrArg x14 (funext fun a => match a with | ⟨0, _⟩ => rfl)

private theorem dot37 (e : Fin 400000) (q : Fin 128) :
    val_main_v37 (F := Ideal) x0 x1 x2 x5 x6 x7 x8 x9 x10 x11 x12 x13 (ix2 e q)
      = ∑ k : Fin 128,
          Spec.silu (Spec.lin (Spec.cat3 (mat (RFI x0 x1 x5 x6) e) (mat (RFJ x0 x1 x5 x6) e) (mat (REA x2 x7 x8 x9 x10) e))
            (mat x11) (vec x12) k) * x13 (ix2 k q) := by
  rw [val_main_v37_apply]
  refine Finset.sum_congr rfl fun k _ => ?_
  rw [show lidx_main_v37 (ix2 e q) k = ix2 e k from ix2_rfl, show ridx_main_v37 (ix2 e q) k = ix2 k q from ix2_rfl, hid36]

theorem ref_msg (e : Fin 400000) (q : Fin 128) :
    RMSG x0 x1 x2 x5 x6 x7 x8 x9 x10 x11 x12 x13 x14 (ix2 e q)
      = Spec.msg (mat (RFI x0 x1 x5 x6) e) (mat (RFJ x0 x1 x5 x6) e) (mat (REA x2 x7 x8 x9 x10) e)
          (mat x11) (vec x12) (mat x13) (vec x14) q := by
  show val_main_v41 (F := Ideal) x0 x1 x2 x5 x6 x7 x8 x9 x10 x11 x12 x13 x14 (ix2 e q) = _
  rw [val_main_v41_apply, val_main_v40_apply, dot37, bias39]
  rfl

/-! ## The vector-message row and its product with the edge vector -/

private theorem bias57 (e : Fin 400000) (q : Fin 128) : val_main_v57 (F := Ideal) x20 (ix2 e q) = x20 (ix1 q) := by
  rw [val_main_v57_apply, val_main_v56_apply]
  exact congrArg x20 (funext fun a => match a with | ⟨0, _⟩ => rfl)

private theorem dot55 (e : Fin 400000) (q : Fin 128) :
    val_main_v55 (F := Ideal) x0 x1 x2 x5 x6 x7 x8 x9 x10 x19 (ix2 e q)
      = ∑ k : Fin 384, Spec.cat3 (mat (RFI x0 x1 x5 x6) e) (mat (RFJ x0 x1 x5 x6) e) (mat (REA x2 x7 x8 x9 x10) e) k
          * x19 (ix2 k q) := by
  rw [val_main_v55_apply]
  refine Finset.sum_congr rfl fun k _ => ?_
  rw [show lidx_main_v55 (ix2 e q) k = ix2 e k from ix2_rfl, show ridx_main_v55 (ix2 e q) k = ix2 k q from ix2_rfl, cat31]

private theorem lin58 (e : Fin 400000) (h : Fin 128) :
    val_main_v58 (F := Ideal) x0 x1 x2 x5 x6 x7 x8 x9 x10 x19 x20 (ix2 e h)
      = Spec.lin (Spec.cat3 (mat (RFI x0 x1 x5 x6) e) (mat (RFJ x0 x1 x5 x6) e) (mat (REA x2 x7 x8 x9 x10) e))
          (mat x19) (vec x20) h := by
  rw [val_main_v58_apply, dot55, bias57]
  rfl

private theorem hid59 (e : Fin 400000) (h : Fin 128) :
    val_main_v59 (F := Ideal) x0 x1 x2 x5 x6 x7 x8 x9 x10 x19 x20 (ix2 e h)
      = Spec.silu (Spec.lin (Spec.cat3 (mat (RFI x0 x1 x5 x6) e) (mat (RFJ x0 x1 x5 x6) e) (mat (REA x2 x7 x8 x9 x10) e))
          (mat x19) (vec x20) h) := by
  rw [val_main_v59_apply, val_main_call3_v5_apply, val_main_call3_v4_apply, val_main_call3_cst_0_apply,
    val_main_call3_v3_apply, val_main_call3_v2_apply, val_main_call3_cst_apply, val_main_call3_v1_apply,
    val_main_call3_v0_apply, lin58]
  exact silu_bits _

private theorem bias62 (e : Fin 400000) (q : Fin 128) : val_main_v62 (F := Ideal) x22 (ix2 e q) = x22 (ix1 q) := by
  rw [val_main_v62_apply, val_main_v61_apply]
  exact congrArg x22 (funext fun a => match a with | ⟨0, _⟩ => rfl)

private theorem dot60 (e : Fin 400000) (q : Fin 128) :
    val_main_v60 (F := Ideal) x0 x1 x2 x5 x6 x7 x8 x9 x10 x19 x20 x21 (ix2 e q)
      = ∑ k : Fin 128,
          Spec.silu (Spec.lin (Spec.cat3 (mat (RFI x0 x1 x5 x6) e) (mat (RFJ x0 x1 x5 x6) e) (mat (REA x2 x7 x8 x9 x10) e))
            (mat x19) (vec x20) k) * x21 (ix2 k q) := by
  rw [val_main_v60_apply]
  refine Finset.sum_congr rfl fun k _ => ?_
  rw [show lidx_main_v60 (ix2 e q) k = ix2 e k from ix2_rfl, show ridx_main_v60 (ix2 e q) k = ix2 k q from ix2_rfl, hid59]

theorem ref_mv (e : Fin 400000) (q : Fin 128) :
    RMV x0 x1 x2 x5 x6 x7 x8 x9 x10 x19 x20 x21 x22 (ix2 e q)
      = Spec.mlp (Spec.cat3 (mat (RFI x0 x1 x5 x6) e) (mat (RFJ x0 x1 x5 x6) e) (mat (REA x2 x7 x8 x9 x10) e))
          (mat x19) (vec x20) (mat x21) (vec x22) q := by
  show val_main_v63 (F := Ideal) x0 x1 x2 x5 x6 x7 x8 x9 x10 x19 x20 x21 x22 (ix2 e q) = _
  rw [val_main_v63_apply, dot60, bias62]
  rfl

theorem ref_mvev (e : Fin 400000) (q : Fin 128) (k : Fin 3) :
    RMVEV x0 x1 x2 x3 x5 x6 x7 x8 x9 x10 x19 x20 x21 x22 (ix3 e q k)
      = x3 (ix2 e k) * RMV x0 x1 x2 x5 x6 x7 x8 x9 x10 x19 x20 x21 x22 (ix2 e q) := by
  show val_main_v68 (F := Ideal) x0 x1 x2 x3 x5 x6 x7 x8 x9 x10 x19 x20 x21 x22 (ix3 e q k) = _
  rw [val_main_v68_apply, val_main_v66_apply, val_main_v64_apply, val_main_v67_apply, val_main_v65_apply,
    show idx_main_v64 (idx_main_v66 (ix3 e q k)) = ix2 e k from ix2_rfl,
    show idx_main_v65 (idx_main_v67 (ix3 e q k)) = ix2 e q from ix2_rfl]
  rfl

end Cert.ReferenceIdeal.RefVal

end
-- ==== Proof.RefNode.lean ====
/-
  The reference's node-side stages: the two segment sums as the exact scatter-adds of their edge arrays at the raw
  indices of row 1, and the node update read row by row.
-/
import proofs.«425565_j41283225649648_3_alg».proof.Proof.Gen.ReferenceIdeal.Run
import proofs.«425565_j41283225649648_3_alg».proof.Proof.Gen.ReferenceIdeal.Read
import proofs.«425565_j41283225649648_3_alg».proof.Proof.Spec
import proofs.«425565_j41283225649648_3_alg».proof.Proof.RefEdge
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefVal

open Cert.ReferenceIdeal Cert.ReferenceIdeal.Gen Cert.ReferenceIdeal.Read Idealize.ShloMosaic Idealize.ShloMosaic.TcCoe Idealize.SL.Sem
open Idealize.ShloMosaic.ValueIdx
open Cert.Spec (mat vec row1)

variable (x0 : S25000x100.Idx → EReal) (x1 : S2x400000.Idx → BitVec 32) (x2 : S400000x120.Idx → EReal) (x3 : S400000x3.Idx → EReal)
  (x4 : S25000x1.Idx → EReal) (x5 : S100x128.Idx → EReal) (x6 : S128.Idx → EReal) (x7 : S120x128.Idx → EReal) (x8 : S128.Idx → EReal)
  (x9 : S128x128.Idx → EReal) (x10 : S128.Idx → EReal) (x11 : S384x128.Idx → EReal) (x12 : S128.Idx → EReal) (x13 : S128x128.Idx → EReal)
  (x14 : S128.Idx → EReal) (x15 : S256x128.Idx → EReal) (x16 : S128.Idx → EReal) (x17 : S128x128.Idx → EReal) (x18 : S128.Idx → EReal)
  (x19 : S384x128.Idx → EReal) (x20 : S128.Idx → EReal) (x21 : S128x128.Idx → EReal) (x22 : S128.Idx → EReal) (x23 : S1x64.Idx → EReal)
  (x24 : S128x128.Idx → EReal) (x25 : S128.Idx → EReal) (x26 : S128x128.Idx → EReal) (x27 : S128.Idx → EReal)

/-- The reference's aggregated messages and vector output. -/
abbrev RAGG : S25000x128.Idx → EReal := val_main_v44 (F := Ideal) x0 x1 x2 x5 x6 x7 x8 x9 x10 x11 x12 x13 x14
abbrev RV0 : S25000x128x3.Idx → EReal := val_main_v71 (F := Ideal) x0 x1 x2 x3 x5 x6 x7 x8 x9 x10 x19 x20 x21 x22
/-- The reference's node update. -/
abbrev RH0 : S25000x128.Idx → EReal :=
  val_main_v87 (F := Ideal) x0 x1 x2 x4 x5 x6 x7 x8 x9 x10 x11 x12 x13 x14 x15 x16 x17 x18 x23 x24 x25 x26 x27

/-! ## Words, the activation, and the two concatenations -/

/-- The single-precision word of one is the extended real one. -/
private theorem one_word : Ideal.ofBits .f32 0x3F800000#32 = 1 := by
  rw [show (1 : EReal) = ((1 : ℝ) : EReal) by norm_cast]
  simp [Ideal.ofBits, Ideal.ieee, -EReal.coe_mul]; norm_num

/-- `x · (1 / (1 + exp (−x)))`, the two ones written as words, is `silu x`. -/
private theorem silu_word (x : EReal) :
    x * Ideal.div (Ideal.ofBits .f32 0x3F800000#32) (Ideal.ofBits .f32 0x3F800000#32 + Ideal.exp (-x)) = Spec.silu x := by
  rw [one_word]; rfl

/-- A perceptron is its second layer over the activated first layer. -/
private theorem mlp_eq {K H C : Nat} (x : Fin K → EReal) (W1 : Fin K → Fin H → EReal) (b1 : Fin H → EReal)
    (W2 : Fin H → Fin C → EReal) (b2 : Fin C → EReal) (c : Fin C) :
    Spec.mlp x W1 b1 W2 b2 c = (∑ h : Fin H, Spec.silu (Spec.lin x W1 b1 h) * W2 h c) + b2 c := rfl

/-- Two arrays of width 128 joined along the columns, read in row `n`: the left array below column 128, the right
    one from there on. -/
private theorem cat128_read (a b : S25000x128.Idx → EReal) (n : Fin 25000) (k : Fin 256) :
    concatenate S25000x256 1 [⟨S25000x128, a⟩, ⟨S25000x128, b⟩] concatenates_S25000x128_S25000x128_S25000x256_d1 (ix2 n k)
      = Spec.cat2 (mat a n) (mat b n) k := by
  unfold Spec.cat2
  by_cases hk : k.val < 128
  · rw [dif_pos hk]
    exact concatenate_pair_apply_left 1 a b concatenates_S25000x128_S25000x128_S25000x256_d1 (ix2 n k) rfl
      (ix2 n ⟨k.val, hk⟩) (fun c => by
        match c with
        | ⟨0, _⟩ => rfl
        | ⟨1, _⟩ => rfl)
  · rw [dif_neg hk]
    exact concatenate_pair_apply_right 1 a b concatenates_S25000x128_S25000x128_S25000x256_d1 (ix2 n k) rfl rfl
      (ix2 n ⟨k.val - 128, by have := k.isLt; omega⟩)
      (fun c hc => by
        match c with
        | ⟨0, _⟩ => rfl
        | ⟨1, _⟩ => exact absurd rfl hc)
      (by show (k.val - 128) + 128 = k.val; omega)

/-- The same for two arrays of width 64. -/
private theorem cat64_read (a b : S25000x64.Idx → EReal) (n : Fin 25000) (k : Fin 128) :
    concatenate S25000x128 1 [⟨S25000x64, a⟩, ⟨S25000x64, b⟩] concatenates_S25000x64_S25000x64_S25000x128_d1 (ix2 n k)
      = Spec.cat64 (mat a n) (mat b n) k := by
  unfold Spec.cat64
  by_cases hk : k.val < 64
  · rw [dif_pos hk]
    exact concatenate_pair_apply_left 1 a b concatenates_S25000x64_S25000x64_S25000x128_d1 (ix2 n k) rfl
      (ix2 n ⟨k.val, hk⟩) (fun c => by
        match c with
        | ⟨0, _⟩ => rfl
        | ⟨1, _⟩ => rfl)
  · rw [dif_neg hk]
    exact concatenate_pair_apply_right 1 a b concatenates_S25000x64_S25000x64_S25000x128_d1 (ix2 n k) rfl rfl
      (ix2 n ⟨k.val - 64, by have := k.isLt; omega⟩)
      (fun c hc => by
        match c with
        | ⟨0, _⟩ => rfl
        | ⟨1, _⟩ => exact absurd rfl hc)
      (by show (k.val - 64) + 64 = k.val; omega)

/-! ## The segment sums -/

/-- Row 1 of the edge index, sliced, flattened and stood up as a column, is the column of raw scatter indices. -/
private theorem ref_jcol : val_main_v43 (F := Ideal) x1 = Spec.jcol x1 := by
  funext p
  rw [val_main_v43_apply, val_main_v3_apply, val_main_v2_apply]
  unfold Spec.jcol
  exact congrArg x1 (funext fun a => Fin.ext (by
    match a with
    | ⟨0, _⟩ => rfl
    | ⟨1, _⟩ => exact Nat.mod_eq_of_lt (idx2_lt0 p)))

/-- The same column as the second segment sum builds it. -/
private theorem ref_jcol' : val_main_v70 (F := Ideal) x1 = Spec.jcol x1 := by
  funext p
  rw [val_main_v70_apply, val_main_v3_apply, val_main_v2_apply]
  unfold Spec.jcol
  exact congrArg x1 (funext fun a => Fin.ext (by
    match a with
    | ⟨0, _⟩ => rfl
    | ⟨1, _⟩ => exact Nat.mod_eq_of_lt (idx2_lt0 p)))

/-- The array the first segment sum starts from is zero everywhere. -/
private theorem ref_zero2 : val_main_v42 (F := Ideal) = fun _ => (0 : EReal) := by
  funext i
  rw [val_main_v42_apply, val_main_cst_apply]
  exact Ideal.ofBits_zero_f32

/-- So is the one the second starts from. -/
private theorem ref_zero3 : val_main_v69 (F := Ideal) = fun _ => (0 : EReal) := by
  funext i
  rw [val_main_v69_apply, val_main_cst_3_apply]
  exact Ideal.ofBits_zero_f32

theorem ref_agg :
    RAGG x0 x1 x2 x5 x6 x7 x8 x9 x10 x11 x12 x13 x14
      = Ideal.hostScatterAdd Spec.sdims1 (fun _ => (0 : EReal)) (Spec.jcol x1) (RMSG x0 x1 x2 x5 x6 x7 x8 x9 x10 x11 x12 x13 x14) := by
  unfold RAGG RMSG val_main_v44
  rw [ref_zero2, ref_jcol]
  rfl

theorem ref_v0 :
    RV0 x0 x1 x2 x3 x5 x6 x7 x8 x9 x10 x19 x20 x21 x22
      = Ideal.hostScatterAdd Spec.sdims3 (fun _ => (0 : EReal)) (Spec.jcol x1) (RMVEV x0 x1 x2 x3 x5 x6 x7 x8 x9 x10 x19 x20 x21 x22) := by
  unfold RV0 RMVEV val_main_v71
  rw [ref_zero3, ref_jcol']
  rfl

/-! ## The node update: the perceptron of `[f | agg]` -/

/-- Its first layer before the activation. -/
private theorem upd_pre (n : Fin 25000) (h : Fin 128) :
    val_main_v49 (F := Ideal) x0 x1 x2 x5 x6 x7 x8 x9 x10 x11 x12 x13 x14 x15 x16 (ix2 n h)
      = Spec.lin (Spec.cat2 (mat (RF x0 x5 x6) n) (mat (RAGG x0 x1 x2 x5 x6 x7 x8 x9 x10 x11 x12 x13 x14) n)) (mat x15) (vec x16) h := by
  rw [val_main_v49_apply, val_main_v46_apply, val_main_v48_apply, val_main_v47_apply, Ideal.addf_def]
  unfold Spec.lin
  refine congrArg₂ (· + ·) (Finset.sum_congr rfl fun k _ => ?_) ?_
  · have el : lidx_main_v46 (ix2 n h) k = ix2 n k :=
      funext fun a => by match a with | ⟨0, _⟩ => rfl | ⟨1, _⟩ => rfl
    have er : ridx_main_v46 (ix2 n h) k = ix2 k h :=
      funext fun a => by match a with | ⟨0, _⟩ => rfl | ⟨1, _⟩ => rfl
    rw [el, er]
    unfold val_main_v45
    rw [cat128_read]
  · exact congrArg x16 (funext fun a => by match a with | ⟨0, _⟩ => rfl)

/-- Its hidden row. -/
private theorem upd_hid (n : Fin 25000) (h : Fin 128) :
    val_main_v50 (F := Ideal) x0 x1 x2 x5 x6 x7 x8 x9 x10 x11 x12 x13 x14 x15 x16 (ix2 n h)
      = Spec.silu (Spec.lin (Spec.cat2 (mat (RF x0 x5 x6) n) (mat (RAGG x0 x1 x2 x5 x6 x7 x8 x9 x10 x11 x12 x13 x14) n)) (mat x15) (vec x16) h) := by
  rw [val_main_v50_apply, val_main_call2_v5_apply, val_main_call2_v4_apply, val_main_call2_cst_0_apply,
    val_main_call2_v3_apply, val_main_call2_v2_apply, val_main_call2_cst_apply, val_main_call2_v1_apply,
    val_main_call2_v0_apply, upd_pre]
  exact silu_word _

/-- The perceptron. -/
private theorem upd_h (n : Fin 25000) (q : Fin 128) :
    val_main_v54 (F := Ideal) x0 x1 x2 x5 x6 x7 x8 x9 x10 x11 x12 x13 x14 x15 x16 x17 x18 (ix2 n q)
      = Spec.mlp (Spec.cat2 (mat (RF x0 x5 x6) n) (mat (RAGG x0 x1 x2 x5 x6 x7 x8 x9 x10 x11 x12 x13 x14) n)) (mat x15) (vec x16) (mat x17) (vec x18) q := by
  rw [val_main_v54_apply, val_main_v51_apply, val_main_v53_apply, val_main_v52_apply, Ideal.addf_def, mlp_eq]
  refine congrArg₂ (· + ·) (Finset.sum_congr rfl fun k _ => ?_) ?_
  · have el : lidx_main_v51 (ix2 n q) k = ix2 n k :=
      funext fun a => by match a with | ⟨0, _⟩ => rfl | ⟨1, _⟩ => rfl
    have er : ridx_main_v51 (ix2 n q) k = ix2 k q :=
      funext fun a => by match a with | ⟨0, _⟩ => rfl | ⟨1, _⟩ => rfl
    rw [el, er, upd_hid]
  · exact congrArg x18 (funext fun a => by match a with | ⟨0, _⟩ => rfl)

/-! ## The node update: the perceptron of the time features -/

/-- The projected time: a product of one term, scaled by the word of `2π`. -/
private theorem time_proj (n : Fin 25000) (k : Fin 64) :
    val_main_v74 (F := Ideal) x4 x23 (ix2 n k)
      = Ideal.ofBits .f32 0x40C90FDB#32 * (x4 (ix2 n (0 : Fin 1)) * row1 x23 k) := by
  rw [val_main_v74_apply, val_main_v73_apply, val_main_cst_4_apply, val_main_v72_apply, Fin.sum_univ_one]
  have el : lidx_main_v72 (ix2 n k) 0 = ix2 n (0 : Fin 1) :=
    funext fun a => by match a with | ⟨0, _⟩ => rfl | ⟨1, _⟩ => rfl
  have er : ridx_main_v72 (ix2 n k) 0 = ix2 (0 : Fin 1) k :=
    funext fun a => by match a with | ⟨0, _⟩ => rfl | ⟨1, _⟩ => rfl
  rw [el, er]
  rfl

/-- The feature row `[cos | sin]` of the projected time. -/
private theorem time_feat (n : Fin 25000) (k : Fin 128) :
    val_main_v77 (F := Ideal) x4 x23 (ix2 n k) = (Spec.rff (x4 (ix2 n (0 : Fin 1))) (row1 x23)) k := by
  have hc : mat (val_main_v75 (F := Ideal) x4 x23 : S25000x64.Idx → EReal) n
      = fun k => Ideal.cos (Ideal.ofBits .f32 0x40C90FDB#32 * (x4 (ix2 n (0 : Fin 1)) * row1 x23 k)) := by
    funext k
    show val_main_v75 (F := Ideal) x4 x23 (ix2 n k) = _
    rw [val_main_v75_apply, time_proj]
    rfl
  have hs : mat (val_main_v76 (F := Ideal) x4 x23 : S25000x64.Idx → EReal) n
      = fun k => Ideal.sin (Ideal.ofBits .f32 0x40C90FDB#32 * (x4 (ix2 n (0 : Fin 1)) * row1 x23 k)) := by
    funext k
    show val_main_v76 (F := Ideal) x4 x23 (ix2 n k) = _
    rw [val_main_v76_apply, time_proj]
    rfl
  unfold val_main_v77 Spec.rff
  rw [cat64_read, hc, hs]

/-- The first layer before the activation. -/
private theorem time_pre (n : Fin 25000) (h : Fin 128) :
    val_main_v81 (F := Ideal) x4 x23 x24 x25 (ix2 n h)
      = Spec.lin (Spec.rff (x4 (ix2 n (0 : Fin 1))) (row1 x23)) (mat x24) (vec x25) h := by
  rw [val_main_v81_apply, val_main_v78_apply, val_main_v80_apply, val_main_v79_apply, Ideal.addf_def]
  unfold Spec.lin
  refine congrArg₂ (· + ·) (Finset.sum_congr rfl fun k _ => ?_) ?_
  · have el : lidx_main_v78 (ix2 n h) k = ix2 n k :=
      funext fun a => by match a with | ⟨0, _⟩ => rfl | ⟨1, _⟩ => rfl
    have er : ridx_main_v78 (ix2 n h) k = ix2 k h :=
      funext fun a => by match a with | ⟨0, _⟩ => rfl | ⟨1, _⟩ => rfl
    rw [el, er, time_feat]
  · exact congrArg x25 (funext fun a => by match a with | ⟨0, _⟩ => rfl)

/-- The hidden row. -/
private theorem time_hid (n : Fin 25000) (h : Fin 128) :
    val_main_v82 (F := Ideal) x4 x23 x24 x25 (ix2 n h)
      = Spec.silu (Spec.lin (Spec.rff (x4 (ix2 n (0 : Fin 1))) (row1 x23)) (mat x24) (vec x25) h) := by
  rw [val_main_v82_apply, val_main_call4_v5_apply, val_main_call4_v4_apply, val_main_call4_cst_0_apply,
    val_main_call4_v3_apply, val_main_call4_v2_apply, val_main_call4_cst_apply, val_main_call4_v1_apply,
    val_main_call4_v0_apply, time_pre]
  exact silu_word _

/-- The perceptron. -/
private theorem upd_t (n : Fin 25000) (q : Fin 128) :
    val_main_v86 (F := Ideal) x4 x23 x24 x25 x26 x27 (ix2 n q)
      = Spec.mlp (Spec.rff (x4 (ix2 n (0 : Fin 1))) (row1 x23)) (mat x24) (vec x25) (mat x26) (vec x27) q := by
  rw [val_main_v86_apply, val_main_v83_apply, val_main_v85_apply, val_main_v84_apply, Ideal.addf_def, mlp_eq]
  refine congrArg₂ (· + ·) (Finset.sum_congr rfl fun k _ => ?_) ?_
  · have el : lidx_main_v83 (ix2 n q) k = ix2 n k :=
      funext fun a => by match a with | ⟨0, _⟩ => rfl | ⟨1, _⟩ => rfl
    have er : ridx_main_v83 (ix2 n q) k = ix2 k q :=
      funext fun a => by match a with | ⟨0, _⟩ => rfl | ⟨1, _⟩ => rfl
    rw [el, er, time_hid]
  · exact congrArg x27 (funext fun a => by match a with | ⟨0, _⟩ => rfl)

theorem ref_h0 (n : Fin 25000) (q : Fin 128) :
    RH0 x0 x1 x2 x4 x5 x6 x7 x8 x9 x10 x11 x12 x13 x14 x15 x16 x17 x18 x23 x24 x25 x26 x27 (ix2 n q)
      = Spec.upd (mat (RF x0 x5 x6) n) (mat (RAGG x0 x1 x2 x5 x6 x7 x8 x9 x10 x11 x12 x13 x14) n) (x4 (ix2 n (0 : Fin 1))) (row1 x23)
          (mat x15) (vec x16) (mat x17) (vec x18) (mat x24) (vec x25) (mat x26) (vec x27) q := by
  unfold RH0 Spec.upd
  rw [val_main_v87_apply, upd_h, upd_t, Ideal.addf_def]

end Cert.ReferenceIdeal.RefVal

end
-- ==== Proof.Bridge.lean ====
/-
  The bridge. On one launch memory, each array the kernel program leaves is the reference's stage of that memory's
  argument arrays: the node embedding (an affine map of species rows, both sides), the two gathered arrays (the same
  rows at the same wrapped indices once every index is in range, so that the kernel's out-of-range fill never
  applies), the edge embedding (one perceptron, both sides), the 512 columns of the kernel's edge output (the message
  row over the merged first layer's left half IS the reference's message row; column 128 + 128 k + q is the
  reference's vector-message row times component k of the edge vector, the product commuted), the segment sums (the
  one 512-wide sum read at a column is that column's sum), and the node update (the same two perceptrons of the same
  rows).
-/
import proofs.«425565_j41283225649648_3_alg».proof.Proof.Val0
import proofs.«425565_j41283225649648_3_alg».proof.Proof.Val1
import proofs.«425565_j41283225649648_3_alg».proof.Proof.Val2
import proofs.«425565_j41283225649648_3_alg».proof.Proof.HostA
import proofs.«425565_j41283225649648_3_alg».proof.Proof.HostB
import proofs.«425565_j41283225649648_3_alg».proof.Proof.Scatter
import proofs.«425565_j41283225649648_3_alg».proof.Proof.RefEdge
import proofs.«425565_j41283225649648_3_alg».proof.Proof.RefNode

set_option maxRecDepth 16384

noncomputable section

open scoped BigOperators

namespace Cert.Bridge

open Cert.KernelIdeal Cert.KernelIdeal.Gen Idealize.ShloMosaic Idealize.ShloMosaic.TcCoe Idealize.SL.Sem
open Idealize.ShloMosaic.ValueIdx
open Cert.Spec (mat vec row1)
open Cert.KernelIdeal.Host Cert.KernelIdeal.Val Cert.ReferenceIdeal.RefVal

variable (m : (ℓ : Loc nD τ sig) → Buf (Elt Ideal) ℓ) (ρ : Dev nD → PrngReg)

/-- Argument array `k` as launched, over its literal shape. -/
abbrev X0 (c : Dev nD) : S25000x100.Idx → EReal := m ((c : Thread nD τ).loc main_arg0)
abbrev X1 (c : Dev nD) : S2x400000.Idx → BitVec 32 := m ((c : Thread nD τ).loc main_arg1)
abbrev X2 (c : Dev nD) : S400000x120.Idx → EReal := m ((c : Thread nD τ).loc main_arg2)
abbrev X3 (c : Dev nD) : S400000x3.Idx → EReal := m ((c : Thread nD τ).loc main_arg3)
abbrev X4 (c : Dev nD) : S25000x1.Idx → EReal := m ((c : Thread nD τ).loc main_arg4)
abbrev X5 (c : Dev nD) : S100x128.Idx → EReal := m ((c : Thread nD τ).loc main_arg5)
abbrev X6 (c : Dev nD) : S128.Idx → EReal := m ((c : Thread nD τ).loc main_arg6)
abbrev X7 (c : Dev nD) : S120x128.Idx → EReal := m ((c : Thread nD τ).loc main_arg7)
abbrev X8 (c : Dev nD) : S128.Idx → EReal := m ((c : Thread nD τ).loc main_arg8)
abbrev X9 (c : Dev nD) : S128x128.Idx → EReal := m ((c : Thread nD τ).loc main_arg9)
abbrev X10 (c : Dev nD) : S128.Idx → EReal := m ((c : Thread nD τ).loc main_arg10)
abbrev X11 (c : Dev nD) : S384x128.Idx → EReal := m ((c : Thread nD τ).loc main_arg11)
abbrev X12 (c : Dev nD) : S128.Idx → EReal := m ((c : Thread nD τ).loc main_arg12)
abbrev X13 (c : Dev nD) : S128x128.Idx → EReal := m ((c : Thread nD τ).loc main_arg13)
abbrev X14 (c : Dev nD) : S128.Idx → EReal := m ((c : Thread nD τ).loc main_arg14)
abbrev X15 (c : Dev nD) : S256x128.Idx → EReal := m ((c : Thread nD τ).loc main_arg15)
abbrev X16 (c : Dev nD) : S128.Idx → EReal := m ((c : Thread nD τ).loc main_arg16)
abbrev X17 (c : Dev nD) : S128x128.Idx → EReal := m ((c : Thread nD τ).loc main_arg17)
abbrev X18 (c : Dev nD) : S128.Idx → EReal := m ((c : Thread nD τ).loc main_arg18)
abbrev X19 (c : Dev nD) : S384x128.Idx → EReal := m ((c : Thread nD τ).loc main_arg19)
abbrev X20 (c : Dev nD) : S128.Idx → EReal := m ((c : Thread nD τ).loc main_arg20)
abbrev X21 (c : Dev nD) : S128x128.Idx → EReal := m ((c : Thread nD τ).loc main_arg21)
abbrev X22 (c : Dev nD) : S128.Idx → EReal := m ((c : Thread nD τ).loc main_arg22)
abbrev X23 (c : Dev nD) : S1x64.Idx → EReal := m ((c : Thread nD τ).loc main_arg23)
abbrev X24 (c : Dev nD) : S128x128.Idx → EReal := m ((c : Thread nD τ).loc main_arg24)
abbrev X25 (c : Dev nD) : S128.Idx → EReal := m ((c : Thread nD τ).loc main_arg25)
abbrev X26 (c : Dev nD) : S128x128.Idx → EReal := m ((c : Thread nD τ).loc main_arg26)
abbrev X27 (c : Dev nD) : S128.Idx → EReal := m ((c : Thread nD τ).loc main_arg27)

/-- A bias kept as a `1 × 128` row whose entries are a vector's is that vector, read as a row. -/
theorem row1_eq_vec {C : Nat} (R : (⟨2, ![1, C]⟩ : Shape).Idx → EReal) (v : (⟨1, ![C]⟩ : Shape).Idx → EReal)
    (h : ∀ q : Fin C, R (ix2 (0 : Fin 1) q) = v (ix1 q)) : row1 R = vec v := funext h

/-- The node embedding array is the reference's. -/
theorem f_eq (c : Dev nD) : Farr m ρ c = RF (X0 m c) (X5 m c) (X6 m c) := by
  funext i
  obtain ⟨r, q, rfl⟩ : ∃ (r : Fin 25000) (q : Fin 128), i = ix2 r q := ⟨i 0, i 1, eq_ix2 i⟩
  rw [ref_f]
  refine (region0 (V1 m ρ) c r q).trans ?_
  rw [V1_arg0 m ρ c, V1_arg5 m ρ c, row1_eq_vec _ _ (V1_v4 m ρ c)]

/-- The gathered arrays are the reference's. -/
theorem fi_eq (hr : InRange m) (c : Dev nD) :
    (V5 m ρ c main_v6 : S400000x128.Idx → EReal) = RFI (X0 m c) (X1 m c) (X5 m c) (X6 m c) := by
  rw [V5_v6 m ρ hr c, ref_fi, f_eq m ρ c]
theorem fj_eq (hr : InRange m) (c : Dev nD) :
    (V5 m ρ c main_v7 : S400000x128.Idx → EReal) = RFJ (X0 m c) (X1 m c) (X5 m c) (X6 m c) := by
  rw [V5_v7 m ρ hr c, ref_fj, f_eq m ρ c]

/-- Row `e` of the edge embedding, as the second pallas_call's later layers see it, is the reference's row. -/
theorem eaRow_eq (c : Dev nD) (e : Fin 400000) :
    eaRow (V5 m ρ) c e = mat (REA (X2 m c) (X7 m c) (X8 m c) (X9 m c) (X10 m c)) e := by
  funext q
  show _ = REA (X2 m c) (X7 m c) (X8 m c) (X9 m c) (X10 m c) (ix2 e q)
  rw [ref_ea]
  unfold eaRow
  rw [V5_arg2 m ρ c, V5_arg7 m ρ c, V5_arg9 m ρ c, row1_eq_vec _ _ (V5_v10 m ρ c), row1_eq_vec _ _ (V5_v11 m ρ c)]

/-- The edge embedding array is the reference's. -/
theorem ea_eq (c : Dev nD) : EAarr m ρ c = REA (X2 m c) (X7 m c) (X8 m c) (X9 m c) (X10 m c) := by
  funext i
  obtain ⟨e, q, rfl⟩ : ∃ (e : Fin 400000) (q : Fin 128), i = ix2 e q := ⟨i 0, i 1, eq_ix2 i⟩
  refine (region1_ea (V5 m ρ) c e q).trans ?_
  exact congrFun (eaRow_eq m ρ c e) q

/-- The message columns of the kernel's edge output are the reference's message array. -/
theorem cat_msg (hr : InRange m) (c : Dev nD) (e : Fin 400000) (q : Fin 128) :
    CATarr m ρ c (ix2 e (Spec.colMsg q))
      = RMSG (X0 m c) (X1 m c) (X2 m c) (X5 m c) (X6 m c) (X7 m c) (X8 m c) (X9 m c) (X10 m c) (X11 m c) (X12 m c) (X13 m c) (X14 m c) (ix2 e q) := by
  rw [ref_msg]
  refine (region1_msg (V5 m ρ) c e q).trans ?_
  rw [fi_eq m ρ hr c, fj_eq m ρ hr c, eaRow_eq m ρ c e, V5_arg13 m ρ c, row1_eq_vec _ _ (V5_v13 m ρ c)]
  exact Spec.msgK_eq _ _ _ _ _ (mat (X11 m c)) (vec (X12 m c)) _ _ (fun k h => V5_v8_lo m ρ c k h) (fun h => V5_v12_lo m ρ c h) q

/-- Column `128 + 128 k + q` of the kernel's edge output is entry `(q, k)` of the slab the reference scatters. -/
theorem cat_mv (hr : InRange m) (c : Dev nD) (e : Fin 400000) (q : Fin 128) (k : Fin 3) :
    CATarr m ρ c (ix2 e (Spec.colMv k q))
      = RMVEV (X0 m c) (X1 m c) (X2 m c) (X3 m c) (X5 m c) (X6 m c) (X7 m c) (X8 m c) (X9 m c) (X10 m c) (X19 m c) (X20 m c) (X21 m c) (X22 m c) (ix3 e q k) := by
  rw [ref_mvev, ref_mv]
  refine (region1_mv (V5 m ρ) c e k q).trans ?_
  rw [fi_eq m ρ hr c, fj_eq m ρ hr c, eaRow_eq m ρ c e, V5_arg21 m ρ c, row1_eq_vec _ _ (V5_v14 m ρ c), V5_arg3 m ρ c]
  rw [Spec.mvK_eq _ _ _ _ _ (mat (X19 m c)) (vec (X20 m c)) _ _ (fun k h => V5_v8_hi m ρ c k h) (fun h => V5_v12_hi m ρ c h) q]
  exact mul_comm (G := EReal) _ _

/-- The aggregated messages are the reference's. -/
theorem agg_eq (hr : InRange m) (c : Dev nD) :
    (V7 m ρ c main_v19 : S25000x128.Idx → EReal)
      = RAGG (X0 m c) (X1 m c) (X2 m c) (X5 m c) (X6 m c) (X7 m c) (X8 m c) (X9 m c) (X10 m c) (X11 m c) (X12 m c) (X13 m c) (X14 m c) := by
  funext i
  obtain ⟨n, q, rfl⟩ : ∃ (n : Fin 25000) (q : Fin 128), i = ix2 n q := ⟨i 0, i 1, eq_ix2 i⟩
  rw [V7_v19 m ρ c n q, ref_agg]
  exact Spec.scat4_msg _ _ _ (fun e q => cat_msg m ρ hr c e q) n q

/-- The vector output is the reference's. -/
theorem v0_eq (hr : InRange m) (c : Dev nD) :
    (V8 m ρ c main_v22 : S25000x128x3.Idx → EReal)
      = RV0 (X0 m c) (X1 m c) (X2 m c) (X3 m c) (X5 m c) (X6 m c) (X7 m c) (X8 m c) (X9 m c) (X10 m c) (X19 m c) (X20 m c) (X21 m c) (X22 m c) := by
  funext i
  obtain ⟨n, q, k, rfl⟩ : ∃ (n : Fin 25000) (q : Fin 128) (k : Fin 3), i = ix3 n q k := ⟨i 0, i 1, i 2, eq_ix3 i⟩
  rw [V8_v22 m ρ c n q k, ref_v0]
  exact Spec.scat4_mv _ _ _ (fun e q k => cat_mv m ρ hr c e q k) n q k

/-- The node update is the reference's. -/
theorem h0_eq (hr : InRange m) (c : Dev nD) :
    (V8 m ρ c main_v27 : S25000x128.Idx → EReal)
      = RH0 (X0 m c) (X1 m c) (X2 m c) (X4 m c) (X5 m c) (X6 m c) (X7 m c) (X8 m c) (X9 m c) (X10 m c) (X11 m c) (X12 m c) (X13 m c) (X14 m c)
          (X15 m c) (X16 m c) (X17 m c) (X18 m c) (X23 m c) (X24 m c) (X25 m c) (X26 m c) (X27 m c) := by
  rw [V8_v27 m ρ c]
  funext i
  obtain ⟨n, q, rfl⟩ : ∃ (n : Fin 25000) (q : Fin 128), i = ix2 n q := ⟨i 0, i 1, eq_ix2 i⟩
  rw [ref_h0]
  refine (region2 (V7 m ρ) c n q).trans ?_
  rw [V7_v5 m ρ c, f_eq m ρ c, agg_eq m ρ hr c, V7_arg4 m ρ c, V7_arg23 m ρ c, V7_arg15 m ρ c, V7_arg17 m ρ c, V7_arg24 m ρ c, V7_arg26 m ρ c,
    row1_eq_vec _ _ (V7_v23 m ρ c), row1_eq_vec _ _ (V7_v24 m ρ c), row1_eq_vec _ _ (V7_v25 m ρ c), row1_eq_vec _ _ (V7_v26 m ρ c)]

/-- The edge embedding result is the reference's. -/
theorem ea_res_eq (c : Dev nD) :
    (V8 m ρ c main_v15_0 : S400000x128.Idx → EReal) = REA (X2 m c) (X7 m c) (X8 m c) (X9 m c) (X10 m c) := by
  rw [V8_v15_0 m ρ c, ea_eq m ρ c]

end Cert.Bridge

end
-- ==== Proof.lean ====
/-
  The certificate of the message-passing layer: the kernel program (three pallas_calls with host gathers, one
  merged segment sum and layout operations between them) against the plain reference, over the extended reals.

  The three frames are the generated ones (the reference's is its generated run with the results dropped).
  The idealization applied no rewrite, so `preserves` is trivial. The value claim: where every float input is
  finite and every entry of the edge index lies in [-25000, 25000) — the range in which the reference's row indexing
  is defined, a negative index wrapped once —, both programs end with the same three arrays. The kernel program's
  run leaves its results at the last segment boundary's contents; the bridge identifies those, array by array, with the
  reference's stages of the same argument arrays; the reference's run ends at those stages.
-/
import proofs.«425565_j41283225649648_3_alg».proof.Defs
import proofs.«425565_j41283225649648_3_alg».proof.Proof.Gen.Kernel
import proofs.«425565_j41283225649648_3_alg».proof.Proof.Gen.Kernel.Skeleton
import proofs.«425565_j41283225649648_3_alg».proof.Proof.Gen.Kernel.Launch
import proofs.«425565_j41283225649648_3_alg».proof.Proof.Gen.Kernel.Points
import proofs.«425565_j41283225649648_3_alg».proof.Proof.Gen.Kernel.Frame
import proofs.«425565_j41283225649648_3_alg».proof.Proof.Gen.KernelIdeal
import proofs.«425565_j41283225649648_3_alg».proof.Proof.Gen.KernelIdeal.Skeleton
import proofs.«425565_j41283225649648_3_alg».proof.Proof.Gen.KernelIdeal.Launch
import proofs.«425565_j41283225649648_3_alg».proof.Proof.Gen.KernelIdeal.Points
import proofs.«425565_j41283225649648_3_alg».proof.Proof.Gen.KernelIdeal.Frame
import proofs.«425565_j41283225649648_3_alg».proof.Proof.Gen.ReferenceIdeal
import proofs.«425565_j41283225649648_3_alg».proof.Proof.Gen.ReferenceIdeal.Run
import proofs.«425565_j41283225649648_3_alg».proof.Proof.Gen.ReferenceIdeal.Read
import proofs.«425565_j41283225649648_3_alg».proof.Proof.Gen.Pre_finite_inputs
import proofs.«425565_j41283225649648_3_alg».proof.Proof.KRun
import proofs.«425565_j41283225649648_3_alg».proof.Proof.PreRange
import proofs.«425565_j41283225649648_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Under the precondition every entry of the edge index is in `[-25000, 25000)`. -/
theorem inRange (m : (ℓ : Loc Cert.KernelIdeal.nD Cert.KernelIdeal.τ Cert.KernelIdeal.sig) → Buf (Elt Ideal) ℓ)
    (hpre : Cert.Pre_KernelIdeal m) : Cert.KernelIdeal.Host.InRange m := fun c p =>
  Cert.Pre_finite_inputs.Range.range_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (hpre c) p

/-- Both programs end with the same three arrays: the kernel program's results are the last boundary's contents
    (the run), those are the reference's stages of the kernel's own arguments (the bridge), and the reference's
    arguments are the kernel's. -/
theorem algebraic : Cert.algebraic_KernelIdeal_ReferenceIdeal := by
  intro m ρ m' ρ' hpre hagree
  have hr := inRange m hpre
  refine ⟨_, _, _, Cert.KernelIdeal.Gen.run_results (F := Ideal) m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · obtain ⟨e0, e1, e2, e3, e4, e5, e6, e7, e8, e9, e10, e11, e12, e13, e14, e15, e16, e17, e18, e19, e20, e21, e22, e23, e24, e25, e26, e27⟩ := hagree c
    rw [Cert.ReferenceIdeal.Read.val_main_v87_eq, e0, e1, e2, e4, e5, e6, e7, e8, e9, e10, e11, e12, e13, e14, e15, e16, e17, e18, e23, e24, e25, e26, e27]
    exact (Cert.Bridge.h0_eq m ρ hr c).symm
  · obtain ⟨e0, e1, e2, e3, e4, e5, e6, e7, e8, e9, e10, e11, e12, e13, e14, e15, e16, e17, e18, e19, e20, e21, e22, e23, e24, e25, e26, e27⟩ := hagree c
    rw [Cert.ReferenceIdeal.Read.val_main_v71_eq, e0, e1, e2, e3, e5, e6, e7, e8, e9, e10, e19, e20, e21, e22]
    exact (Cert.Bridge.v0_eq m ρ hr c).symm
  · obtain ⟨e0, e1, e2, e3, e4, e5, e6, e7, e8, e9, e10, e11, e12, e13, e14, e15, e16, e17, e18, e19, e20, e21, e22, e23, e24, e25, e26, e27⟩ := hagree c
    rw [e2, e7, e8, e9, e10]
    exact (Cert.ReferenceIdeal.Read.val_main_v16_eq _ _ _ _ _).trans (Cert.Bridge.ea_res_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
